-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S64x128 .f32) (main_arg14 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S64x64 .f32) (main_arg10 : FVec F S64 .f32) (main_arg11 : FVec F S64x64 .f32) (main_arg12 : FVec F S64 .f32) (main_arg13 : FVec F S64x128 .f32) (main_arg14 : FVec F S128 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x128 .f32) (main_arg14 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S50000x64 : Shape := ⟨2, ![50000, 64]⟩
abbrev S5000x128 : Shape := ⟨2, ![5000, 128]⟩
abbrev S5000x64 : Shape := ⟨2, ![5000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S5000x1 : Shape := ⟨2, ![5000, 1]⟩
abbrev S128x128 : Shape := ⟨2, ![128, 128]⟩
abbrev S128x1 : Shape := ⟨2, ![128, 1]⟩
abbrev S1x128 : Shape := ⟨2, ![1, 128]⟩

abbrev nBuf : Space → Nat
  | .hbm => 70
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x128, .f32⟩
  | .hbm, ⟨14, _⟩ => ⟨S128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S50000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S128x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S128x64, .f32⟩
  | .hbm, ⟨49, _⟩ => ⟨S50000x1, .i32⟩
  | .hbm, ⟨50, _⟩ => ⟨S128x64, .f32⟩
  | .hbm, ⟨51, _⟩ => ⟨S_, .f32⟩
  | .hbm, ⟨52, _⟩ => ⟨S50000, .f32⟩
  | .hbm, ⟨53, _⟩ => ⟨S_, .f32⟩
  | .hbm, ⟨54, _⟩ => ⟨S128, .f32⟩
  | .hbm, ⟨55, _⟩ => ⟨S50000x1, .i32⟩
  | .hbm, ⟨56, _⟩ => ⟨S128, .f32⟩
  | .hbm, ⟨57, _⟩ => ⟨S128x128, .f32⟩
  | .hbm, ⟨58, _⟩ => ⟨S128x1, .f32⟩
  | .hbm, ⟨59, _⟩ => ⟨S1x128, .f32⟩
  | .hbm, ⟨60, _⟩ => ⟨S128x128, .f32⟩
  | .hbm, ⟨61, _⟩ => ⟨S128x128, .f32⟩
  | .hbm, ⟨62, _⟩ => ⟨S128x128, .f32⟩
  | .hbm, ⟨63, _⟩ => ⟨S128x128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128x1, .f32⟩
  | .hbm, ⟨68, _⟩ => ⟨S128x128, .f32⟩
  | .hbm, ⟨69, _⟩ => ⟨S128x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S128x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x1, .i32⟩
  | .local _ .vmem, ⟨21, _⟩ => ⟨S5000x1, .i32⟩
  | .local _ .vmem, ⟨22, _⟩ => ⟨S128x64, .f32⟩
  | .local _ .vmem, ⟨23, _⟩ => ⟨S64, .f32⟩
  | .local _ .vmem, ⟨24, _⟩ => ⟨S64x64, .f32⟩
  | .local _ .vmem, ⟨25, _⟩ => ⟨S64, .f32⟩
  | .local _ .vmem, ⟨26, _⟩ => ⟨S128x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  concatenates_S64x64_S64x64_S128x64_d0 : Shape.Concatenates [S64x64, S64x64] S128x64 0
  shapeCasts_S5000x64_S5000x64 : S5000x64.ShapeCasts S5000x64
  concatenates_S5000x64_S5000x64_S5000x128_d1 : Shape.Concatenates [S5000x64, S5000x64] S5000x128 1
  shapeCasts_S128x64_S128x64 : S128x64.ShapeCasts S128x64
  inb_S64x64_S64x64_0_0 : ∀ a, (![0, 0] : Fin 2 → Nat) a + S64x64.size a ≤ S64x64.size a
  h_S64x64 : 0 < S64x64.numel
  shapeCasts_S50000_S50000x1 : S50000.ShapeCasts S50000x1
  iota_S5000x128_d1_w32 : S5000x128.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  natLt_1_32 : 1 < 32
  bcast_S_S50000 : S_.BroadcastsInDim S50000 (![] : Fin 0 → Fin S50000.rank)
  bcast_S_S128 : S_.BroadcastsInDim S128 (![] : Fin 0 → Fin S128.rank)
  bcast_S50000_S50000x1_0 : S50000.BroadcastsInDim S50000x1 (![0] : Fin 1 → Fin S50000x1.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  scatter_S128_S50000x1_S50000_n_0_0_1_wf : ScatterDims.WF S128 S50000x1 S50000 [] [0] [0] 1
  dot_S128x64_S64x128_S128x128_1_0_0_1_n_n_wf : DotDims.WF S128x64 S64x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .i32 = 32 ∨ (Rect.block (s := S50000x1) S5000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x64.size a ≤ S128x64.size a
  hwx2_7 : ∀ i : grid2.Coords, EltTy.bits .f32 = 32 ∨ (Rect.block (s := S128x64) S128x64.size (cc2_transform_7 i) (hinb2_7 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v16) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29) S128x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S128x128 : Shape := ⟨2, ![128, 128]⟩
abbrev S50000x1 : Shape := ⟨2, ![50000, 1]⟩
abbrev S128x1 : Shape := ⟨2, ![128, 1]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x128, .f32⟩
  | .hbm, ⟨14, _⟩ => ⟨S128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S50000x64, .f32⟩
  | .hbm, ⟨20, _⟩ => ⟨S1x64, .f32⟩
  | .hbm, ⟨21, _⟩ => ⟨S50000x64, .f32⟩
  | .hbm, ⟨22, _⟩ => ⟨S50000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S_, .f32⟩
  | .hbm, ⟨33, _⟩ => ⟨S50000x64, .f32⟩
  | .hbm, ⟨34, _⟩ => ⟨S800000x1, .i32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S_, .f32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S50000x64, .f32⟩
  | .hbm, ⟨48, _⟩ => ⟨S_, .f32⟩
  | .hbm, ⟨49, _⟩ => ⟨S50000x64, .f32⟩
  | .hbm, ⟨50, _⟩ => ⟨S50000x64, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .f32⟩
  | .hbm, ⟨60, _⟩ => ⟨S_, .f32⟩
  | .hbm, ⟨61, _⟩ => ⟨S50000x64, .f32⟩
  | .hbm, ⟨62, _⟩ => ⟨S800000x1, .i32⟩
  | .hbm, ⟨63, _⟩ => ⟨S50000x64, .f32⟩
  | .hbm, ⟨64, _⟩ => ⟨S50000x64, .f32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S_, .f32⟩
  | .hbm, ⟨77, _⟩ => ⟨S50000x64, .f32⟩
  | .hbm, ⟨78, _⟩ => ⟨S50000x64, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S128x128, .f32⟩
  | .hbm, ⟨85, _⟩ => ⟨S50000x1, .i32⟩
  | .hbm, ⟨86, _⟩ => ⟨S128x128, .f32⟩
  | .hbm, ⟨87, _⟩ => ⟨S_, .f32⟩
  | .hbm, ⟨88, _⟩ => ⟨S50000, .f32⟩
  | .hbm, ⟨89, _⟩ => ⟨S_, .f32⟩
  | .hbm, ⟨90, _⟩ => ⟨S128, .f32⟩
  | .hbm, ⟨91, _⟩ => ⟨S50000x1, .i32⟩
  | .hbm, ⟨92, _⟩ => ⟨S128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S128x1, .f32⟩
  | .hbm, ⟨97, _⟩ => ⟨S128x128, .f32⟩
  | .hbm, ⟨98, _⟩ => ⟨S128x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_cst : Ref sig .tc := ⟨.hbm, 41, rfl⟩
abbrev main_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_cst : Ref sig .tc := ⟨.hbm, 48, rfl⟩
abbrev main_call1_v0 : Ref sig .tc := ⟨.hbm, 49, rfl⟩
abbrev main_v28 : Ref sig .tc := ⟨.hbm, 50, rfl⟩
abbrev main_c_1 : Ref sig .tc := ⟨.hbm, 51, rfl⟩
abbrev main_v29 : Ref sig .tc := ⟨.hbm, 52, rfl⟩
abbrev main_v30 : Ref sig .tc := ⟨.hbm, 53, rfl⟩
abbrev main_c_2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call2_cst : Ref sig .tc := ⟨.hbm, 69, rfl⟩
abbrev main_call2_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call3_cst : Ref sig .tc := ⟨.hbm, 76, rfl⟩
abbrev main_call3_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_4 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_5 : Ref sig .tc := ⟨.hbm, 87, rfl⟩
abbrev main_v57 : Ref sig .tc := ⟨.hbm, 88, rfl⟩
abbrev main_cst_6 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_7 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x128_S50000x128_1_0_0_1_n_n_wf : DotDims.WF S50000x64 S64x128 S50000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

class Facts : Prop extends Facts₀ where

variable [Facts]
-- ==== Proof.Spec.lean ====
import Idealize.ShloMosaic.PureOps.Ideal
import Idealize.ShloMosaic.Lib.ValueIdx

/-!
  The two programs as plain mathematics over the extended reals, one function per stage, index by index.

  A graph network with two GIN layers and a mean pool.  With N = 50000 nodes, hidden width 64 and G = 128 graphs:

  * `proj x W b`      — the input projection, h₀[n, j] = Σₖ x[n, k]·W[k, j] + b[j]   (k < 128);
  * `hid h W b`       — a hidden affine map,   Σₖ h[n, k]·W[k, j] + b[j]              (k < 64);
  * `relu v`          — max(v, 0) entrywise;
  * `refMlp`          — the reference's layer after aggregation: relu(hid(relu(hid(h + a, W₁, b₁)), W₂, b₂));
  * `kerMlp`          — the kernel's layer: the rows [h | a] of width 128 against a 128 × 64 weight, then the same
                         tail; with the weight `stack W₁` = W₁ over W₁ the first product is h·W₁ + a·W₁;
  * `kerPool`         — the kernel's one-hot pooling, pooled[g, d] = Σₙ [batch n = g]·h₂[n, d];
  * `outp`            — the output projection to width 128;
  * `kerOut`, `refOut` — pool-then-project against project-then-pool, both divided by max(count, 1).

  The two sides agree where every entry is a real number (`IsFin`): the steps that join them are distributivity of
  the product over a sum, which the extended reals have only away from the infinities.
-/

noncomputable section

namespace Cert.Gin

open Idealize.ShloMosaic Idealize.ShloMosaic.ValueIdx

abbrev SN128 : Shape := ⟨2, ![50000, 128]⟩
abbrev SN64 : Shape := ⟨2, ![50000, 64]⟩
abbrev SN1 : Shape := ⟨2, ![50000, 1]⟩
abbrev SN : Shape := ⟨1, ![50000]⟩
abbrev SW128x64 : Shape := ⟨2, ![128, 64]⟩
abbrev SW64x64 : Shape := ⟨2, ![64, 64]⟩
abbrev SW64x128 : Shape := ⟨2, ![64, 128]⟩
abbrev SB64 : Shape := ⟨1, ![64]⟩
abbrev SB128 : Shape := ⟨1, ![128]⟩
abbrev SG128 : Shape := ⟨2, ![128, 128]⟩

/-- An extended real that is a real number. -/
def IsFin (x : EReal) : Prop := ∃ r : ℝ, x = (r : EReal)

/-- The input projection: row n of x against column j of W, plus the bias. -/
def proj (x : SN128.Idx → EReal) (W : SW128x64.Idx → EReal) (b : SB64.Idx → EReal) : SN64.Idx → EReal :=
  fun i => (∑ k : Fin 128, x (ix2 (i 0) k) * W (ix2 k (i 1))) + b (ix1 (i 1))

/-- A hidden affine map of width 64. -/
def hid (h : SN64.Idx → EReal) (W : SW64x64.Idx → EReal) (b : SB64.Idx → EReal) : SN64.Idx → EReal :=
  fun i => (∑ k : Fin 64, h (ix2 (i 0) k) * W (ix2 k (i 1))) + b (ix1 (i 1))

/-- The rectifier, entrywise. -/
def relu (v : SN64.Idx → EReal) : SN64.Idx → EReal := fun i => max (v i) 0

/-- The reference's GIN layer on node features h and their aggregate a. -/
def refMlp (h a : SN64.Idx → EReal) (W1 : SW64x64.Idx → EReal) (b1 : SB64.Idx → EReal) (W2 : SW64x64.Idx → EReal)
    (b2 : SB64.Idx → EReal) : SN64.Idx → EReal :=
  relu (hid (relu (hid (fun i => h i + a i) W1 b1)) W2 b2)

/-- The rows [h | a]: lanes 0 … 63 from h, lanes 64 … 127 from a. -/
def cat (h a : SN64.Idx → EReal) : SN128.Idx → EReal :=
  fun i => if hl : (i 1).val < 64 then h (ix2 (i 0) ⟨(i 1).val, hl⟩)
    else a (ix2 (i 0) ⟨(i 1).val - 64, by have := (i 1).isLt; simp only [Matrix.cons_val_one, Matrix.cons_val_zero] at this; omega⟩)

/-- W over W: rows 0 … 63 and rows 64 … 127 both W. -/
def stack (W : SW64x64.Idx → EReal) : SW128x64.Idx → EReal :=
  fun i => if hl : (i 0).val < 64 then W (ix2 ⟨(i 0).val, hl⟩ (i 1))
    else W (ix2 ⟨(i 0).val - 64, by have := (i 0).isLt; simp only [Matrix.cons_val_zero] at this; omega⟩ (i 1))

/-- The kernel's GIN layer: the concatenated rows against a 128 × 64 weight, then the reference's tail. -/
def kerMlp (h a : SN64.Idx → EReal) (Wst : SW128x64.Idx → EReal) (b1 : SB64.Idx → EReal) (W2 : SW64x64.Idx → EReal)
    (b2 : SB64.Idx → EReal) : SN64.Idx → EReal :=
  relu (hid (relu (proj (cat h a) Wst b1)) W2 b2)

/-- The kernel's pooling: entry (g, d) adds h₂[n, d] over the nodes whose graph id is the word g. -/
def kerPool (h2 : SN64.Idx → EReal) (batch : SN.Idx → BitVec 32) : SW128x64.Idx → EReal :=
  fun i => ∑ n : Fin 50000, (if batch (ix1 n) = BitVec.ofNat 32 (i 0).val then (1 : EReal) else 0) * h2 (ix2 n (i 1))

/-- The nodes of graph g: those whose id, read signed, is g. -/
def seg (batch : SN.Idx → BitVec 32) (g : Fin 128) : Finset (Fin 50000) :=
  Finset.univ.filter fun n => (batch (ix1 n)).toInt = (g.val : Int)

/-- The output projection to width 128. -/
def outp (h : SN64.Idx → EReal) (W : SW64x128.Idx → EReal) (b : SB128.Idx → EReal) : SN128.Idx → EReal :=
  fun i => (∑ k : Fin 64, h (ix2 (i 0) k) * W (ix2 k (i 1))) + b (ix1 (i 1))

/-- The kernel's result from the pooled sums: project, add count·bias, divide by max(count, one). -/
def kerOut (pooled : SW128x64.Idx → EReal) (W : SW64x128.Idx → EReal) (b : SB128.Idx → EReal) (cnt : SB128.Idx → EReal)
    (one : EReal) : SG128.Idx → EReal :=
  fun i => Ideal.div ((∑ d : Fin 64, pooled (ix2 (i 0) d) * W (ix2 d (i 1))) + cnt (ix1 (i 0)) * b (ix1 (i 1)))
    (max (cnt (ix1 (i 0))) one)

/-- The reference's result: the projected rows summed over each graph's nodes, divided by max(count, one). -/
def refOut (p : SN128.Idx → EReal) (batch : SN.Idx → BitVec 32) (cnt : SB128.Idx → EReal) (one : EReal) :
    SG128.Idx → EReal :=
  fun i => Ideal.div (0 + ∑ n ∈ seg batch (i 0), p (ix2 n (i 1))) (max (cnt (ix1 (i 0))) one)

/-- The node count of each graph, as the sum of ones. -/
def cntOf (batch : SN.Idx → BitVec 32) : SB128.Idx → EReal :=
  fun g => 0 + ∑ _n ∈ seg batch (g 0), (1 : EReal)

end Cert.Gin

end
-- ==== Proof.Ops.lean ====
import proofs.«411005_j84894323572906_3_alg».proof.Proof.Spec
import proofs.«411005_j84894323572906_3_alg».proof.Proof.Gen.ReferenceIdeal.Read

/-!
  The stages both programs share, named once, and the two programs end to end.

  `agg h e` is the neighbour sum: the rows of h gathered at the edges' sources (a negative source wraps once by the
  node count) and added into the edges' destination rows from zero; an edge whose destination is no node adds
  nothing.  Both programs compute it with the same host operations, so it is carried as one function and never opened
  except to see that it keeps real entries real.  `counts b` is the number of nodes of each graph as a sum of ones.
-/

noncomputable section

namespace Cert.Gin

open Idealize.ShloMosaic Idealize.ShloMosaic.ValueIdx Cert.ReferenceIdeal Cert.ReferenceIdeal.Gen Cert.ReferenceIdeal.Read

/-- The edge list as the programs receive it: row 0 the sources, row 1 the destinations. -/
abbrev SE : Shape := ⟨2, ![2, 800000]⟩

/-- The neighbour sum of the rows of `h` along the edges `e`. -/
def agg (h : SN64.Idx → EReal) (e : SE.Idx → BitVec 32) : SN64.Idx → EReal :=
  Host.scatterAdd (F := Ideal) (φ := .f32) scatter_S50000x64_S800000x1_S800000x64_1_0_0_1 (val_main_v15 (F := Ideal)) (val_main_v16 (F := Ideal) e)
    (Host.gather gather_S50000x64_S800000x1_S800000x64_1_0_n_n_0_1_164 h (val_main_v13 (F := Ideal) e))

/-- The nodes of each graph counted as a sum of ones (the programs' own scatter of ones). -/
def counts (b : SN.Idx → BitVec 32) : SB128.Idx → EReal := val_main_v60 (F := Ideal) b

/-- The float literal 1.0 as both programs print it. -/
def one : EReal := Ideal.ofBits .f32 0x3F800000#32

/-- The kernel's program end to end. -/
def kerAll (x : SN128.Idx → EReal) (e : SE.Idx → BitVec 32) (b : SN.Idx → BitVec 32)
    (Win : SW128x64.Idx → EReal) (bin : SB64.Idx → EReal)
    (W10 : SW64x64.Idx → EReal) (b10 : SB64.Idx → EReal) (W20 : SW64x64.Idx → EReal) (b20 : SB64.Idx → EReal)
    (W11 : SW64x64.Idx → EReal) (b11 : SB64.Idx → EReal) (W21 : SW64x64.Idx → EReal) (b21 : SB64.Idx → EReal)
    (Wout : SW64x128.Idx → EReal) (bout : SB128.Idx → EReal) : SG128.Idx → EReal :=
  let h0 := proj x Win bin
  let h1 := kerMlp h0 (agg h0 e) (stack W10) b10 W20 b20
  let h2 := kerMlp h1 (agg h1 e) (stack W11) b11 W21 b21
  kerOut (kerPool h2 b) Wout bout (counts b) one

/-- The reference end to end. -/
def refAll (x : SN128.Idx → EReal) (e : SE.Idx → BitVec 32) (b : SN.Idx → BitVec 32)
    (Win : SW128x64.Idx → EReal) (bin : SB64.Idx → EReal)
    (W10 : SW64x64.Idx → EReal) (b10 : SB64.Idx → EReal) (W20 : SW64x64.Idx → EReal) (b20 : SB64.Idx → EReal)
    (W11 : SW64x64.Idx → EReal) (b11 : SB64.Idx → EReal) (W21 : SW64x64.Idx → EReal) (b21 : SB64.Idx → EReal)
    (Wout : SW64x128.Idx → EReal) (bout : SB128.Idx → EReal) : SG128.Idx → EReal :=
  let h0 := proj x Win bin
  let h1 := refMlp h0 (agg h0 e) W10 b10 W20 b20
  let h2 := refMlp h1 (agg h1 e) W11 b11 W21 b21
  refOut (outp h2 Wout bout) b (counts b) one

end Cert.Gin

end
-- ==== Proof.Region0.lean ====
import proofs.«411005_j84894323572906_3_alg».proof.Proof.Gen.KernelIdeal.Frame
import proofs.«411005_j84894323572906_3_alg».proof.Proof.Spec
import Idealize.ShloMosaic.Lib.ValueLayout
import Idealize.ShloMosaic.Lib.Pipeline.Value
import Idealize.ShloMosaic.PureOps.Ideal.Laws

noncomputable section

namespace Cert.KernelIdeal.GinK

open Idealize.ShloMosaic Idealize.ShloMosaic.TcCoe Idealize.ShloMosaic.ValueIdx Idealize.SL.Sem
open Cert.KernelIdeal Cert.KernelIdeal.Gen Cert.Gin

/-! ## The product's operand indices, axis by axis -/

/-- The left operand's row is the output's row. -/
theorem projDot_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the summation index. -/
theorem projDot_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the summation index. -/
theorem projDot_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column is the output's column. -/
theorem projDot_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block product into the zero accumulator, entry (p, q): row p of the left block against column q of the right. -/
theorem blockProduct_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact projDot_lhs_0 _ _
    | ⟨1, _⟩ => exact (projDot_lhs_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (projDot_rhs_0 _ _).trans hk
    | ⟨1, _⟩ => exact projDot_rhs_1 _ _)
  rw [el, er]

/-- The bias row laid over the block: entry (p, q) is b[q]. -/
theorem biasRows_apply (x2 : Vec Ideal S64 .f32) (p : Fin 5000) (q : Fin 64) :
    broadcastTo S5000x64 (shapeCast S1x64 x2 shapeCasts_S64_S1x64) broadcasts_S1x64_S5000x64 (ix2 p q) = x2 (ix1 q) := by
  rw [broadcastTo_1b_ab_apply, shapeCast_a_1a_apply]

/-- The body's stored block at entry (p, q): Σₖ x[p, k]·W[k, q] + b[q]. -/
theorem pay_apply (x0 : Vec Ideal S5000x128 .f32) (x1 : Vec Ideal S128x64 .f32) (x2 : Vec Ideal S64 .f32) (p : Fin 5000) (q : Fin 64) :
    k0_pay1 (F := Ideal) x0 x1 x2 (ix2 p q) = (∑ k : Fin 128, x0 (ix2 p k) * x1 (ix2 k q)) + x2 (ix1 q) := by
  unfold k0_pay1
  rw [addf_apply, blockProduct_apply, biasRows_apply]
  rfl

/-! ## From the blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- Where the four windows' blocks sit at point t: the rows' and the output's blocks at row block t, column block 0;
    the weight's and the bias's at block 0 (decided over the ten points). -/
theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- One entry of a stored block: if the loaded blocks are rows r₀ − p … of x around row p, all of W and all of b,
    entry (p, q) of the block is entry (r₀, q) of the projection. -/
theorem block_entry (A : SN128.Idx → EReal) (W : SW128x64.Idx → EReal) (b : SB64.Idx → EReal)
    (x0 : Vec Ideal S5000x128 .f32) (x1 : Vec Ideal S128x64 .f32) (x2 : Vec Ideal S64 .f32)
    (p : Fin 5000) (q : Fin 64) (r0 : Fin 50000) (i : S5000x64.Idx) (r : SN64.Idx)
    (hi : i = ix2 p q) (hr : r = ix2 r0 q)
    (h0 : ∀ k : Fin 128, x0 (ix2 p k) = A (ix2 r0 k))
    (h1 : ∀ y : S128x64.Idx, x1 y = W y)
    (h2 : ∀ y : S64.Idx, x2 y = b y) :
    k0_pay1 (F := Ideal) x0 x1 x2 i = proj A W b r := by
  subst hi hr
  rw [pay_apply]
  show _ = (∑ k : Fin 128, A (ix2 r0 k) * W (ix2 k q)) + b (ix1 q)
  rw [h2]
  exact congrArg (· + b (ix1 q)) (Finset.sum_congr rfl fun k _ => by rw [h0 k, h1])

/-- The rows' block at point t is rows 5000·t … of x. -/
theorem rowsBlock_apply (V : (c : Dev nD) → (b : Ref sig .tc) → Buf (Elt Ideal) ((c : Thread nD τ).loc b)) (c : Dev nD) (t : Fin cfg0.N) (y : S5000x128.Idx) (i : SN128.Idx)
    (h0 : (i 0).val = t.val * 5000 + (y 0).val) (h1 : (i 1).val = (y 1).val) :
    (iblk0 V c 0 t : Vec Ideal S5000x128 .f32) y = (V c main_arg0 : SN128.Idx → EReal) i := by
  obtain ⟨e00, e01, -⟩ := blockIndex_facts t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e00, h0]; omega
  | ⟨1, _⟩ => show win0_0.index t 1 * 128 + 1 * (y 1).val = (i 1).val; rw [e01, h1]; omega

/-- The weight's block at every point is W. -/
theorem weightBlock_apply (V : (c : Dev nD) → (b : Ref sig .tc) → Buf (Elt Ideal) ((c : Thread nD τ).loc b)) (c : Dev nD) (t : Fin cfg0.N) (y : S128x64.Idx) :
    (iblk0 V c 1 t : Vec Ideal S128x64 .f32) y = (V c main_arg3 : SW128x64.Idx → EReal) y := by
  obtain ⟨-, -, e10, e11, -⟩ := blockIndex_facts t
  unfold iblk0
  rw [View.read_apply]
  show V c main_arg3 _ = V c main_arg3 _
  congr 1
  funext a
  apply Fin.ext
  match a with
  | ⟨0, _⟩ => show win0_1.index t 0 * 128 + 1 * (y 0).val = (y 0).val; rw [e10]; omega
  | ⟨1, _⟩ => show win0_1.index t 1 * 64 + 1 * (y 1).val = (y 1).val; rw [e11]; omega

/-- The bias's block at every point is b. -/
theorem biasBlock_apply (V : (c : Dev nD) → (b : Ref sig .tc) → Buf (Elt Ideal) ((c : Thread nD τ).loc b)) (c : Dev nD) (t : Fin cfg0.N) (y : S64.Idx) :
    (iblk0 V c 2 t : Vec Ideal S64 .f32) y = (V c main_arg4 : SB64.Idx → EReal) y := by
  obtain ⟨-, -, -, -, e20, -⟩ := blockIndex_facts t
  unfold iblk0
  rw [View.read_apply]
  show V c main_arg4 _ = V c main_arg4 _
  congr 1
  funext a
  apply Fin.ext
  match a with
  | ⟨0, _⟩ => show win0_2.index t 0 * 64 + 1 * (y 0).val = (y 0).val; rw [e20]; omega

/-- What point t writes back is block t of the projection of the arrays as the region found them. -/
theorem writeBack_eq (V : (c : Dev nD) → (b : Ref sig .tc) → Buf (Elt Ideal) ((c : Thread nD τ).loc b)) (c : Dev nD) (t : Fin cfg0.N) :
    (dat0 V c).flushed 3 t = ((cfg0.win 3).blk t).view.read (Elt Ideal) (proj (V c main_arg0) (V c main_arg3) (V c main_arg4)) := by
  show (cfg0.win 3).cut (grid0.coords t) ((dat0 V c).after 3 t) = _
  rw [after0_3]
  unfold out0_3
  rw [View.canon_unit_zero zeros2]
  simp only [View.ld_unit_zero (S := S5000x128) zeros2, View.ld_unit_zero (S := S128x64) zeros2, View.ld_unit_zero (S := S64) zeros1]
  obtain ⟨-, -, -, -, -, e30, e31⟩ := blockIndex_facts t
  funext j
  have hp : (j 0).val < 5000 := (j 0).isLt
  have hq : (j 1).val < 64 := (j 1).isLt
  have ht : t.val < 10 := t.isLt
  show k0_pay1 (F := Ideal) (iblk0 V c 0 t) (iblk0 V c 1 t) (iblk0 V c 2 t) j
    = proj (V c main_arg0) (V c main_arg3) (V c main_arg4) (((cfg0.win 3).blk t).view.emb j)
  have hi : (j : S5000x64.Idx) = ix2 (⟨(j 0).val, hp⟩ : Fin 5000) (⟨(j 1).val, hq⟩ : Fin 64) :=
    funext fun a => match a with | ⟨0, _⟩ => rfl | ⟨1, _⟩ => rfl
  have hr : (((cfg0.win 3).blk t).view.emb j : SN64.Idx) = ix2 (⟨t.val * 5000 + (j 0).val, by omega⟩ : Fin 50000) (⟨(j 1).val, hq⟩ : Fin 64) :=
    funext fun a => Fin.ext (by
      match a with
      | ⟨0, _⟩ => show win0_3.index t 0 * 5000 + 1 * (j 0).val = t.val * 5000 + (j 0).val; rw [e30]; omega
      | ⟨1, _⟩ => show win0_3.index t 1 * 64 + 1 * (j 1).val = (j 1).val; rw [e31]; omega)
  exact block_entry (V c main_arg0) (V c main_arg3) (V c main_arg4) (iblk0 V c 0 t) (iblk0 V c 1 t) (iblk0 V c 2 t)
    ⟨(j 0).val, hp⟩ ⟨(j 1).val, hq⟩ ⟨t.val * 5000 + (j 0).val, by omega⟩ j (((cfg0.win 3).blk t).view.emb j) hi hr
    (fun k => rowsBlock_apply V c t (ix2 ⟨(j 0).val, hp⟩ k) (ix2 ⟨t.val * 5000 + (j 0).val, by omega⟩ k) rfl rfl)
    (weightBlock_apply V c t) (biasBlock_apply V c t)

/-- An index of the output array is in point t's block iff each coordinate is in the block's range on its axis. -/
theorem mem_outBlock (t : Fin cfg0.N) (i : SN64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v4).slice (win0_3.rect t)).set ↔ _
  rw [View.set_slice_whole, Rect.mem_set_unit]
  exact Iff.rfl

/-- Row r of the output lies in the block of point r / 5000, which is written back. -/
theorem rows_covered (i : SN64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 10 := N_0
  obtain ⟨t, ht⟩ : ∃ t : Fin cfg0.N, t.val = (i 0).val / 5000 := ⟨⟨(i 0).val / 5000, by show _ < grid0.N; omega⟩, rfl⟩
  obtain ⟨-, -, -, -, -, e30, e31⟩ := blockIndex_facts t
  refine ⟨t, flush0_3 t, ?_⟩
  rw [mem_outBlock]
  intro a
  match a with
  | ⟨0, _⟩ => show win0_3.index t 0 * 5000 ≤ (i 0).val ∧ (i 0).val < win0_3.index t 0 * 5000 + 5000; rw [e30]; omega
  | ⟨1, _⟩ => show win0_3.index t 1 * 64 ≤ (i 1).val ∧ (i 1).val < win0_3.index t 1 * 64 + 64; rw [e31]; omega

/-- Region 0 (the input projection, ten row blocks of 5000): after its last point the output array is
    `proj` of the three input arrays as the region found them. -/
theorem region0_value (V : (c : Dev nD) → (b : Ref sig .tc) → Buf (Elt Ideal) ((c : Thread nD τ).loc b)) (c : Dev nD) :
    ((dat0 V c).arrAt 3 cfg0.N : SN64.Idx → EReal) = proj (V c main_arg0) (V c main_arg3) (V c main_arg4) :=
  (dat0 V c).arrAt_eq_of_cover 3 (proj (V c main_arg0) (V c main_arg3) (V c main_arg4)) (fun t _ => writeBack_eq V c t) rows_covered

end Cert.KernelIdeal.GinK

end
-- ==== Proof.LibMlpRead.lean ====
import proofs.«411005_j84894323572906_3_alg».proof.Proof.Gen.KernelIdeal.Skeleton
import proofs.«411005_j84894323572906_3_alg».proof.Proof.Spec
import Idealize.ShloMosaic.Lib.Pipeline.Value
import Idealize.ShloMosaic.Lib.ValueIdx
import Idealize.ShloMosaic.PureOps.Ideal.Laws

/-!
  One GIN layer's arithmetic on a block of 5000 rows, read at an entry.

  The layer takes two blocks h, a of 5000 × 64, lays them side by side as rows of width 128, multiplies by a
  128 × 64 weight, adds a bias row, rectifies, multiplies by a 64 × 64 weight, adds a second bias row and rectifies
  again.  Entry (p, q) of the result is

      max (Σ_k max (Σ_k' [h | a](p, k') · W(k', k) + b₁(k)) 0 · W₂(k, q) + b₂(q)) 0,

  where [h | a](p, k') is h(p, k') for k' < 64 and a(p, k' − 64) otherwise.  Every step is read off at an index:
  the side-by-side rows, the two products as sums over their one contracted axis, the bias rows, the rectifier.
  The changes of float format in between are the identity on extended reals.
-/

noncomputable section

namespace Cert.KernelIdeal.GinK

open Idealize.ShloMosaic Idealize.ShloMosaic.ValueIdx
open Cert.KernelIdeal Cert.KernelIdeal.Facts₀

/-! ## The rows [h | a] -/

/-- Lane k' of row p of the side-by-side rows: from h below lane 64, from a at lane k' − 64 above. -/
def catAt {α : Type} (h a : S5000x64.Idx → α) (p : Fin 5000) (k' : Fin 128) : α :=
  if hl : k'.val < 64 then h (ix2 p ⟨k'.val, hl⟩) else a (ix2 p ⟨k'.val - 64, by have := k'.isLt; omega⟩)

/-- Two 5000 × 64 blocks joined along the lanes, read at (p, k'). -/
theorem concat_lanes_apply {α : Type} (h a : S5000x64.Idx → α)
    (hc : Shape.Concatenates [S5000x64, S5000x64] S5000x128 1) (p : Fin 5000) (k' : Fin 128) :
    concatenate S5000x128 1 [⟨S5000x64, h⟩, ⟨S5000x64, a⟩] hc (ix2 p k') = catAt h a p k' := by
  unfold catAt
  by_cases hl : k'.val < 64
  · rw [dif_pos hl]
    refine concatenate_pair_apply_left (t := S5000x128) (s₁ := S5000x64) (s₂ := S5000x64) (1 : Fin 2) h a hc _ rfl _ ?_
    intro b
    match b with
    | ⟨0, _⟩ => rfl
    | ⟨1, _⟩ => rfl
  · rw [dif_neg hl]
    refine concatenate_pair_apply_right (t := S5000x128) (s₁ := S5000x64) (s₂ := S5000x64) (1 : Fin 2) h a hc _ rfl rfl _ ?_ ?_
    · intro b hb
      match b with
      | ⟨0, _⟩ => rfl
      | ⟨1, _⟩ => exact absurd rfl hb
    · show (k'.val - 64) + 64 = k'.val
      omega

/-! ## A bias row broadcast down the rows -/

/-- A bias vector [64] viewed as one row [1, 64] and repeated over 5000 rows reads its lane. -/
theorem bias_rows_apply {α : Type} (b : S64.Idx → α) (h1 : S64.ShapeCasts S1x64) (h2 : S1x64.Broadcasts S5000x64)
    (p : Fin 5000) (q : Fin 64) :
    broadcastTo S5000x64 (shapeCast S1x64 b h1) h2 (ix2 p q) = b (ix1 q) := by
  rw [broadcastTo_apply (shapeCast S1x64 b h1) h2 (ix2 p q) (ix2 (⟨0, Nat.one_pos⟩ : Fin 1) q) (fun a => by
    match a with
    | ⟨0, _⟩ => rfl
    | ⟨1, _⟩ => rfl)]
  exact shapeCast_apply b h1 _ (ix1 q) (by
    rw [Shape.rowMajor_val_one, Shape.rowMajor_val_two]
    show q.val = 0 * 64 + q.val
    omega)

/-- The float literal 0.0 is the extended real 0. -/
theorem zero_lit : (Scalar.ofBits (F := Ideal) .f32 0x00000000#32 : EReal) = 0 := Ideal.ofBits_zero_f32

/-! ## The first product: rows of width 128 against the 128 × 64 weight

  The product's operand indices at output entry i and contraction index q, axis by axis. -/

theorem lhs_wide_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_wide_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_wide_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_wide_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Into a zero accumulator the product's entry (p, k) is the sum over the 128 lanes of row p of l times column k of r. -/
theorem wide_product_apply (l : FVec Ideal S5000x128 .bf16) (r : FVec Ideal S128x64 .bf16) (p : Fin 5000) (k : Fin 64) :
    matmul dot_S5000x128_S128x64_S5000x64_1_0_0_1_n_n none l r (constant (F := Ideal) S5000x64 .f32 0x00000000#32) (ix2 p k)
      = ∑ k' : Fin 128, l (ix2 p k') * r (ix2 k' k) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k' _ => ?_
  have hk := ValueIdx.contrEquiv1_symm_val dot_S5000x128_S128x64_S5000x64_1_0_0_1_n_n 128 rfl rfl k'
  have el : dot_S5000x128_S128x64_S5000x64_1_0_0_1_n_n.lhsIdx (ix2 p k) ((ValueIdx.contrEquiv1 dot_S5000x128_S128x64_S5000x64_1_0_0_1_n_n 128 rfl rfl).symm k') = ix2 p k' := funext fun a => Fin.ext (by
    match a with
    | ⟨0, _⟩ => exact lhs_wide_0 _ _
    | ⟨1, _⟩ => exact (lhs_wide_1 _ _).trans hk)
  have er : dot_S5000x128_S128x64_S5000x64_1_0_0_1_n_n.rhsIdx (ix2 p k) ((ValueIdx.contrEquiv1 dot_S5000x128_S128x64_S5000x64_1_0_0_1_n_n 128 rfl rfl).symm k') = ix2 k' k := funext fun a => Fin.ext (by
    match a with
    | ⟨0, _⟩ => exact (rhs_wide_0 _ _).trans hk
    | ⟨1, _⟩ => exact rhs_wide_1 _ _)
  rw [el, er]

/-! ## The second product: rows of width 64 against the 64 × 64 weight -/

theorem lhs_sq_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_sq_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_sq_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_sq_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Into a zero accumulator the product's entry (p, q) is the sum over the 64 lanes of row p of l times column q of r. -/
theorem sq_product_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_sq_0 _ _
    | ⟨1, _⟩ => exact (lhs_sq_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_sq_0 _ _).trans hk
    | ⟨1, _⟩ => exact rhs_sq_1 _ _)
  rw [el, er]

/-! ## The whole layer -/

/-- The layer on a block, operation by operation: join the lanes, first product, bias, rectifier, second product,
    bias, rectifier; the format changes and the same-shape reshapes in between change no value. -/
def mlpBlock (x0 x1 : Vec Ideal S5000x64 .f32) (x2 : Vec Ideal S128x64 .f32) (x3 : Vec Ideal S64 .f32)
    (x4 : Vec Ideal S64x64 .f32) (x5 : Vec Ideal S64 .f32) : FVec Ideal S5000x64 .f32 :=
  maximumf
    (addf
      (matmul dot_S5000x64_S64x64_S5000x64_1_0_0_1_n_n none
        (truncf .bf16
          (maximumf
            (addf
              (matmul dot_S5000x128_S128x64_S5000x64_1_0_0_1_n_n none
                (truncf .bf16
                  (concatenate S5000x128 1
                    [⟨S5000x64, shapeCast S5000x64 x0 shapeCasts_S5000x64_S5000x64⟩,
                     ⟨S5000x64, shapeCast S5000x64 x1 shapeCasts_S5000x64_S5000x64⟩]
                    concatenates_S5000x64_S5000x64_S5000x128_d1)
                  bitsLt_bf16_f32)
                (truncf .bf16 (shapeCast S128x64 x2 shapeCasts_S128x64_S128x64) bitsLt_bf16_f32)
                (constant S5000x64 .f32 0x00000000#32))
              (broadcastTo S5000x64 (shapeCast S1x64 x3 shapeCasts_S64_S1x64) broadcasts_S1x64_S5000x64))
            (broadcast S5000x64 (Scalar.ofBits .f32 0x00000000#32)))
          bitsLt_bf16_f32)
        (truncf .bf16 x4 bitsLt_bf16_f32)
        (constant S5000x64 .f32 0x00000000#32))
      (broadcastTo S5000x64 (shapeCast S1x64 x5 shapeCasts_S64_S1x64) broadcasts_S1x64_S5000x64))
    (broadcast S5000x64 (Scalar.ofBits .f32 0x00000000#32))

/-- Entry q of the layer's output row, from the row's 128 input lanes and the two weights and biases. -/
def layerAt (row : Fin 128 → EReal) (W : S128x64.Idx → EReal) (b1 : S64.Idx → EReal) (W2 : S64x64.Idx → EReal)
    (b2 : S64.Idx → EReal) (q : Fin 64) : EReal :=
  max ((∑ k : Fin 64, max ((∑ k' : Fin 128, row k' * W (ix2 k' k)) + b1 (ix1 k)) 0 * W2 (ix2 k q)) + b2 (ix1 q)) 0

/-- THE LAYER AT AN ENTRY: row p of the block's output depends on row p of the two input blocks only. -/
theorem mlpBlock_apply (x0 x1 : Vec Ideal S5000x64 .f32) (x2 : Vec Ideal S128x64 .f32) (x3 : Vec Ideal S64 .f32)
    (x4 : Vec Ideal S64x64 .f32) (x5 : Vec Ideal S64 .f32) (p : Fin 5000) (q : Fin 64) :
    mlpBlock x0 x1 x2 x3 x4 x5 (ix2 p q) = layerAt (catAt x0 x1 p) x2 x3 x4 x5 q := by
  unfold mlpBlock layerAt
  simp only [maximumf_apply, addf_apply, broadcast_apply, truncf_apply, bias_rows_apply, sq_product_apply,
    wide_product_apply, concat_lanes_apply, shapeCast_self, zero_lit, Ideal.ofBits_zero_f32]
  first | done | rfl

/-- The same at an index not yet split into its coordinates. -/
theorem mlpBlock_apply_idx (x0 x1 : Vec Ideal S5000x64 .f32) (x2 : Vec Ideal S128x64 .f32) (x3 : Vec Ideal S64 .f32)
    (x4 : Vec Ideal S64x64 .f32) (x5 : Vec Ideal S64 .f32) (j : S5000x64.Idx) :
    mlpBlock x0 x1 x2 x3 x4 x5 j = layerAt (catAt x0 x1 (j 0)) x2 x3 x4 x5 (j 1) := by
  obtain ⟨p, q, rfl⟩ : ∃ (p : Fin 5000) (q : Fin 64), j = ix2 p q := ⟨j 0, j 1, eq_ix2 j⟩
  exact mlpBlock_apply x0 x1 x2 x3 x4 x5 p q

end Cert.KernelIdeal.GinK

namespace Cert.KernelIdeal.GinK

open Idealize.ShloMosaic Idealize.ShloMosaic.ValueIdx
open Cert.KernelIdeal Cert.Gin
open Cert.KernelIdeal.Gen (k1_pay1)

/-! ## The layer of whole arrays at an entry, and a block's entry against it -/

/-- The 128 lanes of row r of the rows [h | a] of the whole arrays. -/
def rowOf (h a : SN64.Idx → EReal) (r : Fin 50000) (k' : Fin 128) : EReal :=
  if hl : k'.val < 64 then h (ix2 r ⟨k'.val, hl⟩) else a (ix2 r ⟨k'.val - 64, by have := k'.isLt; omega⟩)

/-- Entry (r, q) of the layer of the whole arrays: the layer's entry formula on row r's lanes. -/
theorem kerMlp_apply (h a : SN64.Idx → EReal) (Wst : SW128x64.Idx → EReal) (b1 : SB64.Idx → EReal)
    (W2 : SW64x64.Idx → EReal) (b2 : SB64.Idx → EReal) (r : Fin 50000) (q : Fin 64) :
    kerMlp h a Wst b1 W2 b2 (ix2 r q) = layerAt (rowOf h a r) Wst b1 W2 b2 q := rfl

/-- ONE ENTRY OF A BLOCK AGAINST THE WHOLE ARRAYS.  If row p of the two row blocks is row r of two arrays A0, A1
    and the four whole blocks are the arrays A2 … A5, entry (p, q) of the layer of the blocks is entry (r, q) of the
    layer of the arrays: both are the layer's entry formula on the same 128 lanes. -/
theorem layer_entry_block (A0 A1 : SN64.Idx → EReal) (A2 : SW128x64.Idx → EReal) (A3 : SB64.Idx → EReal)
    (A4 : SW64x64.Idx → EReal) (A5 : SB64.Idx → EReal)
    (x0 x1 : Vec Ideal S5000x64 .f32) (x2 : Vec Ideal S128x64 .f32) (x3 : Vec Ideal S64 .f32)
    (x4 : Vec Ideal S64x64 .f32) (x5 : Vec Ideal S64 .f32) (p : Fin 5000) (q : Fin 64) (r : Fin 50000)
    (h0 : ∀ k : Fin 64, x0 (ix2 p k) = A0 (ix2 r k)) (h1 : ∀ k : Fin 64, x1 (ix2 p k) = A1 (ix2 r k))
    (h2 : x2 = A2) (h3 : x3 = A3) (h4 : x4 = A4) (h5 : x5 = A5) :
    mlpBlock x0 x1 x2 x3 x4 x5 (ix2 p q) = kerMlp A0 A1 A2 A3 A4 A5 (ix2 r q) := by
  subst h2 h3 h4 h5
  rw [mlpBlock_apply, kerMlp_apply]
  refine congrArg (fun row => layerAt row x2 x3 x4 x5 q) (funext fun k' => ?_)
  unfold catAt rowOf
  by_cases hl : k'.val < 64
  · rw [dif_pos hl, dif_pos hl]
    exact h0 _
  · rw [dif_neg hl, dif_neg hl]
    exact h1 _

/-- The stored value of the layer's own kernel body is the layer of its six loaded blocks. -/
theorem k1_pay1_eq (x0 x1 : Vec Ideal S5000x64 .f32) (x2 : Vec Ideal S128x64 .f32) (x3 : Vec Ideal S64 .f32)
    (x4 : Vec Ideal S64x64 .f32) (x5 : Vec Ideal S64 .f32) :
    k1_pay1 (F := Ideal) x0 x1 x2 x3 x4 x5 = mlpBlock x0 x1 x2 x3 x4 x5 := rfl

/-- The same entry statement for that body's stored value. -/
theorem layer_entry (A0 A1 : SN64.Idx → EReal) (A2 : SW128x64.Idx → EReal) (A3 : SB64.Idx → EReal)
    (A4 : SW64x64.Idx → EReal) (A5 : SB64.Idx → EReal)
    (x0 x1 : Vec Ideal S5000x64 .f32) (x2 : Vec Ideal S128x64 .f32) (x3 : Vec Ideal S64 .f32)
    (x4 : Vec Ideal S64x64 .f32) (x5 : Vec Ideal S64 .f32) (p : Fin 5000) (q : Fin 64) (r : Fin 50000)
    (h0 : ∀ k : Fin 64, x0 (ix2 p k) = A0 (ix2 r k)) (h1 : ∀ k : Fin 64, x1 (ix2 p k) = A1 (ix2 r k))
    (h2 : x2 = A2) (h3 : x3 = A3) (h4 : x4 = A4) (h5 : x5 = A5) :
    k1_pay1 (F := Ideal) x0 x1 x2 x3 x4 x5 (ix2 p q) = kerMlp A0 A1 A2 A3 A4 A5 (ix2 r q) := by
  rw [k1_pay1_eq]
  exact layer_entry_block A0 A1 A2 A3 A4 A5 x0 x1 x2 x3 x4 x5 p q r h0 h1 h2 h3 h4 h5

end Cert.KernelIdeal.GinK

end
-- ==== Proof.Region1Blocks.lean ====
import proofs.«411005_j84894323572906_3_alg».proof.Proof.Gen.KernelIdeal.Frame
import proofs.«411005_j84894323572906_3_alg».proof.Proof.Spec
import Idealize.ShloMosaic.Lib.Pipeline.Value

noncomputable section

namespace Cert.KernelIdeal.GinK

open Idealize.ShloMosaic Idealize.ShloMosaic.TcCoe Idealize.ShloMosaic.ValueIdx Idealize.SL.Sem
open Cert.KernelIdeal Cert.KernelIdeal.Gen Cert.Gin

/-! Region 1, from blocks to the array.  Its ten points each store one 5000 × 64 row block of the output; entry (p, q)
    of the block stored at point t is entry (5000·t + p, q) of the array, and it depends on row p of the two row-block
    inputs (row 5000·t + p of their arrays) and on the four whole inputs.  So if the body's value at a block entry is the
    value of a whole-array function G at the matching array entry, the output array is G. -/

theorem origin2 : (![0, 0] : Fin 2 → Nat) = fun _ => 0 := funext fun a => by fin_cases a <;> rfl
theorem origin1 : (![0] : Fin 1 → Nat) = fun _ => 0 := funext fun a => by fin_cases a <;> rfl

/-- Where the seven windows' blocks sit at point t: the two row-block inputs and the output at row block t, column
    block 0; the two weights and the two biases at block 0 (decided over the ten points). -/
theorem blockAt1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

section Blocks
variable (V : (c : Dev nD) → (b : Ref sig .tc) → Buf (Elt Ideal) ((c : Thread nD τ).loc b)) (c : Dev nD)

/-- Row p of the node features' block at point t is row 5000·t + p of their array. -/
theorem featBlock_apply (t : Fin cfg1.N) (p : Fin 5000) (k : Fin 64) (r : Fin 50000) (hr : r.val = t.val * 5000 + p.val) :
    (iblk1 V c 0 t : Vec Ideal S5000x64 .f32) (ix2 p k) = (V c main_v4 : SN64.Idx → EReal) (ix2 r k) := by
  obtain ⟨e0, e1, -⟩ := blockAt1 t
  unfold iblk1
  rw [View.read_apply]
  show V c main_v4 _ = V c main_v4 _
  congr 1
  funext a
  apply Fin.ext
  match a with
  | ⟨0, _⟩ => show win1_0.index t 0 * 5000 + 1 * p.val = r.val; rw [e0, hr]; omega
  | ⟨1, _⟩ => show win1_0.index t 1 * 64 + 1 * k.val = k.val; rw [e1]; omega

/-- Row p of the aggregates' block at point t is row 5000·t + p of their array. -/
theorem aggBlock_apply (t : Fin cfg1.N) (p : Fin 5000) (k : Fin 64) (r : Fin 50000) (hr : r.val = t.val * 5000 + p.val) :
    (iblk1 V c 1 t : Vec Ideal S5000x64 .f32) (ix2 p k) = (V c main_v14 : SN64.Idx → EReal) (ix2 r k) := by
  obtain ⟨-, -, e0, e1, -⟩ := blockAt1 t
  unfold iblk1
  rw [View.read_apply]
  show V c main_v14 _ = V c main_v14 _
  congr 1
  funext a
  apply Fin.ext
  match a with
  | ⟨0, _⟩ => show win1_1.index t 0 * 5000 + 1 * p.val = r.val; rw [e0, hr]; omega
  | ⟨1, _⟩ => show win1_1.index t 1 * 64 + 1 * k.val = k.val; rw [e1]; omega

/-- The stacked weight's block at every point is the whole array. -/
theorem w1Block_eq (t : Fin cfg1.N) : (iblk1 V c 2 t : Vec Ideal S128x64 .f32) = V c main_v15 := by
  obtain ⟨-, -, -, -, e0, e1, -⟩ := blockAt1 t
  funext y
  unfold iblk1
  rw [View.read_apply]
  show V c main_v15 _ = V c main_v15 _
  congr 1
  funext a
  apply Fin.ext
  match a with
  | ⟨0, _⟩ => show win1_2.index t 0 * 128 + 1 * (y 0).val = (y 0).val; rw [e0]; omega
  | ⟨1, _⟩ => show win1_2.index t 1 * 64 + 1 * (y 1).val = (y 1).val; rw [e1]; omega

/-- The first bias's block at every point is the whole array. -/
theorem b1Block_eq (t : Fin cfg1.N) : (iblk1 V c 3 t : Vec Ideal S64 .f32) = V c main_arg6 := by
  obtain ⟨-, -, -, -, -, -, e0, -⟩ := blockAt1 t
  funext y
  unfold iblk1
  rw [View.read_apply]
  show V c main_arg6 _ = V c main_arg6 _
  congr 1
  funext a
  apply Fin.ext
  match a with
  | ⟨0, _⟩ => show win1_3.index t 0 * 64 + 1 * (y 0).val = (y 0).val; rw [e0]; omega

/-- The second weight's block at every point is the whole array. -/
theorem w2Block_eq (t : Fin cfg1.N) : (iblk1 V c 4 t : Vec Ideal S64x64 .f32) = V c main_arg7 := by
  obtain ⟨-, -, -, -, -, -, -, e0, e1, -⟩ := blockAt1 t
  funext y
  unfold iblk1
  rw [View.read_apply]
  show V c main_arg7 _ = V c main_arg7 _
  congr 1
  funext a
  apply Fin.ext
  match a with
  | ⟨0, _⟩ => show win1_4.index t 0 * 64 + 1 * (y 0).val = (y 0).val; rw [e0]; omega
  | ⟨1, _⟩ => show win1_4.index t 1 * 64 + 1 * (y 1).val = (y 1).val; rw [e1]; omega

/-- The second bias's block at every point is the whole array. -/
theorem b2Block_eq (t : Fin cfg1.N) : (iblk1 V c 5 t : Vec Ideal S64 .f32) = V c main_arg8 := by
  obtain ⟨-, -, -, -, -, -, -, -, -, e0, -⟩ := blockAt1 t
  funext y
  unfold iblk1
  rw [View.read_apply]
  show V c main_arg8 _ = V c main_arg8 _
  congr 1
  funext a
  apply Fin.ext
  match a with
  | ⟨0, _⟩ => show win1_5.index t 0 * 64 + 1 * (y 0).val = (y 0).val; rw [e0]; omega

/-- What point t writes back is block t of G, when the body's value at each block entry is G at the matching array
    entry. -/
theorem writeBack1_eq (G : SN64.Idx → EReal)
    (hentry : ∀ (x0 x1 : Vec Ideal S5000x64 .f32) (x2 : Vec Ideal S128x64 .f32) (x3 : Vec Ideal S64 .f32)
        (x4 : Vec Ideal S64x64 .f32) (x5 : Vec Ideal S64 .f32) (p : Fin 5000) (q : Fin 64) (r : Fin 50000),
        (∀ k : Fin 64, x0 (ix2 p k) = (V c main_v4 : SN64.Idx → EReal) (ix2 r k)) →
        (∀ k : Fin 64, x1 (ix2 p k) = (V c main_v14 : SN64.Idx → EReal) (ix2 r k)) →
        x2 = V c main_v15 → x3 = V c main_arg6 → x4 = V c main_arg7 → x5 = V c main_arg8 →
        k1_pay1 x0 x1 x2 x3 x4 x5 (ix2 p q) = G (ix2 r q))
    (t : Fin cfg1.N) :
    (dat1 V c).flushed 6 t = ((cfg1.win 6).blk t).view.read (Elt Ideal) G := by
  show (cfg1.win 6).cut (grid1.coords t) ((dat1 V c).after 6 t) = _
  rw [after1_6]
  unfold out1_6
  rw [View.canon_unit_zero origin2]
  simp only [View.ld_unit_zero (S := S5000x64) origin2, View.ld_unit_zero (S := S128x64) origin2,
    View.ld_unit_zero (S := S64) origin1, View.ld_unit_zero (S := S64x64) origin2]
  obtain ⟨-, -, -, -, -, -, -, -, -, -, e0, e1⟩ := blockAt1 t
  funext j
  have hp : (j 0).val < 5000 := (j 0).isLt
  have hq : (j 1).val < 64 := (j 1).isLt
  have ht : t.val < 10 := t.isLt
  show k1_pay1 (F := Ideal) (iblk1 V c 0 t) (iblk1 V c 1 t) (iblk1 V c 2 t) (iblk1 V c 3 t) (iblk1 V c 4 t) (iblk1 V c 5 t) j
    = G (((cfg1.win 6).blk t).view.emb j)
  have hj : (j : S5000x64.Idx) = ix2 (⟨(j 0).val, hp⟩ : Fin 5000) (⟨(j 1).val, hq⟩ : Fin 64) :=
    funext fun a => match a with | ⟨0, _⟩ => rfl | ⟨1, _⟩ => rfl
  have hr : (((cfg1.win 6).blk t).view.emb j : SN64.Idx)
      = ix2 (⟨t.val * 5000 + (j 0).val, by omega⟩ : Fin 50000) (⟨(j 1).val, hq⟩ : Fin 64) :=
    funext fun a => Fin.ext (by
      match a with
      | ⟨0, _⟩ => show win1_6.index t 0 * 5000 + 1 * (j 0).val = t.val * 5000 + (j 0).val; rw [e0]; omega
      | ⟨1, _⟩ => show win1_6.index t 1 * 64 + 1 * (j 1).val = (j 1).val; rw [e1]; omega)
  have key := hentry (iblk1 V c 0 t) (iblk1 V c 1 t) (iblk1 V c 2 t) (iblk1 V c 3 t) (iblk1 V c 4 t) (iblk1 V c 5 t)
    ⟨(j 0).val, hp⟩ ⟨(j 1).val, hq⟩ ⟨t.val * 5000 + (j 0).val, by omega⟩
    (fun k => featBlock_apply V c t ⟨(j 0).val, hp⟩ k ⟨t.val * 5000 + (j 0).val, by omega⟩ rfl)
    (fun k => aggBlock_apply V c t ⟨(j 0).val, hp⟩ k ⟨t.val * 5000 + (j 0).val, by omega⟩ rfl)
    (w1Block_eq V c t) (b1Block_eq V c t) (w2Block_eq V c t) (b2Block_eq V c t)
  exact (congrArg (k1_pay1 (F := Ideal) (iblk1 V c 0 t) (iblk1 V c 1 t) (iblk1 V c 2 t) (iblk1 V c 3 t) (iblk1 V c 4 t) (iblk1 V c 5 t)) hj).trans
    (key.trans (congrArg G hr).symm)

end Blocks

/-- An index of the output array is in point t's block iff each coordinate is in the block's range on its axis. -/
theorem mem_outBlock1 (t : Fin cfg1.N) (i : SN64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v16).slice (win1_6.rect t)).set ↔ _
  rw [View.set_slice_whole, Rect.mem_set_unit]
  exact Iff.rfl

/-- Row r of the output lies in the block of point r / 5000, which is written back. -/
theorem rows_covered1 (i : SN64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : grid1.N = 10 := N_1
  obtain ⟨t, ht⟩ : ∃ t : Fin cfg1.N, t.val = (i 0).val / 5000 := ⟨⟨(i 0).val / 5000, by show _ < grid1.N; omega⟩, rfl⟩
  obtain ⟨-, -, -, -, -, -, -, -, -, -, e0, e1⟩ := blockAt1 t
  refine ⟨t, flush1_6 t, ?_⟩
  rw [mem_outBlock1]
  intro a
  match a with
  | ⟨0, _⟩ => show win1_6.index t 0 * 5000 ≤ (i 0).val ∧ (i 0).val < win1_6.index t 0 * 5000 + 5000; rw [e0]; omega
  | ⟨1, _⟩ => show win1_6.index t 1 * 64 ≤ (i 1).val ∧ (i 1).val < win1_6.index t 1 * 64 + 64; rw [e1]; omega

/-- Blocks to the array, for any entrywise description of the body's value. -/
theorem region1_of_entry (V : (c : Dev nD) → (b : Ref sig .tc) → Buf (Elt Ideal) ((c : Thread nD τ).loc b)) (c : Dev nD) (G : SN64.Idx → EReal)
    (hentry : ∀ (x0 x1 : Vec Ideal S5000x64 .f32) (x2 : Vec Ideal S128x64 .f32) (x3 : Vec Ideal S64 .f32)
        (x4 : Vec Ideal S64x64 .f32) (x5 : Vec Ideal S64 .f32) (p : Fin 5000) (q : Fin 64) (r : Fin 50000),
        (∀ k : Fin 64, x0 (ix2 p k) = (V c main_v4 : SN64.Idx → EReal) (ix2 r k)) →
        (∀ k : Fin 64, x1 (ix2 p k) = (V c main_v14 : SN64.Idx → EReal) (ix2 r k)) →
        x2 = V c main_v15 → x3 = V c main_arg6 → x4 = V c main_arg7 → x5 = V c main_arg8 →
        k1_pay1 x0 x1 x2 x3 x4 x5 (ix2 p q) = G (ix2 r q)) :
    ((dat1 V c).arrAt 6 cfg1.N : SN64.Idx → EReal) = G :=
  (dat1 V c).arrAt_eq_of_cover 6 G (fun t _ => writeBack1_eq V c G hentry t) rows_covered1

end Cert.KernelIdeal.GinK

end
-- ==== Proof.Region1.lean ====
import proofs.«411005_j84894323572906_3_alg».proof.Proof.Gen.KernelIdeal.Frame
import proofs.«411005_j84894323572906_3_alg».proof.Proof.Spec
import proofs.«411005_j84894323572906_3_alg».proof.Proof.LibMlpRead
import proofs.«411005_j84894323572906_3_alg».proof.Proof.Region1Blocks

/-!
  Region 1: the first GIN layer on the whole node arrays.

  The region's ten points each store a 5000 × 64 row block.  Entry (p, q) of a stored block is the layer's entry
  formula on the 128 lanes [h | a] of row p of the two loaded row blocks; entry (r, q) of the layer of the whole
  arrays is the same formula on the lanes of row r of the arrays.  Where the block's row p is the arrays' row r the
  two agree, and the blocks-to-array step turns that into the value of the output array.
-/

noncomputable section

namespace Cert.KernelIdeal.GinK

open Idealize.ShloMosaic Idealize.ShloMosaic.TcCoe Idealize.ShloMosaic.ValueIdx Idealize.SL.Sem
open Cert.KernelIdeal Cert.KernelIdeal.Gen Cert.Gin

/-- Region 1 (the first GIN layer's MLP, ten row blocks of 5000): after its last point the output array is
    `kerMlp` of the six input arrays as the region found them. -/
theorem region1_value (V : (c : Dev nD) → (b : Ref sig .tc) → Buf (Elt Ideal) ((c : Thread nD τ).loc b)) (c : Dev nD) :
    ((dat1 V c).arrAt 6 cfg1.N : SN64.Idx → EReal)
      = kerMlp (V c main_v4) (V c main_v14) (V c main_v15) (V c main_arg6) (V c main_arg7) (V c main_arg8) :=
  region1_of_entry V c _ fun x0 x1 x2 x3 x4 x5 p q r h0 h1 h2 h3 h4 h5 =>
    layer_entry (V c main_v4) (V c main_v14) (V c main_v15) (V c main_arg6) (V c main_arg7) (V c main_arg8)
      x0 x1 x2 x3 x4 x5 p q r h0 h1 h2 h3 h4 h5

end Cert.KernelIdeal.GinK

end
-- ==== Proof.Region2Last.lean ====
import proofs.«411005_j84894323572906_3_alg».proof.Proof.Gen.KernelIdeal.Frame
import proofs.«411005_j84894323572906_3_alg».proof.Proof.Spec
import Idealize.ShloMosaic.Lib.Pipeline.Value

noncomputable section

namespace Cert.KernelIdeal.GinK

open Idealize.ShloMosaic Idealize.ShloMosaic.TcCoe Idealize.ShloMosaic.ValueIdx Idealize.SL.Sem
open Cert.KernelIdeal Cert.KernelIdeal.Gen Cert.Gin

/-! The pooling region's output block is resident: its index map is constant, every point's body overwrites the one
    128 × 64 block, and the array after the last point is what the LAST point left in it. -/

/-- The output window's block index is (0, 0) at every grid point, so its block starts at element offset zero on
    both axes whatever the point. -/
theorem offsets2_7 (t : Fin cfg2.N) :
    (fun a => win2_7.index t a * main_v29.ty.shape.size a) = fun _ => 0 := by
  funext a
  have h : win2_7.index t a = 0 := by
    fin_cases a <;> rfl
  rw [h, Nat.zero_mul]

/-- At every grid point the output window's block is the whole 128 × 64 array: read through the block, contents of
    the array are themselves. -/
theorem blk2_7_read (t : Fin cfg2.N) (G : main_v29.ty.Contents (Elt Ideal)) :
    ((cfg2.win 7).blk t).view.read (Elt Ideal) G = G :=
  Memref.read_access_unit_zero (Elt Ideal) main_v29 (offsets2_7 t) _ G

/-- At every grid point the output window's block holds every index of the array. -/
theorem blk2_7_set (t : Fin cfg2.N) (i : main_v29.ty.shape.Idx) : i ∈ ((cfg2.win 7).blk t).view.set := by
  show i ∈ ((View.whole main_v29).slice (win2_7.rect t)).set
  rw [View.set_slice_whole]
  exact View.mem_set_unit_zero (offsets2_7 t) _ i

/-- The output array of pipeline 2 after its last grid point is the contents the tenth point's body left. -/
theorem region2_last (V : (c : Dev nD) → (b : Ref sig .tc) → Buf (Elt Ideal) ((c : Thread nD τ).loc b)) (c : Dev nD) (hn : 9 < cfg2.N) :
    ((dat2 V c).arrAt 7 cfg2.N : SW128x64.Idx → EReal) = outsAt2 V c 9 hn := by
  refine (dat2 V c).arrAt_eq_of_cover 7 (outsAt2 V c 9 hn) (fun t hf => ?_) (fun i => ?_)
  · -- the only write-back is at the last point, where the staging buffer holds what that point's body left
    have hN : cfg2.N = 10 := N_2
    have h9 : t.val = 9 := by
      have h1 := (flush2_7 t).mp hf
      have h2 := t.isLt
      omega
    obtain rfl : t = ⟨9, hn⟩ := Fin.ext h9
    show (cfg2.win 7).cut (grid2.coords ⟨9, hn⟩) ((dat2 V c).after 7 ⟨9, hn⟩) = _
    rw [after2_7]
    exact (blk2_7_read ⟨9, hn⟩ (outsAt2 V c 9 hn)).symm
  · -- and that one write-back covers the array
    exact ⟨⟨9, hn⟩, (flush2_7 _).mpr rfl, blk2_7_set ⟨9, hn⟩ i⟩

end Cert.KernelIdeal.GinK

end
-- ==== Proof.Region2Blocks.lean ====
import proofs.«411005_j84894323572906_3_alg».proof.Proof.Gen.KernelIdeal.Frame
import proofs.«411005_j84894323572906_3_alg».proof.Proof.Spec

noncomputable section

namespace Cert.KernelIdeal.GinK

open Idealize.ShloMosaic Idealize.ShloMosaic.TcCoe Idealize.ShloMosaic.ValueIdx Idealize.SL.Sem
open Cert.KernelIdeal Cert.KernelIdeal.Gen Cert.Gin

/-! Region 2's input blocks at a point, named at their literal types and read off the arrays the region found:
    the three row-block windows hold rows 5000·t … 5000·t + 4999 of their arrays, the four others their whole array. -/

abbrev hblk (V : (c : Dev nD) → (b : Ref sig .tc) → Buf (Elt Ideal) ((c : Thread nD τ).loc b)) (c : Dev nD) (t : Fin cfg2.N) : Vec Ideal S5000x64 .f32 := iblk2 V c 0 t
abbrev ablk (V : (c : Dev nD) → (b : Ref sig .tc) → Buf (Elt Ideal) ((c : Thread nD τ).loc b)) (c : Dev nD) (t : Fin cfg2.N) : Vec Ideal S5000x64 .f32 := iblk2 V c 1 t
abbrev idblk (V : (c : Dev nD) → (b : Ref sig .tc) → Buf (Elt Ideal) ((c : Thread nD τ).loc b)) (c : Dev nD) (t : Fin cfg2.N) : Vec Ideal S5000x1 .i32 := iblk2 V c 2 t
abbrev w1blk (V : (c : Dev nD) → (b : Ref sig .tc) → Buf (Elt Ideal) ((c : Thread nD τ).loc b)) (c : Dev nD) (t : Fin cfg2.N) : Vec Ideal S128x64 .f32 := iblk2 V c 3 t
abbrev b1blk (V : (c : Dev nD) → (b : Ref sig .tc) → Buf (Elt Ideal) ((c : Thread nD τ).loc b)) (c : Dev nD) (t : Fin cfg2.N) : Vec Ideal S64 .f32 := iblk2 V c 4 t
abbrev w2blk (V : (c : Dev nD) → (b : Ref sig .tc) → Buf (Elt Ideal) ((c : Thread nD τ).loc b)) (c : Dev nD) (t : Fin cfg2.N) : Vec Ideal S64x64 .f32 := iblk2 V c 5 t
abbrev b2blk (V : (c : Dev nD) → (b : Ref sig .tc) → Buf (Elt Ideal) ((c : Thread nD τ).loc b)) (c : Dev nD) (t : Fin cfg2.N) : Vec Ideal S64 .f32 := iblk2 V c 6 t

/-- Where region 2's seven input blocks sit at point t: the three row-block windows at row block t, column block 0;
    the four others at block 0 (decided over the ten points). -/
theorem blockIndex2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0 :=
  (by decide +kernel : ∀ t : Fin grid2.N, _)

theorem hblk_apply (V : (c : Dev nD) → (b : Ref sig .tc) → Buf (Elt Ideal) ((c : Thread nD τ).loc b)) (c : Dev nD) (t : Fin cfg2.N) (p : Fin 5000) (k : Fin 64) :
    hblk V c t (ix2 p k) = (V c main_v16 : SN64.Idx → EReal) (ix2 ⟨5000 * t.val + p.val, by have := t.isLt; have h10 : cfg2.N = 10 := N_2; have := p.isLt; omega⟩ k) := by
  obtain ⟨e0, e1, -⟩ := blockIndex2_facts t
  unfold hblk iblk2
  rw [View.read_apply]
  show (V c main_v16 : SN64.Idx → EReal) _ = (V c main_v16 : SN64.Idx → EReal) _
  refine congrArg (V c main_v16 : SN64.Idx → EReal) ?_
  funext a
  apply Fin.ext
  -- a coordinate of the block inside the array: block index × block extent + the coordinate inside the block
  match a with
  | ⟨0, _⟩ => show win2_0.index t (0 : Fin 2) * 5000 + 1 * p.val = 5000 * t.val + p.val; rw [e0]; omega
  | ⟨1, _⟩ => show win2_0.index t (1 : Fin 2) * 64 + 1 * k.val = k.val; rw [e1]; omega
theorem ablk_apply (V : (c : Dev nD) → (b : Ref sig .tc) → Buf (Elt Ideal) ((c : Thread nD τ).loc b)) (c : Dev nD) (t : Fin cfg2.N) (p : Fin 5000) (k : Fin 64) :
    ablk V c t (ix2 p k) = (V c main_v26 : SN64.Idx → EReal) (ix2 ⟨5000 * t.val + p.val, by have := t.isLt; have h10 : cfg2.N = 10 := N_2; have := p.isLt; omega⟩ k) := by
  obtain ⟨-, -, e0, e1, -⟩ := blockIndex2_facts t
  unfold ablk iblk2
  rw [View.read_apply]
  show (V c main_v26 : SN64.Idx → EReal) _ = (V c main_v26 : SN64.Idx → EReal) _
  refine congrArg (V c main_v26 : SN64.Idx → EReal) ?_
  funext a
  apply Fin.ext
  match a with
  | ⟨0, _⟩ => show win2_1.index t (0 : Fin 2) * 5000 + 1 * p.val = 5000 * t.val + p.val; rw [e0]; omega
  | ⟨1, _⟩ => show win2_1.index t (1 : Fin 2) * 64 + 1 * k.val = k.val; rw [e1]; omega
theorem idblk_apply (V : (c : Dev nD) → (b : Ref sig .tc) → Buf (Elt Ideal) ((c : Thread nD τ).loc b)) (c : Dev nD) (t : Fin cfg2.N) (p : Fin 5000) :
    idblk V c t (ix2 p 0) = (V c main_v28 : SN1.Idx → BitVec 32) (ix2 ⟨5000 * t.val + p.val, by have := t.isLt; have h10 : cfg2.N = 10 := N_2; have := p.isLt; omega⟩ 0) := by
  obtain ⟨-, -, -, -, e0, e1, -⟩ := blockIndex2_facts t
  unfold idblk iblk2
  rw [View.read_apply]
  show (V c main_v28 : SN1.Idx → BitVec 32) _ = (V c main_v28 : SN1.Idx → BitVec 32) _
  refine congrArg (V c main_v28 : SN1.Idx → BitVec 32) ?_
  funext a
  apply Fin.ext
  match a with
  | ⟨0, _⟩ => show win2_2.index t (0 : Fin 2) * 5000 + 1 * p.val = 5000 * t.val + p.val; rw [e0]; omega
  | ⟨1, _⟩ => show win2_2.index t (1 : Fin 2) * 1 + 1 * 0 = 0; rw [e1]
theorem w1blk_eq (V : (c : Dev nD) → (b : Ref sig .tc) → Buf (Elt Ideal) ((c : Thread nD τ).loc b)) (c : Dev nD) (t : Fin cfg2.N) : w1blk V c t = V c main_v27 := by
  obtain ⟨-, -, -, -, -, -, e0, e1, -⟩ := blockIndex2_facts t
  funext y
  unfold w1blk iblk2
  rw [View.read_apply]
  show (V c main_v27 : SW128x64.Idx → EReal) _ = (V c main_v27 : SW128x64.Idx → EReal) y
  refine congrArg (V c main_v27 : SW128x64.Idx → EReal) ?_
  funext a
  apply Fin.ext
  match a with
  | ⟨0, _⟩ => show win2_3.index t (0 : Fin 2) * 128 + 1 * (y 0).val = (y 0).val; rw [e0]; omega
  | ⟨1, _⟩ => show win2_3.index t (1 : Fin 2) * 64 + 1 * (y 1).val = (y 1).val; rw [e1]; omega
theorem b1blk_eq (V : (c : Dev nD) → (b : Ref sig .tc) → Buf (Elt Ideal) ((c : Thread nD τ).loc b)) (c : Dev nD) (t : Fin cfg2.N) : b1blk V c t = V c main_arg10 := by
  obtain ⟨-, -, -, -, -, -, -, -, e0, -⟩ := blockIndex2_facts t
  funext y
  unfold b1blk iblk2
  rw [View.read_apply]
  show (V c main_arg10 : SB64.Idx → EReal) _ = (V c main_arg10 : SB64.Idx → EReal) y
  refine congrArg (V c main_arg10 : SB64.Idx → EReal) ?_
  funext a
  apply Fin.ext
  match a with
  | ⟨0, _⟩ => show win2_4.index t (0 : Fin 1) * 64 + 1 * (y 0).val = (y 0).val; rw [e0]; omega
theorem w2blk_eq (V : (c : Dev nD) → (b : Ref sig .tc) → Buf (Elt Ideal) ((c : Thread nD τ).loc b)) (c : Dev nD) (t : Fin cfg2.N) : w2blk V c t = V c main_arg11 := by
  obtain ⟨-, -, -, -, -, -, -, -, -, e0, e1, -⟩ := blockIndex2_facts t
  funext y
  unfold w2blk iblk2
  rw [View.read_apply]
  show (V c main_arg11 : SW64x64.Idx → EReal) _ = (V c main_arg11 : SW64x64.Idx → EReal) y
  refine congrArg (V c main_arg11 : SW64x64.Idx → EReal) ?_
  funext a
  apply Fin.ext
  match a with
  | ⟨0, _⟩ => show win2_5.index t (0 : Fin 2) * 64 + 1 * (y 0).val = (y 0).val; rw [e0]; omega
  | ⟨1, _⟩ => show win2_5.index t (1 : Fin 2) * 64 + 1 * (y 1).val = (y 1).val; rw [e1]; omega
theorem b2blk_eq (V : (c : Dev nD) → (b : Ref sig .tc) → Buf (Elt Ideal) ((c : Thread nD τ).loc b)) (c : Dev nD) (t : Fin cfg2.N) : b2blk V c t = V c main_arg12 := by
  obtain ⟨-, -, -, -, -, -, -, -, -, -, -, e0⟩ := blockIndex2_facts t
  funext y
  unfold b2blk iblk2
  rw [View.read_apply]
  show (V c main_arg12 : SB64.Idx → EReal) _ = (V c main_arg12 : SB64.Idx → EReal) y
  refine congrArg (V c main_arg12 : SB64.Idx → EReal) ?_
  funext a
  apply Fin.ext
  match a with
  | ⟨0, _⟩ => show win2_6.index t (0 : Fin 1) * 64 + 1 * (y 0).val = (y 0).val; rw [e0]; omega

end Cert.KernelIdeal.GinK

end
-- ==== Proof.Region2Pieces.lean ====
import proofs.«411005_j84894323572906_3_alg».proof.Proof.Gen.KernelIdeal.Frame
import Idealize.ShloMosaic.Lib.Pipeline.Value
import Idealize.ShloMosaic.Lib.Tactic

/-!
  What one grid point of the pooling region leaves in the resident 128 × 64 output block, for any float values.

  The body computes the block's contribution C (the one-hot rows of the block's graph ids contracted with the block's
  layer output) and adds it to what the output block holds.  At the first point the block is first overwritten with
  zeros and read back, so the point leaves 0 + C; at every later point it leaves (what the point before left) + C.
  Each statement below reads the body's stores back as one value: the last store covers the whole block, so the
  block is that store's payload, and every load of an input reads the whole staging buffer.
-/

noncomputable section

namespace Cert.KernelIdeal.GinK

open Idealize.ShloMosaic Idealize.ShloMosaic.TcCoe Idealize.SL.Sem
open Cert.KernelIdeal Cert.KernelIdeal.Gen

variable {F : FTy → Type} [FloatOps F]

/-- The offsets of an access at the origin of a rank-2 buffer are all zero. -/
theorem zero_offsets2 : (![0, 0] : Fin 2 → Nat) = fun _ => 0 := funext fun a => by fin_cases a <;> rfl
/-- The same for a rank-1 buffer. -/
theorem zero_offsets1 : (![0] : Fin 1 → Nat) = fun _ => 0 := funext fun a => by fin_cases a; rfl

/-- A later point: the output block holding `acc` is left at `acc + C`, C the contribution of the point's input blocks. -/
theorem later_point_leaves (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .i32) (harg3 : arg3.IsWhole) (arg4 : Memref sig .tc .vmem S128x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S128x64 .f32) (harg8 : arg8.IsWhole) (hc0 : ¬cond2_0 i)
    (x0 : Vec F S5000x64 .f32) (x1 : Vec F S5000x64 .f32) (x2 : Vec F S5000x1 .i32) (x3 : Vec F S128x64 .f32) (x4 : Vec F S64 .f32) (x5 : Vec F S64x64 .f32) (x6 : Vec F S64 .f32) (xo7 : Vec F S128x64 .f32) :
    out2_B_7 c i arg1 harg1 arg2 harg2 arg3 harg3 arg4 harg4 arg5 harg5 arg6 harg6 arg7 harg7 arg8 harg8 hc0 x0 x1 x2 x3 x4 x5 x6 xo7
      = k2_pay1 (k2_pay3 x0 x1 x3 x4 x5 x6 x2) xo7 := by
  unfold out2_B_7
  rw [View.read_writes_eq_canon _ _ _ (cover2_B_7 c i arg1 harg1 arg2 harg2 arg3 harg3 arg4 harg4 arg5 harg5 arg6 harg6 arg7 harg7 arg8 harg8 hc0 x0 x1 x2 x3 x4 x5 x6 xo7)]
  unfold kernelRun2_B
  dsimp only
  sl_unfold_words
  rw [View.canon_unit_zero zero_offsets2]
  simp only [View.readAt_eq_ld, harg1.read_unread, harg2.read_unread, harg3.read_unread, harg4.read_unread, harg5.read_unread, harg6.read_unread, harg7.read_unread, harg8.read_unread, View.ld_unit_zero (S := S5000x64) zero_offsets2, View.ld_unit_zero (S := S5000x1) zero_offsets2, View.ld_unit_zero (S := S128x64) zero_offsets2, View.ld_unit_zero (S := S64x64) zero_offsets2, View.ld_unit_zero (S := S64) zero_offsets1]

/-- The first point: the output block is zeroed, read back, and left at `0 + C`. -/
theorem first_point_leaves (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .i32) (harg3 : arg3.IsWhole) (arg4 : Memref sig .tc .vmem S128x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S128x64 .f32) (harg8 : arg8.IsWhole) (hc0 : cond2_0 i)
    (x0 : Vec F S5000x64 .f32) (x1 : Vec F S5000x64 .f32) (x2 : Vec F S5000x1 .i32) (x3 : Vec F S128x64 .f32) (x4 : Vec F S64 .f32) (x5 : Vec F S64x64 .f32) (x6 : Vec F S64 .f32) :
    out2_A_7 c i arg1 harg1 arg2 harg2 arg3 harg3 arg4 harg4 arg5 harg5 arg6 harg6 arg7 harg7 arg8 harg8 hc0 x0 x1 x2 x3 x4 x5 x6
      = k2_pay1 (k2_pay3 x0 x1 x3 x4 x5 x6 x2) (k2_pay2 (F := F)) := by
  unfold out2_A_7
  rw [View.read_writes_eq_canon _ _ _ (cover2_A_7 c i arg1 harg1 arg2 harg2 arg3 harg3 arg4 harg4 arg5 harg5 arg6 harg6 arg7 harg7 arg8 harg8 hc0 x0 x1 x2 x3 x4 x5 x6)]
  unfold kernelRun2_A
  dsimp only
  sl_unfold_words
  rw [View.canon_cons_unit_zero (S := S128x64) zero_offsets2, View.readCov_unit_zero (S := S128x64) _ zero_offsets2]
  simp only [View.readAt_eq_ld, harg1.read_unread, harg2.read_unread, harg3.read_unread, harg4.read_unread, harg5.read_unread, harg6.read_unread, harg7.read_unread, harg8.read_unread, View.ld_unit_zero (S := S5000x64) zero_offsets2, View.ld_unit_zero (S := S5000x1) zero_offsets2, View.ld_unit_zero (S := S128x64) zero_offsets2, View.ld_unit_zero (S := S64x64) zero_offsets2, View.ld_unit_zero (S := S64) zero_offsets1]

end Cert.KernelIdeal.GinK

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.LibOneHot.lean ====
import proofs.«411005_j84894323572906_3_alg».proof.Proof.Gen.KernelIdeal.Skeleton
import proofs.«411005_j84894323572906_3_alg».proof.Proof.Spec
import proofs.«411005_j84894323572906_3_alg».proof.Proof.LibColumn
import Idealize.ShloMosaic.Lib.Pipeline.Value
import Idealize.ShloMosaic.Lib.ValueIdx
import Idealize.ShloMosaic.PureOps.Ideal.Laws

/-! The pooling block's contribution read at an entry.  Row r of the block carries a graph id; its one-hot row has a one
    in lane g exactly when the id is the word g.  Contracting the one-hot matrix with the block's feature rows over the
    row axis gives, at (g, d), the sum of feature d over the rows whose id is g. -/

noncomputable section

namespace Cert.KernelIdeal.Gen

open Idealize.ShloMosaic Idealize.ShloMosaic.ValueIdx Cert.KernelIdeal

/-- The one-hot matrix of a column of graph ids, as the kernel builds it (compare with the lane number, widen, convert). -/
def oneHotOf (v30 : Vec Ideal S5000x1 .i32) : FVec Ideal S5000x128 .f32 :=
  sitofp .f32 (extui 32 (cmpi .eq (broadcastTo S5000x128 (shapeCast S5000x1 v30 shapeCasts_S5000x1_S5000x1) broadcasts_S5000x1_S5000x128)
    (iota .tc S5000x128 32 [1] iota_S5000x128_d1_w32)) natLt_1_32)

/-- The bit of an equality test, widened to a word and read as a signed integer: the real one when the two words are
    equal, the real zero when they differ. -/
theorem sitofp_eq_bit (x y : BitVec 32) :
    (FloatOps.sitofp .f32 ((IntOp.cmpi .eq x y).setWidth 32) : Ideal .f32) = if x = y then (1 : EReal) else 0 := by
  by_cases h : x = y
  · have e : (IntOp.cmpi .eq x y).setWidth 32 = 1#32 := by
      show (BitVec.ofBool (x == y)).setWidth 32 = 1#32
      rw [beq_iff_eq.mpr h]
      rfl
    rw [e, if_pos h]
    show (((1#32 : BitVec 32).toInt : ℝ) : EReal) = 1
    have t : (1#32 : BitVec 32).toInt = 1 := by decide
    rw [t, Int.cast_one, EReal.coe_one]
  · have e : (IntOp.cmpi .eq x y).setWidth 32 = 0#32 := by
      show (BitVec.ofBool (x == y)).setWidth 32 = 0#32
      rw [beq_eq_false_iff_ne.mpr h]
      rfl
    rw [e, if_neg h]
    show (((0#32 : BitVec 32).toInt : ℝ) : EReal) = 0
    have t : (0#32 : BitVec 32).toInt = 0 := by decide
    rw [t, Int.cast_zero, EReal.coe_zero]

/-- Entry (r, g) of the one-hot matrix: one when row r's id is the word g, else zero. -/
theorem oneHotOf_apply (v30 : Vec Ideal S5000x1 .i32) (r : Fin 5000) (g : Fin 128) :
    oneHotOf v30 (ix2 r g) = if v30 (ix2 r 0) = BitVec.ofNat 32 g.val then (1 : EReal) else 0 := by
  -- the id column spread over the 128 lanes reads, in every lane of row r, row r's id
  have hb : broadcastTo S5000x128 (shapeCast S5000x1 v30 shapeCasts_S5000x1_S5000x1) broadcasts_S5000x1_S5000x128 (ix2 r g)
      = v30 (ix2 r 0) := by
    rw [shapeCast_self]
    exact Cert.LibColumn.broadcastTo_a1_ab_apply v30 broadcasts_S5000x1_S5000x128 r g
  -- the lane counter reads the lane number
  have hi : iota .tc S5000x128 32 [1] iota_S5000x128_d1_w32 (ix2 r g) = BitVec.ofNat 32 g.val :=
    iota_single_apply .tc S5000x128 32 1 iota_S5000x128_d1_w32 (ix2 r g)
  show (FloatOps.sitofp .f32 ((IntOp.cmpi .eq
      (broadcastTo S5000x128 (shapeCast S5000x1 v30 shapeCasts_S5000x1_S5000x1) broadcasts_S5000x1_S5000x128 (ix2 r g))
      (iota .tc S5000x128 32 [1] iota_S5000x128_d1_w32 (ix2 r g))).setWidth 32) : Ideal .f32) = _
  rw [hb, hi]
  exact sitofp_eq_bit _ _

/-! The contraction runs over axis 0 of both operands; the left operand's other axis is the result's row g, the right
    operand's other axis the result's column d. -/

theorem lhs_pool_0 (i : S128x64.Idx) (q : dot_S5000x128_S5000x64_S128x64_0_0_1_1_n_n.contr.Idx) :
    (dot_S5000x128_S5000x64_S128x64_0_0_1_1_n_n.lhsIdx i q 0).val = (q ⟨0, by decide⟩).val :=
  dot_S5000x128_S5000x64_S128x64_0_0_1_1_n_n.lhsIdx_val_of_single rfl i q
theorem lhs_pool_1 (i : S128x64.Idx) (q : dot_S5000x128_S5000x64_S128x64_0_0_1_1_n_n.contr.Idx) :
    (dot_S5000x128_S5000x64_S128x64_0_0_1_1_n_n.lhsIdx i q 1).val = (i 0).val := by
  unfold DotDims.lhsIdx
  rw [dif_neg (show ¬(1 : Fin S5000x128.rank) ∈ dot_S5000x128_S5000x64_S128x64_0_0_1_1_n_n.lhsBatch by decide), dif_pos (show (1 : Fin S5000x128.rank) ∈ dot_S5000x128_S5000x64_S128x64_0_0_1_1_n_n.lhsNonContracting by decide)]
  rfl
theorem rhs_pool_0 (i : S128x64.Idx) (q : dot_S5000x128_S5000x64_S128x64_0_0_1_1_n_n.contr.Idx) :
    (dot_S5000x128_S5000x64_S128x64_0_0_1_1_n_n.rhsIdx i q 0).val = (q ⟨0, by decide⟩).val :=
  dot_S5000x128_S5000x64_S128x64_0_0_1_1_n_n.rhsIdx_val_of_single rfl i q
theorem rhs_pool_1 (i : S128x64.Idx) (q : dot_S5000x128_S5000x64_S128x64_0_0_1_1_n_n.contr.Idx) :
    (dot_S5000x128_S5000x64_S128x64_0_0_1_1_n_n.rhsIdx i q 1).val = (i 1).val := by
  unfold DotDims.rhsIdx
  rw [dif_neg (show ¬(1 : Fin S5000x64.rank) ∈ dot_S5000x128_S5000x64_S128x64_0_0_1_1_n_n.rhsBatch by decide), dif_pos (show (1 : Fin S5000x64.rank) ∈ dot_S5000x128_S5000x64_S128x64_0_0_1_1_n_n.rhsNonContracting by decide)]
  rfl

/-- The contraction over the row axis into a zero accumulator, at (g, d). -/
theorem onehot_contrib (oh : FVec Ideal S5000x128 .f32) (h2 : FVec Ideal S5000x64 .f32) (g : Fin 128) (d : Fin 64) :
    matmul dot_S5000x128_S5000x64_S128x64_0_0_1_1_n_n (some .fp32) oh h2 (constant S128x64 .f32 0x00000000#32) (ix2 g d)
      = ∑ r : Fin 5000, oh (ix2 r g) * h2 (ix2 r d) := by
  simp only [matmul]
  rw [Ideal.matmul_constant_zero_apply, ← Equiv.sum_comp (contrEquiv1 dot_S5000x128_S5000x64_S128x64_0_0_1_1_n_n 5000 rfl rfl).symm]
  refine Finset.sum_congr rfl fun k _ => ?_
  have hk := contrEquiv1_symm_val dot_S5000x128_S5000x64_S128x64_0_0_1_1_n_n 5000 rfl rfl k
  have el : dot_S5000x128_S5000x64_S128x64_0_0_1_1_n_n.lhsIdx (ix2 g d) ((contrEquiv1 dot_S5000x128_S5000x64_S128x64_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x128_S5000x64_S128x64_0_0_1_1_n_n.rhsIdx (ix2 g d) ((contrEquiv1 dot_S5000x128_S5000x64_S128x64_0_0_1_1_n_n 5000 rfl rfl).symm k) = ix2 k d := funext fun a => Fin.ext (by
    match a with
    | ⟨0, _⟩ => exact (rhs_pool_0 _ _).trans hk
    | ⟨1, _⟩ => exact rhs_pool_1 _ _)
  rw [el, er]

end Cert.KernelIdeal.Gen

end
-- ==== Proof.LibConcat.lean ====
import proofs.«411005_j84894323572906_3_alg».proof.Proof.Gen.KernelIdeal.Skeleton
import proofs.«411005_j84894323572906_3_alg».proof.Proof.Spec
import Idealize.ShloMosaic.Lib.Pipeline.Value
import Mathlib.Algebra.BigOperators.Fin
import Mathlib.Logic.Equiv.Fin.Basic

/-! The kernel program's weight concatenation read at an index: a 64 × 64 weight over itself along the rows is
    `stack`.  And a sum over 50000 rows taken block by block: ten blocks of 5000. -/

noncomputable section

namespace Cert.KernelIdeal.Gen

open Idealize.ShloMosaic Idealize.ShloMosaic.ValueIdx Cert.KernelIdeal Cert.Gin

/-- A weight concatenated with itself along axis 0 is the stacked weight. -/
theorem concat_self_eq_stack (a : FVec Ideal S64x64 .f32) :
    (concatenate S128x64 0 [⟨S64x64, a⟩, ⟨S64x64, a⟩] concatenates_S64x64_S64x64_S128x64_d0 : SW128x64.Idx → EReal) = stack a := by
  funext i
  obtain ⟨p, k, rfl⟩ : ∃ (p : Fin 128) (k : Fin 64), i = ix2 p k := ⟨i 0, i 1, eq_ix2 i⟩
  by_cases hl : p.val < 64
  · -- a row below 64 lies in the first copy, at the same place
    have hs : stack a (ix2 p k) = a (ix2 ⟨p.val, hl⟩ k) := dif_pos hl
    rw [hs]
    refine concatenate_pair_apply_left _ a a _ (ix2 p k) rfl (ix2 ⟨p.val, hl⟩ k) ?_
    intro b
    match b with
    | ⟨0, _⟩ => rfl
    | ⟨1, _⟩ => rfl
  · -- a row from 64 on lies in the second copy, 64 rows up
    have hp : p.val - 64 < 64 := by have := p.isLt; omega
    have hs : stack a (ix2 p k) = a (ix2 ⟨p.val - 64, hp⟩ k) := dif_neg hl
    rw [hs]
    refine concatenate_pair_apply_right _ a a _ (ix2 p k) rfl rfl (ix2 ⟨p.val - 64, hp⟩ k) ?_ ?_
    · intro b hb
      match b, hb with
      | ⟨0, _⟩, hb => exact (hb rfl).elim
      | ⟨1, _⟩, _ => rfl
    · show (p.val - 64) + 64 = p.val
      omega

/-- A sum over m·n places, taken as m blocks of n: place n·t + r is place r of block t. -/
theorem sum_fin_blocks (m n N : ℕ) (hN : N = m * n) (f : Fin N → EReal)
    (hlt : ∀ (t : Fin m) (r : Fin n), n * t.val + r.val < N) :
    ∑ x : Fin N, f x = ∑ t : Fin m, ∑ r : Fin n, f ⟨n * t.val + r.val, hlt t r⟩ := by
  subst hN
  rw [← finProdFinEquiv.sum_comp f, Fintype.sum_prod_type]
  refine Finset.sum_congr rfl fun t _ => Finset.sum_congr rfl fun r _ => ?_
  refine congrArg f (Fin.ext ?_)
  show r.val + n * t.val = n * t.val + r.val
  omega

/-- A sum over the 50000 rows is the sum over the ten blocks of the sums over each block's 5000 rows. -/
theorem sum_rows_blocks (f : Fin 50000 → EReal) :
    ∑ n : Fin 50000, f n = ∑ t : Fin 10, ∑ r : Fin 5000, f ⟨5000 * t.val + r.val, by have := t.isLt; have := r.isLt; omega⟩ :=
  sum_fin_blocks 10 5000 50000 (by norm_num) f _

/-- The same for the first blocks only: the rows below 5000·(m+1). -/
theorem sum_rows_blocks_upto (f : Fin 50000 → EReal) (m : ℕ) (hm : m < 10) :
    ∑ n ∈ Finset.univ.filter (fun n : Fin 50000 => n.val < 5000 * (m + 1)), f n
      = ∑ t ∈ Finset.range (m + 1), ∑ r : Fin 5000, (if h : 5000 * t + r.val < 50000 then f ⟨5000 * t + r.val, h⟩ else 0) := by
  -- the blocks' sums as a function of the block's number
  have hR : ∀ F : ℕ → EReal, ∑ t ∈ Finset.range (m + 1), F t = ∑ t : Fin 10, (if t.val < m + 1 then F t.val else 0) := by
    intro F
    rw [Fin.sum_univ_eq_sum_range (fun t => if t < m + 1 then F t else 0) 10, ← Finset.sum_filter]
    refine Finset.sum_congr ?_ fun _ _ => rfl
    ext t
    simp only [Finset.mem_range, Finset.mem_filter]
    omega
  rw [Finset.sum_filter, sum_rows_blocks, hR]
  refine Finset.sum_congr rfl fun t _ => ?_
  have ht := t.isLt
  by_cases htm : t.val < m + 1
  · -- a block among the first m + 1: all its rows are below the bound
    rw [if_pos htm]
    refine Finset.sum_congr rfl fun r _ => ?_
    have hr := r.isLt
    have h1 : 5000 * t.val + r.val < 5000 * (m + 1) := by omega
    have h2 : 5000 * t.val + r.val < 50000 := by omega
    rw [dif_pos h2]
    exact if_pos h1
  · -- a later block: none of its rows is
    rw [if_neg htm]
    refine Finset.sum_eq_zero fun r _ => ?_
    have hr := r.isLt
    have h1 : ¬ 5000 * t.val + r.val < 5000 * (m + 1) := by omega
    exact if_neg h1

end Cert.KernelIdeal.Gen

end
-- ==== Proof.Region2Sum.lean ====
import proofs.«411005_j84894323572906_3_alg».proof.Proof.Gen.KernelIdeal.Frame
import proofs.«411005_j84894323572906_3_alg».proof.Proof.Spec
import proofs.«411005_j84894323572906_3_alg».proof.Proof.Region2Pieces
import proofs.«411005_j84894323572906_3_alg».proof.Proof.Region2Blocks
import proofs.«411005_j84894323572906_3_alg».proof.Proof.LibOneHot
import proofs.«411005_j84894323572906_3_alg».proof.Proof.LibConcat
import Idealize.ShloMosaic.Lib.Pipeline.Value
import Idealize.ShloMosaic.Lib.ValueIdx
import Idealize.ShloMosaic.PureOps.Ideal.Laws

/-!
  The pooling region, from one grid point to the pooled sums.

  The region walks the 50000 rows in ten blocks of 5000 and keeps ONE 128 × 64 block of sums.  At point t it forms
  the contribution C_t, with C_t[g, d] = Σ_{r < 5000} [id(5000·t + r) = g] · h₂(5000·t + r, d) — the one-hot rows of the
  block's graph ids contracted with the layer's output on the block — and adds it to the block held: the first point
  starts from zeros, every later point from what the point before left.  So after point n the block holds, entry by
  entry, Σ_{t ≤ n} C_t[g, d]; after the tenth point that is the sum over all 50000 rows, block by block, which is the
  one-hot pooling of the layer's output.  Only commutativity-free facts of the extended reals are used: 0 + x = x and
  the regrouping of one finite sum into ten consecutive runs.
-/

noncomputable section

namespace Cert.KernelIdeal.GinK

open Idealize.ShloMosaic Idealize.ShloMosaic.TcCoe Idealize.ShloMosaic.ValueIdx Idealize.SL.Sem
open Cert.KernelIdeal Cert.KernelIdeal.Gen Cert.Gin

/-! ## The body's arithmetic at an entry -/

/-- Adding the contribution to the block held: entry by entry. -/
theorem k2_pay1_apply (v36 : FVec Ideal S128x64 .f32) (v37 : Vec Ideal S128x64 .f32) (g : Fin 128) (d : Fin 64) :
    k2_pay1 v36 v37 (ix2 g d) = v37 (ix2 g d) + v36 (ix2 g d) := by
  show (shapeCast S128x64 v37 shapeCasts_S128x64_S128x64) (ix2 g d) + v36 (ix2 g d) = _
  rw [shapeCast_self]

/-- The block of zeros the first point stores. -/
theorem k2_pay2_apply (g : Fin 128) (d : Fin 64) : k2_pay2 (F := Ideal) (ix2 g d) = 0 := by
  show Ideal.ofBits .f32 0x00000000#32 = 0
  exact Ideal.ofBits_zero_f32

/-- The contribution is the one-hot matrix of the block's graph ids contracted, over the rows, with the layer's output
    on the block: the same operations in the same order. -/
theorem k2_pay3_eq_matmul (x0 x1 : Vec Ideal S5000x64 .f32) (x3 : Vec Ideal S128x64 .f32) (x4 : Vec Ideal S64 .f32)
    (x5 : Vec Ideal S64x64 .f32) (x6 : Vec Ideal S64 .f32) (x2 : Vec Ideal S5000x1 .i32) :
    k2_pay3 x0 x1 x3 x4 x5 x6 x2
      = matmul dot_S5000x128_S5000x64_S128x64_0_0_1_1_n_n (some .fp32) (oneHotOf x2) (k1_pay1 x0 x1 x3 x4 x5 x6)
          (constant S128x64 .f32 0x00000000#32) := rfl

/-- Entry (g, d) of the contribution: the layer's output d summed over the block's rows whose graph id is g. -/
theorem k2_pay3_apply (x0 x1 : Vec Ideal S5000x64 .f32) (x3 : Vec Ideal S128x64 .f32) (x4 : Vec Ideal S64 .f32)
    (x5 : Vec Ideal S64x64 .f32) (x6 : Vec Ideal S64 .f32) (x2 : Vec Ideal S5000x1 .i32) (g : Fin 128) (d : Fin 64) :
    k2_pay3 x0 x1 x3 x4 x5 x6 x2 (ix2 g d)
      = ∑ r : Fin 5000, (if x2 (ix2 r 0) = BitVec.ofNat 32 g.val then (1 : EReal) else 0) * k1_pay1 x0 x1 x3 x4 x5 x6 (ix2 r d) :=
  (congrFun (k2_pay3_eq_matmul x0 x1 x3 x4 x5 x6 x2) (ix2 g d)).trans
    ((onehot_contrib (oneHotOf x2) (k1_pay1 x0 x1 x3 x4 x5 x6) g d).trans
      (Finset.sum_congr rfl fun r _ => by rw [oneHotOf_apply]))

/-! ## The running block, point by point -/

section Run
variable (V : (c : Dev nD) → (b : Ref sig .tc) → Buf (Elt Ideal) ((c : Thread nD τ).loc b))

/-- The contribution of point t's blocks. -/
abbrev contrib (c : Dev nD) (t : Fin cfg2.N) : FVec Ideal S128x64 .f32 :=
  k2_pay3 (hblk V c t) (ablk V c t) (w1blk V c t) (b1blk V c t) (w2blk V c t) (b2blk V c t) (idblk V c t)

/-- The running block after point n: zeros plus the first contribution, then one contribution more per point. -/
def running (c : Dev nD) : (n : ℕ) → n < cfg2.N → Vec Ideal S128x64 .f32
  | 0, h => k2_pay1 (contrib V c ⟨0, h⟩) (k2_pay2 (F := Ideal))
  | n + 1, h => k2_pay1 (contrib V c ⟨n + 1, h⟩) (running c n (Nat.lt_of_succ_lt h))

/-- What the output's staging buffer holds after point n is the running block: by induction on the point, the
    first point by its case and every later one by the other. -/
theorem outsAt2_eq_running (c : Dev nD) : ∀ (n : ℕ) (h : n < cfg2.N), outsAt2 V c n h = running V c n h
  | 0, h => (outsAt2_A V c ⟨0, h⟩ rfl).trans
      (first_point_leaves (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩))
  | n + 1, h => by
    have hN : cfg2.N = 10 := N_2
    have hB : ¬(⟨n + 1, h⟩ : Fin cfg2.N).val % 10 = 0 := by dsimp only; omega
    refine (outsAt2_B V c ⟨n + 1, h⟩ hB).trans ?_
    refine (later_point_leaves (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) _ (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) _).trans ?_
    exact congrArg (k2_pay1 (contrib V c ⟨n + 1, h⟩)) (outsAt2_eq_running c n (Nat.lt_of_succ_lt h))

/-- Entry (g, d) of the running block after point n is the sum of the contributions' entries up to n. -/
theorem running_apply (c : Dev nD) (cE : ℕ → EReal) (g : Fin 128) (d : Fin 64)
    (hc : ∀ t : Fin cfg2.N, contrib V c t (ix2 g d) = cE t.val) :
    ∀ (n : ℕ) (h : n < cfg2.N), running V c n h (ix2 g d) = ∑ t ∈ Finset.range (n + 1), cE t
  | 0, h => by
    show k2_pay1 (contrib V c ⟨0, h⟩) (k2_pay2 (F := Ideal)) (ix2 g d) = _
    rw [k2_pay1_apply, k2_pay2_apply, hc ⟨0, h⟩, Finset.sum_range_one, zero_add]
  | n + 1, h => by
    show k2_pay1 (contrib V c ⟨n + 1, h⟩) (running V c n (Nat.lt_of_succ_lt h)) (ix2 g d) = _
    rw [k2_pay1_apply, running_apply c cE g d hc n (Nat.lt_of_succ_lt h), hc ⟨n + 1, h⟩]
    exact (Finset.sum_range_succ cE (n + 1)).symm

end Run

/-! ## The pooled sum, block by block -/

/-- Row n's term of the pooled entry (g, d): the layer's output d of row n if its graph id is the word g. -/
abbrev poolTerm (h2 : SN64.Idx → EReal) (ids : SN1.Idx → BitVec 32) (g : Fin 128) (d : Fin 64) (n : Fin 50000) : EReal :=
  (if ids (ix2 n 0) = BitVec.ofNat 32 g.val then (1 : EReal) else 0) * h2 (ix2 n d)

/-- The pooling at an entry is the sum of the rows' terms. -/
theorem kerPool_apply (h2 : SN64.Idx → EReal) (ids : SN1.Idx → BitVec 32) (g : Fin 128) (d : Fin 64) :
    kerPool h2 (fun n => ids (ix2 (n 0) 0)) (ix2 g d) = ∑ n : Fin 50000, poolTerm h2 ids g d n := rfl

/-- Block t's part of the pooled entry: its 5000 rows' terms (nothing past the tenth block). -/
def blockTerm (h2 : SN64.Idx → EReal) (ids : SN1.Idx → BitVec 32) (g : Fin 128) (d : Fin 64) (t : ℕ) : EReal :=
  if ht : t < 10 then ∑ r : Fin 5000, poolTerm h2 ids g d ⟨5000 * t + r.val, by have := r.isLt; omega⟩ else 0

/-- The ten blocks' parts add up to the pooled entry. -/
theorem sum_blockTerm (h2 : SN64.Idx → EReal) (ids : SN1.Idx → BitVec 32) (g : Fin 128) (d : Fin 64) :
    ∑ t ∈ Finset.range 10, blockTerm h2 ids g d t = ∑ n : Fin 50000, poolTerm h2 ids g d n := by
  rw [Finset.sum_range, sum_rows_blocks (poolTerm h2 ids g d)]
  exact Finset.sum_congr rfl fun t _ => dif_pos t.isLt

/-! ## The region's value from the layer's value at an entry -/

/-- If the layer's output on a block, at an entry, is a whole-array function's value at the matching row, then after
    the tenth point the output block is the one-hot pooling of that function. -/
theorem region2_of_entry (V : (c : Dev nD) → (b : Ref sig .tc) → Buf (Elt Ideal) ((c : Thread nD τ).loc b)) (c : Dev nD) (hn : 9 < cfg2.N) (H : SN64.Idx → EReal)
    (hentry : ∀ (t : Fin cfg2.N) (p : Fin 5000) (q : Fin 64) (ht : t.val < 10),
        k1_pay1 (hblk V c t) (ablk V c t) (w1blk V c t) (b1blk V c t) (w2blk V c t) (b2blk V c t) (ix2 p q)
          = H (ix2 ⟨5000 * t.val + p.val, by have := p.isLt; omega⟩ q)) :
    (outsAt2 V c 9 hn : SW128x64.Idx → EReal) = kerPool H (fun n => (V c main_v28 : SN1.Idx → BitVec 32) (ix2 (n 0) 0)) := by
  funext i
  obtain ⟨g, d, rfl⟩ : ∃ (g : Fin 128) (d : Fin 64), i = ix2 g d := ⟨i 0, i 1, eq_ix2 i⟩
  have hc : ∀ t : Fin cfg2.N, contrib V c t (ix2 g d) = blockTerm H (V c main_v28 : SN1.Idx → BitVec 32) g d t.val := by
    intro t
    have ht : t.val < 10 := lt_of_lt_of_eq t.isLt (show cfg2.N = 10 from N_2)
    refine (k2_pay3_apply (hblk V c t) (ablk V c t) (w1blk V c t) (b1blk V c t) (w2blk V c t) (b2blk V c t) (idblk V c t) g d).trans ?_
    unfold blockTerm
    rw [dif_pos ht]
    refine Finset.sum_congr rfl fun r _ => ?_
    rw [idblk_apply V c t r, hentry t r d ht]
  rw [outsAt2_eq_running V c 9 hn, running_apply V c _ g d hc 9 hn, kerPool_apply]
  exact sum_blockTerm H _ g d

end Cert.KernelIdeal.GinK

end
-- ==== Proof.Region2.lean ====
import proofs.«411005_j84894323572906_3_alg».proof.Proof.Gen.KernelIdeal.Frame
import proofs.«411005_j84894323572906_3_alg».proof.Proof.Spec
import proofs.«411005_j84894323572906_3_alg».proof.Proof.Region2Last
import proofs.«411005_j84894323572906_3_alg».proof.Proof.Region2Blocks
import proofs.«411005_j84894323572906_3_alg».proof.Proof.Region2Sum
import proofs.«411005_j84894323572906_3_alg».proof.Proof.LibMlpRead

noncomputable section

namespace Cert.KernelIdeal.GinK

open Idealize.ShloMosaic Idealize.ShloMosaic.TcCoe Idealize.ShloMosaic.ValueIdx Idealize.SL.Sem
open Cert.KernelIdeal Cert.KernelIdeal.Gen Cert.Gin

/-- Region 2 (the second GIN layer's MLP fused with the pooling sum, accumulated over ten row blocks into one
    resident 128 × 64 block): after its last point the output array is the one-hot pooling of the layer's rows.
    The array is what the tenth point left in the block; that is the sum of the ten blocks' contributions; and the
    layer's output on block t at row p is the whole layer's output at row 5000·t + p, because row p of the two
    row blocks is that row of their arrays and the four weight and bias blocks are their whole arrays. -/
theorem region2_value (V : (c : Dev nD) → (b : Ref sig .tc) → Buf (Elt Ideal) ((c : Thread nD τ).loc b)) (c : Dev nD) :
    ((dat2 V c).arrAt 7 cfg2.N : SW128x64.Idx → EReal)
      = kerPool (kerMlp (V c main_v16) (V c main_v26) (V c main_v27) (V c main_arg10) (V c main_arg11) (V c main_arg12))
          (fun n => (V c main_v28 : SN1.Idx → BitVec 32) (ix2 (n 0) 0)) := by
  have hn : 9 < cfg2.N := by rw [show cfg2.N = 10 from N_2]; decide
  refine (region2_last V c hn).trans (region2_of_entry V c hn _ fun t p q ht => ?_)
  exact layer_entry (V c main_v16) (V c main_v26) (V c main_v27) (V c main_arg10) (V c main_arg11) (V c main_arg12)
    (hblk V c t) (ablk V c t) (w1blk V c t) (b1blk V c t) (w2blk V c t) (b2blk V c t) p q
    ⟨5000 * t.val + p.val, by have := p.isLt; omega⟩
    (fun k => hblk_apply V c t p k) (fun k => ablk_apply V c t p k)
    (w1blk_eq V c t) (b1blk_eq V c t) (w2blk_eq V c t) (b2blk_eq V c t)

end Cert.KernelIdeal.GinK

end
-- ==== Proof.Persist.lean ====
import proofs.«411005_j84894323572906_3_alg».proof.Proof.Gen.KernelIdeal.Frame
import proofs.«411005_j84894323572906_3_alg».proof.Proof.Ops

noncomputable section

namespace Cert.KernelIdeal.GinK

open Idealize.ShloMosaic Idealize.ShloMosaic.TcCoe Idealize.ShloMosaic.ValueIdx Idealize.SL.Sem
open Cert.KernelIdeal Cert.KernelIdeal.Gen Cert.Gin

/-! What the fold through @main leaves untouched.  No host operation and no region writes an argument, and the two
    rows of the edge list computed by the first host stretch (sources `main_v1`, destinations `main_v3`) are
    written once and never again: at every later boundary they hold what they held then. -/

/-! ### What each host stretch writes

A host stretch changes only the buffers its operations name as results.  Each stretch's result references are
listed once; a reference outside the list reads after the stretch what it read before, whatever the contents the
stretch starts from. -/

/-- A one-element set of buffers lies in a list of references that has the element. -/
private theorem writes_single_sub {L : List (Ref sig .tc)} {y : Ref sig .tc} (hy : y ∈ L) :
    ({Proc.devRef (τ := τ) .tc y} : Finset (DevRef τ sig)) ⊆ (L.map (Proc.devRef (τ := τ) .tc)).toFinset :=
  Finset.singleton_subset_iff.mpr (List.mem_toFinset.mpr (List.mem_map.mpr ⟨y, hy, rfl⟩))

/-- The results of the first stretch: the two slices of the edge list and their reshapes. -/
private abbrev wr0 : List (Ref sig .tc) := [main_v0, main_v1, main_v2, main_v3]

/-- The results of the second stretch (the first layer's neighbour sum and its stacked weight). -/
private abbrev wr1 : List (Ref sig .tc) :=
  [main_c, main_v5, main_v6, main_c_0, main_v7, main_v8, main_v9, main_v10, main_v11, main_cst, main_v12, main_v13,
    main_v14, main_v15]

/-- The results of the third stretch (the second layer's neighbour sum, its stacked weight, the graph ids as a column). -/
private abbrev wr2 : List (Ref sig .tc) :=
  [main_c_1, main_v17, main_v18, main_c_2, main_v19, main_v20, main_v21, main_v22, main_v23, main_cst_3, main_v24,
    main_v25, main_v26, main_v27, main_v28]

private theorem host0_writes : (hostOps0 : List (HloOp τ sig (Elt Ideal))).Forall fun op =>
    op.writes ⊆ (wr0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact writes_single_sub (by decide)

private theorem host1_writes : (hostOps1 : List (HloOp τ sig (Elt Ideal))).Forall fun op =>
    op.writes ⊆ (wr1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact writes_single_sub (by decide)

private theorem host2_writes : (hostOps2 : List (HloOp τ sig (Elt Ideal))).Forall fun op =>
    op.writes ⊆ (wr2.map (Proc.devRef (τ := τ) .tc)).toFinset := by
  simp only [hostOps2, List.Forall, StableHlo.nullary_writes, StableHlo.unary_writes, StableHlo.binary_writes,
    StableHlo.ternary_writes, StableHlo.reshape_writes]
  repeat' apply And.intro
  all_goals exact writes_single_sub (by decide)

/-- The first stretch leaves a reference it does not write. -/
private theorem host0_keeps (V : Valuation τ sig (Elt Ideal)) (r : Ref sig .tc) (hr : r ∉ wr0) :
    StableHlo.after hostOps0 V (Proc.devRef .tc r) = V (Proc.devRef .tc r) :=
  StableHlo.after_of_writes_sub hostOps0 V host0_writes hr

/-- The second stretch leaves a reference it does not write. -/
private theorem host1_keeps (V : Valuation τ sig (Elt Ideal)) (r : Ref sig .tc) (hr : r ∉ wr1) :
    StableHlo.after hostOps1 V (Proc.devRef .tc r) = V (Proc.devRef .tc r) :=
  StableHlo.after_of_writes_sub hostOps1 V host1_writes hr

/-- The third stretch leaves a reference it does not write. -/
private theorem host2_keeps (V : Valuation τ sig (Elt Ideal)) (r : Ref sig .tc) (hr : r ∉ wr2) :
    StableHlo.after hostOps2 V (Proc.devRef .tc r) = V (Proc.devRef .tc r) :=
  StableHlo.after_of_writes_sub hostOps2 V host2_writes hr

/-! ### What each region leaves of its input arrays

A region's pipeline writes back only its output windows: the array of an input window holds at the exit what it
held at the entry. -/

private theorem reg0_input (m : (ℓ : Loc nD τ sig) → Buf (Elt Ideal) ℓ) (ρ : Dev nD → PrngReg) (c : Dev nD)
    (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

private theorem reg1_input (m : (ℓ : Loc nD τ sig) → Buf (Elt Ideal) ℓ) (ρ : Dev nD → PrngReg) (c : Dev nD)
    (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

private theorem reg2_input (m : (ℓ : Loc nD τ sig) → Buf (Elt Ideal) ℓ) (ρ : Dev nD → PrngReg) (c : Dev nD)
    (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-! ### The edge rows after the first stretch -/

open Cert.ReferenceIdeal.Read in
/-- The sources row after the first host stretch: the reference's own stage of the same two operations. -/
theorem w1_v1 (m : (ℓ : Loc nD τ sig) → Buf (Elt Ideal) ℓ) (ρ : Dev nD → PrngReg) (c : Dev nD) :
    (W1 m ρ c (Proc.devRef .tc main_v1) : (⟨1, ![800000]⟩ : Shape).Idx → BitVec 32) = val_main_v1 (F := Ideal) (m ((c : Thread nD τ).loc main_arg1)) := by
  show StableHlo.after (hostOps0 (F := Ideal)) _ (Proc.devRef .tc main_v1) = _
  after_results
  rfl

open Cert.ReferenceIdeal.Read in
/-- The destinations row after the first host stretch. -/
theorem w1_v3 (m : (ℓ : Loc nD τ sig) → Buf (Elt Ideal) ℓ) (ρ : Dev nD → PrngReg) (c : Dev nD) :
    (W1 m ρ c (Proc.devRef .tc main_v3) : (⟨1, ![800000]⟩ : Shape).Idx → BitVec 32) = val_main_v3 (F := Ideal) (m ((c : Thread nD τ).loc main_arg1)) := by
  show StableHlo.after (hostOps0 (F := Ideal)) _ (Proc.devRef .tc main_v3) = _
  after_results
  rfl

/-! ### The arguments at each boundary -/

/-- Every argument array holds its launch contents at boundary 1. -/
theorem w1_arg (m : (ℓ : Loc nD τ sig) → Buf (Elt Ideal) ℓ) (ρ : Dev nD → PrngReg) (c : Dev nD) :
    W1 m ρ c (Proc.devRef .tc main_arg0) = m ((c : Thread nD τ).loc main_arg0)
    ∧ W1 m ρ c (Proc.devRef .tc main_arg1) = m ((c : Thread nD τ).loc main_arg1)
    ∧ W1 m ρ c (Proc.devRef .tc main_arg2) = m ((c : Thread nD τ).loc main_arg2)
    ∧ W1 m ρ c (Proc.devRef .tc main_arg3) = m ((c : Thread nD τ).loc main_arg3)
    ∧ W1 m ρ c (Proc.devRef .tc main_arg4) = m ((c : Thread nD τ).loc main_arg4)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7)
    ∧ W1 m ρ c (Proc.devRef .tc main_arg8) = m ((c : Thread nD τ).loc main_arg8)
    ∧ W1 m ρ c (Proc.devRef .tc main_arg9) = m ((c : Thread nD τ).loc main_arg9)
    ∧ W1 m ρ c (Proc.devRef .tc main_arg10) = m ((c : Thread nD τ).loc main_arg10)
    ∧ W1 m ρ c (Proc.devRef .tc main_arg11) = m ((c : Thread nD τ).loc main_arg11)
    ∧ W1 m ρ c (Proc.devRef .tc main_arg12) = m ((c : Thread nD τ).loc main_arg12)
    ∧ W1 m ρ c (Proc.devRef .tc main_arg13) = m ((c : Thread nD τ).loc main_arg13)
    ∧ W1 m ρ c (Proc.devRef .tc main_arg14) = m ((c : Thread nD τ).loc main_arg14) := by
  refine ⟨?_, ?_, ?_, ?_, ?_, ?_, ?_, ?_, ?_, ?_, ?_, ?_, ?_, ?_, ?_⟩ <;>
    exact host0_keeps (W0 m ρ c) _ (by decide)

/-- Every argument array holds its launch contents at boundary 2. -/
theorem w2_arg (m : (ℓ : Loc nD τ sig) → Buf (Elt Ideal) ℓ) (ρ : Dev nD → PrngReg) (c : Dev nD) :
    W2 m ρ c (Proc.devRef .tc main_arg0) = m ((c : Thread nD τ).loc main_arg0)
    ∧ W2 m ρ c (Proc.devRef .tc main_arg1) = m ((c : Thread nD τ).loc main_arg1)
    ∧ W2 m ρ c (Proc.devRef .tc main_arg2) = m ((c : Thread nD τ).loc main_arg2)
    ∧ W2 m ρ c (Proc.devRef .tc main_arg3) = m ((c : Thread nD τ).loc main_arg3)
    ∧ W2 m ρ c (Proc.devRef .tc main_arg4) = m ((c : Thread nD τ).loc main_arg4)
    ∧ W2 m ρ c (Proc.devRef .tc main_arg5) = m ((c : Thread nD τ).loc main_arg5)
    ∧ W2 m ρ c (Proc.devRef .tc main_arg6) = m ((c : Thread nD τ).loc main_arg6)
    ∧ W2 m ρ c (Proc.devRef .tc main_arg7) = m ((c : Thread nD τ).loc main_arg7)
    ∧ W2 m ρ c (Proc.devRef .tc main_arg8) = m ((c : Thread nD τ).loc main_arg8)
    ∧ W2 m ρ c (Proc.devRef .tc main_arg9) = m ((c : Thread nD τ).loc main_arg9)
    ∧ W2 m ρ c (Proc.devRef .tc main_arg10) = m ((c : Thread nD τ).loc main_arg10)
    ∧ W2 m ρ c (Proc.devRef .tc main_arg11) = m ((c : Thread nD τ).loc main_arg11)
    ∧ W2 m ρ c (Proc.devRef .tc main_arg12) = m ((c : Thread nD τ).loc main_arg12)
    ∧ W2 m ρ c (Proc.devRef .tc main_arg13) = m ((c : Thread nD τ).loc main_arg13)
    ∧ W2 m ρ c (Proc.devRef .tc main_arg14) = m ((c : Thread nD τ).loc main_arg14) := by
  obtain ⟨e0, e1, e2, e3, e4, e5, e6, e7, e8, e9, e10, e11, e12, e13, e14⟩ := w1_arg m ρ c
  exact ⟨
    (reg0_input m ρ c 0 rfl).trans e0,
    (W2_of_ne m ρ c main_arg1 (by decide)).trans e1,
    (W2_of_ne m ρ c main_arg2 (by decide)).trans e2,
    (reg0_input m ρ c 1 rfl).trans e3,
    (reg0_input m ρ c 2 rfl).trans e4,
    (W2_of_ne m ρ c main_arg5 (by decide)).trans e5,
    (W2_of_ne m ρ c main_arg6 (by decide)).trans e6,
    (W2_of_ne m ρ c main_arg7 (by decide)).trans e7,
    (W2_of_ne m ρ c main_arg8 (by decide)).trans e8,
    (W2_of_ne m ρ c main_arg9 (by decide)).trans e9,
    (W2_of_ne m ρ c main_arg10 (by decide)).trans e10,
    (W2_of_ne m ρ c main_arg11 (by decide)).trans e11,
    (W2_of_ne m ρ c main_arg12 (by decide)).trans e12,
    (W2_of_ne m ρ c main_arg13 (by decide)).trans e13,
    (W2_of_ne m ρ c main_arg14 (by decide)).trans e14⟩

/-- Every argument array holds its launch contents at boundary 3. -/
theorem w3_arg (m : (ℓ : Loc nD τ sig) → Buf (Elt Ideal) ℓ) (ρ : Dev nD → PrngReg) (c : Dev nD) :
    W3 m ρ c (Proc.devRef .tc main_arg0) = m ((c : Thread nD τ).loc main_arg0)
    ∧ W3 m ρ c (Proc.devRef .tc main_arg1) = m ((c : Thread nD τ).loc main_arg1)
    ∧ W3 m ρ c (Proc.devRef .tc main_arg2) = m ((c : Thread nD τ).loc main_arg2)
    ∧ W3 m ρ c (Proc.devRef .tc main_arg3) = m ((c : Thread nD τ).loc main_arg3)
    ∧ W3 m ρ c (Proc.devRef .tc main_arg4) = m ((c : Thread nD τ).loc main_arg4)
    ∧ W3 m ρ c (Proc.devRef .tc main_arg5) = m ((c : Thread nD τ).loc main_arg5)
    ∧ W3 m ρ c (Proc.devRef .tc main_arg6) = m ((c : Thread nD τ).loc main_arg6)
    ∧ W3 m ρ c (Proc.devRef .tc main_arg7) = m ((c : Thread nD τ).loc main_arg7)
    ∧ W3 m ρ c (Proc.devRef .tc main_arg8) = m ((c : Thread nD τ).loc main_arg8)
    ∧ W3 m ρ c (Proc.devRef .tc main_arg9) = m ((c : Thread nD τ).loc main_arg9)
    ∧ W3 m ρ c (Proc.devRef .tc main_arg10) = m ((c : Thread nD τ).loc main_arg10)
    ∧ W3 m ρ c (Proc.devRef .tc main_arg11) = m ((c : Thread nD τ).loc main_arg11)
    ∧ W3 m ρ c (Proc.devRef .tc main_arg12) = m ((c : Thread nD τ).loc main_arg12)
    ∧ W3 m ρ c (Proc.devRef .tc main_arg13) = m ((c : Thread nD τ).loc main_arg13)
    ∧ W3 m ρ c (Proc.devRef .tc main_arg14) = m ((c : Thread nD τ).loc main_arg14) := by
  obtain ⟨e0, e1, e2, e3, e4, e5, e6, e7, e8, e9, e10, e11, e12, e13, e14⟩ := w2_arg m ρ c
  exact ⟨
    (host1_keeps (W2 m ρ c) main_arg0 (by decide)).trans e0,
    (host1_keeps (W2 m ρ c) main_arg1 (by decide)).trans e1,
    (host1_keeps (W2 m ρ c) main_arg2 (by decide)).trans e2,
    (host1_keeps (W2 m ρ c) main_arg3 (by decide)).trans e3,
    (host1_keeps (W2 m ρ c) main_arg4 (by decide)).trans e4,
    (host1_keeps (W2 m ρ c) main_arg5 (by decide)).trans e5,
    (host1_keeps (W2 m ρ c) main_arg6 (by decide)).trans e6,
    (host1_keeps (W2 m ρ c) main_arg7 (by decide)).trans e7,
    (host1_keeps (W2 m ρ c) main_arg8 (by decide)).trans e8,
    (host1_keeps (W2 m ρ c) main_arg9 (by decide)).trans e9,
    (host1_keeps (W2 m ρ c) main_arg10 (by decide)).trans e10,
    (host1_keeps (W2 m ρ c) main_arg11 (by decide)).trans e11,
    (host1_keeps (W2 m ρ c) main_arg12 (by decide)).trans e12,
    (host1_keeps (W2 m ρ c) main_arg13 (by decide)).trans e13,
    (host1_keeps (W2 m ρ c) main_arg14 (by decide)).trans e14⟩

/-- Every argument array holds its launch contents at boundary 4. -/
theorem w4_arg (m : (ℓ : Loc nD τ sig) → Buf (Elt Ideal) ℓ) (ρ : Dev nD → PrngReg) (c : Dev nD) :
    W4 m ρ c (Proc.devRef .tc main_arg0) = m ((c : Thread nD τ).loc main_arg0)
    ∧ W4 m ρ c (Proc.devRef .tc main_arg1) = m ((c : Thread nD τ).loc main_arg1)
    ∧ W4 m ρ c (Proc.devRef .tc main_arg2) = m ((c : Thread nD τ).loc main_arg2)
    ∧ W4 m ρ c (Proc.devRef .tc main_arg3) = m ((c : Thread nD τ).loc main_arg3)
    ∧ W4 m ρ c (Proc.devRef .tc main_arg4) = m ((c : Thread nD τ).loc main_arg4)
    ∧ W4 m ρ c (Proc.devRef .tc main_arg5) = m ((c : Thread nD τ).loc main_arg5)
    ∧ W4 m ρ c (Proc.devRef .tc main_arg6) = m ((c : Thread nD τ).loc main_arg6)
    ∧ W4 m ρ c (Proc.devRef .tc main_arg7) = m ((c : Thread nD τ).loc main_arg7)
    ∧ W4 m ρ c (Proc.devRef .tc main_arg8) = m ((c : Thread nD τ).loc main_arg8)
    ∧ W4 m ρ c (Proc.devRef .tc main_arg9) = m ((c : Thread nD τ).loc main_arg9)
    ∧ W4 m ρ c (Proc.devRef .tc main_arg10) = m ((c : Thread nD τ).loc main_arg10)
    ∧ W4 m ρ c (Proc.devRef .tc main_arg11) = m ((c : Thread nD τ).loc main_arg11)
    ∧ W4 m ρ c (Proc.devRef .tc main_arg12) = m ((c : Thread nD τ).loc main_arg12)
    ∧ W4 m ρ c (Proc.devRef .tc main_arg13) = m ((c : Thread nD τ).loc main_arg13)
    ∧ W4 m ρ c (Proc.devRef .tc main_arg14) = m ((c : Thread nD τ).loc main_arg14) := by
  obtain ⟨e0, e1, e2, e3, e4, e5, e6, e7, e8, e9, e10, e11, e12, e13, e14⟩ := w3_arg m ρ c
  exact ⟨
    (W4_of_ne m ρ c main_arg0 (by decide)).trans e0,
    (W4_of_ne m ρ c main_arg1 (by decide)).trans e1,
    (W4_of_ne m ρ c main_arg2 (by decide)).trans e2,
    (W4_of_ne m ρ c main_arg3 (by decide)).trans e3,
    (W4_of_ne m ρ c main_arg4 (by decide)).trans e4,
    (W4_of_ne m ρ c main_arg5 (by decide)).trans e5,
    (reg1_input m ρ c 3 rfl).trans e6,
    (reg1_input m ρ c 4 rfl).trans e7,
    (reg1_input m ρ c 5 rfl).trans e8,
    (W4_of_ne m ρ c main_arg9 (by decide)).trans e9,
    (W4_of_ne m ρ c main_arg10 (by decide)).trans e10,
    (W4_of_ne m ρ c main_arg11 (by decide)).trans e11,
    (W4_of_ne m ρ c main_arg12 (by decide)).trans e12,
    (W4_of_ne m ρ c main_arg13 (by decide)).trans e13,
    (W4_of_ne m ρ c main_arg14 (by decide)).trans e14⟩

/-- Every argument array holds its launch contents at boundary 5. -/
theorem w5_arg (m : (ℓ : Loc nD τ sig) → Buf (Elt Ideal) ℓ) (ρ : Dev nD → PrngReg) (c : Dev nD) :
    W5 m ρ c (Proc.devRef .tc main_arg0) = m ((c : Thread nD τ).loc main_arg0)
    ∧ W5 m ρ c (Proc.devRef .tc main_arg1) = m ((c : Thread nD τ).loc main_arg1)
    ∧ W5 m ρ c (Proc.devRef .tc main_arg2) = m ((c : Thread nD τ).loc main_arg2)
    ∧ W5 m ρ c (Proc.devRef .tc main_arg3) = m ((c : Thread nD τ).loc main_arg3)
    ∧ W5 m ρ c (Proc.devRef .tc main_arg4) = m ((c : Thread nD τ).loc main_arg4)
    ∧ W5 m ρ c (Proc.devRef .tc main_arg5) = m ((c : Thread nD τ).loc main_arg5)
    ∧ W5 m ρ c (Proc.devRef .tc main_arg6) = m ((c : Thread nD τ).loc main_arg6)
    ∧ W5 m ρ c (Proc.devRef .tc main_arg7) = m ((c : Thread nD τ).loc main_arg7)
    ∧ W5 m ρ c (Proc.devRef .tc main_arg8) = m ((c : Thread nD τ).loc main_arg8)
    ∧ W5 m ρ c (Proc.devRef .tc main_arg9) = m ((c : Thread nD τ).loc main_arg9)
    ∧ W5 m ρ c (Proc.devRef .tc main_arg10) = m ((c : Thread nD τ).loc main_arg10)
    ∧ W5 m ρ c (Proc.devRef .tc main_arg11) = m ((c : Thread nD τ).loc main_arg11)
    ∧ W5 m ρ c (Proc.devRef .tc main_arg12) = m ((c : Thread nD τ).loc main_arg12)
    ∧ W5 m ρ c (Proc.devRef .tc main_arg13) = m ((c : Thread nD τ).loc main_arg13)
    ∧ W5 m ρ c (Proc.devRef .tc main_arg14) = m ((c : Thread nD τ).loc main_arg14) := by
  obtain ⟨e0, e1, e2, e3, e4, e5, e6, e7, e8, e9, e10, e11, e12, e13, e14⟩ := w4_arg m ρ c
  exact ⟨
    (host2_keeps (W4 m ρ c) main_arg0 (by decide)).trans e0,
    (host2_keeps (W4 m ρ c) main_arg1 (by decide)).trans e1,
    (host2_keeps (W4 m ρ c) main_arg2 (by decide)).trans e2,
    (host2_keeps (W4 m ρ c) main_arg3 (by decide)).trans e3,
    (host2_keeps (W4 m ρ c) main_arg4 (by decide)).trans e4,
    (host2_keeps (W4 m ρ c) main_arg5 (by decide)).trans e5,
    (host2_keeps (W4 m ρ c) main_arg6 (by decide)).trans e6,
    (host2_keeps (W4 m ρ c) main_arg7 (by decide)).trans e7,
    (host2_keeps (W4 m ρ c) main_arg8 (by decide)).trans e8,
    (host2_keeps (W4 m ρ c) main_arg9 (by decide)).trans e9,
    (host2_keeps (W4 m ρ c) main_arg10 (by decide)).trans e10,
    (host2_keeps (W4 m ρ c) main_arg11 (by decide)).trans e11,
    (host2_keeps (W4 m ρ c) main_arg12 (by decide)).trans e12,
    (host2_keeps (W4 m ρ c) main_arg13 (by decide)).trans e13,
    (host2_keeps (W4 m ρ c) main_arg14 (by decide)).trans e14⟩

/-- Every argument array holds its launch contents at boundary 6. -/
theorem w6_arg (m : (ℓ : Loc nD τ sig) → Buf (Elt Ideal) ℓ) (ρ : Dev nD → PrngReg) (c : Dev nD) :
    W6 m ρ c (Proc.devRef .tc main_arg0) = m ((c : Thread nD τ).loc main_arg0)
    ∧ W6 m ρ c (Proc.devRef .tc main_arg1) = m ((c : Thread nD τ).loc main_arg1)
    ∧ W6 m ρ c (Proc.devRef .tc main_arg2) = m ((c : Thread nD τ).loc main_arg2)
    ∧ W6 m ρ c (Proc.devRef .tc main_arg3) = m ((c : Thread nD τ).loc main_arg3)
    ∧ W6 m ρ c (Proc.devRef .tc main_arg4) = m ((c : Thread nD τ).loc main_arg4)
    ∧ W6 m ρ c (Proc.devRef .tc main_arg5) = m ((c : Thread nD τ).loc main_arg5)
    ∧ W6 m ρ c (Proc.devRef .tc main_arg6) = m ((c : Thread nD τ).loc main_arg6)
    ∧ W6 m ρ c (Proc.devRef .tc main_arg7) = m ((c : Thread nD τ).loc main_arg7)
    ∧ W6 m ρ c (Proc.devRef .tc main_arg8) = m ((c : Thread nD τ).loc main_arg8)
    ∧ W6 m ρ c (Proc.devRef .tc main_arg9) = m ((c : Thread nD τ).loc main_arg9)
    ∧ W6 m ρ c (Proc.devRef .tc main_arg10) = m ((c : Thread nD τ).loc main_arg10)
    ∧ W6 m ρ c (Proc.devRef .tc main_arg11) = m ((c : Thread nD τ).loc main_arg11)
    ∧ W6 m ρ c (Proc.devRef .tc main_arg12) = m ((c : Thread nD τ).loc main_arg12)
    ∧ W6 m ρ c (Proc.devRef .tc main_arg13) = m ((c : Thread nD τ).loc main_arg13)
    ∧ W6 m ρ c (Proc.devRef .tc main_arg14) = m ((c : Thread nD τ).loc main_arg14) := by
  obtain ⟨e0, e1, e2, e3, e4, e5, e6, e7, e8, e9, e10, e11, e12, e13, e14⟩ := w5_arg m ρ c
  exact ⟨
    (W6_of_ne m ρ c main_arg0 (by decide)).trans e0,
    (W6_of_ne m ρ c main_arg1 (by decide)).trans e1,
    (W6_of_ne m ρ c main_arg2 (by decide)).trans e2,
    (W6_of_ne m ρ c main_arg3 (by decide)).trans e3,
    (W6_of_ne m ρ c main_arg4 (by decide)).trans e4,
    (W6_of_ne m ρ c main_arg5 (by decide)).trans e5,
    (W6_of_ne m ρ c main_arg6 (by decide)).trans e6,
    (W6_of_ne m ρ c main_arg7 (by decide)).trans e7,
    (W6_of_ne m ρ c main_arg8 (by decide)).trans e8,
    (W6_of_ne m ρ c main_arg9 (by decide)).trans e9,
    (reg2_input m ρ c 4 rfl).trans e10,
    (reg2_input m ρ c 5 rfl).trans e11,
    (reg2_input m ρ c 6 rfl).trans e12,
    (W6_of_ne m ρ c main_arg13 (by decide)).trans e13,
    (W6_of_ne m ρ c main_arg14 (by decide)).trans e14⟩

/-! ### The edge rows at the later boundaries -/

/-- The edge rows are as the first host stretch left them at boundary 2. -/
theorem w2_edges (m : (ℓ : Loc nD τ sig) → Buf (Elt Ideal) ℓ) (ρ : Dev nD → PrngReg) (c : Dev nD) :
    W2 m ρ c (Proc.devRef .tc main_v1) = W1 m ρ c (Proc.devRef .tc main_v1)
    ∧ W2 m ρ c (Proc.devRef .tc main_v3) = W1 m ρ c (Proc.devRef .tc main_v3) :=
  ⟨W2_of_ne m ρ c main_v1 (by decide), W2_of_ne m ρ c main_v3 (by decide)⟩

/-- The edge rows are as the first host stretch left them at boundary 3. -/
theorem w3_edges (m : (ℓ : Loc nD τ sig) → Buf (Elt Ideal) ℓ) (ρ : Dev nD → PrngReg) (c : Dev nD) :
    W3 m ρ c (Proc.devRef .tc main_v1) = W1 m ρ c (Proc.devRef .tc main_v1)
    ∧ W3 m ρ c (Proc.devRef .tc main_v3) = W1 m ρ c (Proc.devRef .tc main_v3) :=
  ⟨(host1_keeps (W2 m ρ c) main_v1 (by decide)).trans (w2_edges m ρ c).1,
    (host1_keeps (W2 m ρ c) main_v3 (by decide)).trans (w2_edges m ρ c).2⟩

/-- The edge rows are as the first host stretch left them at boundary 4. -/
theorem w4_edges (m : (ℓ : Loc nD τ sig) → Buf (Elt Ideal) ℓ) (ρ : Dev nD → PrngReg) (c : Dev nD) :
    W4 m ρ c (Proc.devRef .tc main_v1) = W1 m ρ c (Proc.devRef .tc main_v1)
    ∧ W4 m ρ c (Proc.devRef .tc main_v3) = W1 m ρ c (Proc.devRef .tc main_v3) :=
  ⟨(W4_of_ne m ρ c main_v1 (by decide)).trans (w3_edges m ρ c).1,
    (W4_of_ne m ρ c main_v3 (by decide)).trans (w3_edges m ρ c).2⟩

/-- The edge rows are as the first host stretch left them at boundary 5. -/
theorem w5_edges (m : (ℓ : Loc nD τ sig) → Buf (Elt Ideal) ℓ) (ρ : Dev nD → PrngReg) (c : Dev nD) :
    W5 m ρ c (Proc.devRef .tc main_v1) = W1 m ρ c (Proc.devRef .tc main_v1)
    ∧ W5 m ρ c (Proc.devRef .tc main_v3) = W1 m ρ c (Proc.devRef .tc main_v3) :=
  ⟨(host2_keeps (W4 m ρ c) main_v1 (by decide)).trans (w4_edges m ρ c).1,
    (host2_keeps (W4 m ρ c) main_v3 (by decide)).trans (w4_edges m ρ c).2⟩

end Cert.KernelIdeal.GinK

end
-- ==== Proof.StagesEnds.lean ====
import proofs.«411005_j84894323572906_3_alg».proof.Proof.Gen.KernelIdeal.Frame
import proofs.«411005_j84894323572906_3_alg».proof.Proof.Ops
import proofs.«411005_j84894323572906_3_alg».proof.Proof.Region0
import proofs.«411005_j84894323572906_3_alg».proof.Proof.Persist
import proofs.«411005_j84894323572906_3_alg».proof.Proof.LibConcat

noncomputable section

namespace Cert.KernelIdeal.GinK

open Idealize.ShloMosaic Idealize.ShloMosaic.TcCoe Idealize.ShloMosaic.ValueIdx Idealize.SL.Sem
open Cert.KernelIdeal Cert.KernelIdeal.Gen Cert.Gin

/-! The two ends of the fold through @main: the first region's output from the arguments, and the last host stretch's
    result from the pooled sums. -/

/-! ### The first region's output -/

/-- After region 0: the node features h₀. -/
theorem stage_h0 (m : (ℓ : Loc nD τ sig) → Buf (Elt Ideal) ℓ) (ρ : Dev nD → PrngReg) (c : Dev nD) :
    (W2 m ρ c (Proc.devRef .tc main_v4) : SN64.Idx → EReal) = proj (m ((c : Thread nD τ).loc main_arg0)) (m ((c : Thread nD τ).loc main_arg3)) (m ((c : Thread nD τ).loc main_arg4)) := by
  obtain ⟨e0, -, -, e3, e4, -⟩ := w1_arg m ρ c
  rw [← e0, ← e3, ← e4]
  exact (W2_arr m ρ c 3).trans (region0_value (V1 m ρ) c)

/-! ### The last host stretch read at an entry

The stretch counts each graph's nodes (ones added into zeros at the graph ids), multiplies the pooled sums by the
output weight, adds count × bias, and divides by max(count, 1).  The count is a column [128, 1] repeated along the
lanes, the bias a row [1, 128] repeated down the rows; the product is a sum over its one contracted axis. -/

/-- A vector [128] made a column [128, 1] and repeated along 128 lanes reads its row's entry. -/
private theorem column_apply {α : Type} (x : S128.Idx → α) (h1 : S128.BroadcastsInDim S128x1 (![0] : Fin 1 → Fin S128x1.rank))
    (h2 : S128x1.BroadcastsInDim S128x128 (![0, 1] : Fin 2 → Fin S128x128.rank)) (i : S128x128.Idx) :
    broadcastInDim S128x128 ![0, 1] h2 (broadcastInDim S128x1 ![0] h1 x) i = x (ix1 (i 0)) := by
  refine (broadcastInDim_apply _ h2 _ i (ix2 (i 0) (⟨0, Nat.one_pos⟩ : Fin 1)) ?_).trans
    (broadcastInDim_apply _ h1 x _ (ix1 (i 0)) ?_)
  · intro a
    match a with
    | ⟨0, _⟩ => show (i 0).val = if (128 : Nat) = 1 then 0 else (i 0).val; rw [if_neg (by decide)]
    | ⟨1, _⟩ => show 0 = if (1 : Nat) = 1 then 0 else (i 1).val; rw [if_pos rfl]
  · intro a
    match a with
    | ⟨0, _⟩ => show (i 0).val = if (128 : Nat) = 1 then 0 else (i 0).val; rw [if_neg (by decide)]

/-- A vector [128] made a row [1, 128] and repeated down 128 rows reads its lane's entry. -/
private theorem row_apply {α : Type} (x : S128.Idx → α) (h1 : S128.BroadcastsInDim S1x128 (![1] : Fin 1 → Fin S1x128.rank))
    (h2 : S1x128.BroadcastsInDim S128x128 (![0, 1] : Fin 2 → Fin S128x128.rank)) (i : S128x128.Idx) :
    broadcastInDim S128x128 ![0, 1] h2 (broadcastInDim S1x128 ![1] h1 x) i = x (ix1 (i 1)) := by
  refine (broadcastInDim_apply _ h2 _ i (ix2 (⟨0, Nat.one_pos⟩ : Fin 1) (i 1)) ?_).trans
    (broadcastInDim_apply _ h1 x _ (ix1 (i 1)) ?_)
  · intro a
    match a with
    | ⟨0, _⟩ => show 0 = if (1 : Nat) = 1 then 0 else (i 0).val; rw [if_pos rfl]
    | ⟨1, _⟩ => show (i 1).val = if (128 : Nat) = 1 then 0 else (i 1).val; rw [if_neg (by decide)]
  · intro a
    match a with
    | ⟨0, _⟩ => show (i 1).val = if (128 : Nat) = 1 then 0 else (i 1).val; rw [if_neg (by decide)]

/-- A float literal repeated over [128] reads the extended real its word encodes. -/
private theorem splat_apply (w : BitVec 32) (h : S_.BroadcastsInDim S128 (![] : Fin 0 → Fin S128.rank)) (j : S128.Idx) :
    broadcastInDim S128 ![] h (constant (F := Ideal) S_ .f32 w) j = Ideal.ofBits .f32 w :=
  broadcastInDim_apply _ h _ j ix0 (fun a => a.elim0)

/-- The host quotient at an entry is the quotient of the entries. -/
private theorem quot_apply (a b : FVec Ideal S128x128 .f32) (i : S128x128.Idx) :
    Host.divf a b i = Ideal.div (a i) (b i) := rfl

/-! The output product [128, 64] · [64, 128]: where its dimension numbers send an output index and a contraction
    index, axis by axis. -/

private theorem out_lhs_0 (i : S128x128.Idx) (q : dot_S128x64_S64x128_S128x128_1_0_0_1_n_n.contr.Idx) :
    (dot_S128x64_S64x128_S128x128_1_0_0_1_n_n.lhsIdx i q 0).val = (i 0).val := by
  unfold DotDims.lhsIdx
  rw [dif_neg (show ¬(0 : Fin S128x64.rank) ∈ dot_S128x64_S64x128_S128x128_1_0_0_1_n_n.lhsBatch by decide), dif_pos (show (0 : Fin S128x64.rank) ∈ dot_S128x64_S64x128_S128x128_1_0_0_1_n_n.lhsNonContracting by decide)]
  rfl
private theorem out_lhs_1 (i : S128x128.Idx) (q : dot_S128x64_S64x128_S128x128_1_0_0_1_n_n.contr.Idx) :
    (dot_S128x64_S64x128_S128x128_1_0_0_1_n_n.lhsIdx i q 1).val = (q ⟨0, by decide⟩).val :=
  dot_S128x64_S64x128_S128x128_1_0_0_1_n_n.lhsIdx_val_of_single rfl i q
private theorem out_rhs_0 (i : S128x128.Idx) (q : dot_S128x64_S64x128_S128x128_1_0_0_1_n_n.contr.Idx) :
    (dot_S128x64_S64x128_S128x128_1_0_0_1_n_n.rhsIdx i q 0).val = (q ⟨0, by decide⟩).val :=
  dot_S128x64_S64x128_S128x128_1_0_0_1_n_n.rhsIdx_val_of_single rfl i q
private theorem out_rhs_1 (i : S128x128.Idx) (q : dot_S128x64_S64x128_S128x128_1_0_0_1_n_n.contr.Idx) :
    (dot_S128x64_S64x128_S128x128_1_0_0_1_n_n.rhsIdx i q 1).val = (i 1).val := by
  unfold DotDims.rhsIdx
  rw [dif_neg (show ¬(1 : Fin S64x128.rank) ∈ dot_S128x64_S64x128_S128x128_1_0_0_1_n_n.rhsBatch by decide), dif_pos (show (1 : Fin S64x128.rank) ∈ dot_S128x64_S64x128_S128x128_1_0_0_1_n_n.rhsNonContracting by decide)]
  rfl

/-- Entry (g, j) of the output product is Σ_d p(g, d) · W(d, j). -/
private theorem out_dot_apply (p : FVec Ideal S128x64 .f32) (W : FVec Ideal S64x128 .f32) (i : S128x128.Idx) :
    Host.dotGeneral dot_S128x64_S64x128_S128x128_1_0_0_1_n_n none p W i = ∑ k : Fin 64, p (ix2 (i 0) k) * W (ix2 k (i 1)) := by
  simp only [Host.dotGeneral]
  rw [Ideal.dotGeneral_apply, ← Equiv.sum_comp (ValueIdx.contrEquiv1 dot_S128x64_S64x128_S128x128_1_0_0_1_n_n 64 rfl rfl).symm]
  refine Finset.sum_congr rfl fun k _ => ?_
  have hk := ValueIdx.contrEquiv1_symm_val dot_S128x64_S64x128_S128x128_1_0_0_1_n_n 64 rfl rfl k
  have el : dot_S128x64_S64x128_S128x128_1_0_0_1_n_n.lhsIdx i ((ValueIdx.contrEquiv1 dot_S128x64_S64x128_S128x128_1_0_0_1_n_n 64 rfl rfl).symm k) = ix2 (i 0) k := funext fun a => Fin.ext (by
    match a with
    | ⟨0, _⟩ => exact out_lhs_0 _ _
    | ⟨1, _⟩ => exact (out_lhs_1 _ _).trans hk)
  have er : dot_S128x64_S64x128_S128x128_1_0_0_1_n_n.rhsIdx i ((ValueIdx.contrEquiv1 dot_S128x64_S64x128_S128x128_1_0_0_1_n_n 64 rfl rfl).symm k) = ix2 k (i 1) := funext fun a => Fin.ext (by
    match a with
    | ⟨0, _⟩ => exact (out_rhs_0 _ _).trans hk
    | ⟨1, _⟩ => exact out_rhs_1 _ _)
  rw [el, er]
  rfl

/-- The node counts as the last stretch computes them: ones added into zeros at the graph ids. -/
private def cntK (b2 : IVec S50000 32) : FVec Ideal S128 .f32 :=
  Host.scatterAdd (F := Ideal) (φ := .f32) scatter_S128_S50000x1_S50000_n_0_0_1
    (broadcastInDim S128 ![] bcast_S_S128 (constant (F := Ideal) S_ .f32 0x00000000#32))
    (broadcastInDim S50000x1 ![0] bcast_S50000_S50000x1_0 b2)
    (broadcastInDim S50000 ![] bcast_S_S50000 (constant (F := Ideal) S_ .f32 0x3F800000#32))

/-- They are the reference's counts: the same scatter of ones over the same ids. -/
private theorem cntK_eq (b2 : IVec S50000 32) :
    (cntK b2 : SB128.Idx → EReal) = counts b2 := rfl

/-- The rest of the stretch as one term of the pooled sums, the counts, the output weight and the bias. -/
private def tailK (p : FVec Ideal S128x64 .f32) (cnt : FVec Ideal S128 .f32) (W : FVec Ideal S64x128 .f32)
    (bo : FVec Ideal S128 .f32) : FVec Ideal S128x128 .f32 :=
  Host.divf (F := Ideal) (φ := .f32)
    (addf (F := Ideal) (φ := .f32) (Host.dotGeneral (F := Ideal) dot_S128x64_S64x128_S128x128_1_0_0_1_n_n none p W)
      (mulf (F := Ideal) (φ := .f32) (broadcastInDim S128x128 ![0, 1] bcast_S128x1_S128x128_0_1 (broadcastInDim S128x1 ![0] bcast_S128_S128x1_0 cnt))
        (broadcastInDim S128x128 ![0, 1] bcast_S1x128_S128x128_0_1 (broadcastInDim S1x128 ![1] bcast_S128_S1x128_1 bo))))
    (broadcastInDim S128x128 ![0, 1] bcast_S128x1_S128x128_0_1 (broadcastInDim S128x1 ![0] bcast_S128_S128x1_0
      (maximumf (F := Ideal) (φ := .f32) cnt (broadcastInDim S128 ![] bcast_S_S128 (constant (F := Ideal) S_ .f32 0x3F800000#32)))))

/-- Entry by entry it is `kerOut`. -/
private theorem tailK_eq (p : FVec Ideal S128x64 .f32) (cnt : FVec Ideal S128 .f32) (W : FVec Ideal S64x128 .f32)
    (bo : FVec Ideal S128 .f32) :
    (tailK p cnt W bo : SG128.Idx → EReal) = kerOut p W bo cnt one := by
  funext i
  unfold tailK kerOut
  rw [quot_apply, addf_apply, mulf_apply, out_dot_apply, column_apply, row_apply, column_apply, maximumf_apply, splat_apply]
  rfl

/-- The last stretch's result buffer is that term of what the stretch finds in the four buffers it reads. -/
private theorem tail_read (m : (ℓ : Loc nD τ sig) → Buf (Elt Ideal) ℓ) (ρ : Dev nD → PrngReg) (c : Dev nD) :
    (W7 m ρ c (Proc.devRef .tc main_v45) : SG128.Idx → EReal)
      = tailK (W6 m ρ c (Proc.devRef .tc main_v29)) (cntK (W6 m ρ c (Proc.devRef .tc main_arg2)))
          (W6 m ρ c (Proc.devRef .tc main_arg13)) (W6 m ρ c (Proc.devRef .tc main_arg14)) := by
  show StableHlo.after (hostOps3 (F := Ideal)) _ (Proc.devRef .tc main_v45) = _
  after_results_simp
  rfl

/-- After the last host stretch: the result from the pooled sums. -/
theorem stage_out (m : (ℓ : Loc nD τ sig) → Buf (Elt Ideal) ℓ) (ρ : Dev nD → PrngReg) (c : Dev nD) (p : SW128x64.Idx → EReal)
    (hv29 : (W6 m ρ c (Proc.devRef .tc main_v29) : SW128x64.Idx → EReal) = p) :
    (W7 m ρ c (Proc.devRef .tc main_v45) : SG128.Idx → EReal)
      = kerOut p (m ((c : Thread nD τ).loc main_arg13)) (m ((c : Thread nD τ).loc main_arg14)) (counts (m ((c : Thread nD τ).loc main_arg2))) one := by
  obtain ⟨-, -, e2, -, -, -, -, -, -, -, -, -, -, e13, e14⟩ := w6_arg m ρ c
  rw [tail_read m ρ c, hv29, e2, e13, e14, cntK_eq]
  exact tailK_eq p _ _ _

end Cert.KernelIdeal.GinK

end
-- ==== Proof.Stages.lean ====
import proofs.«411005_j84894323572906_3_alg».proof.Proof.Gen.KernelIdeal.Frame
import proofs.«411005_j84894323572906_3_alg».proof.Proof.Ops
import proofs.«411005_j84894323572906_3_alg».proof.Proof.Region0
import proofs.«411005_j84894323572906_3_alg».proof.Proof.Region1
import proofs.«411005_j84894323572906_3_alg».proof.Proof.Region2
import proofs.«411005_j84894323572906_3_alg».proof.Proof.Persist
import proofs.«411005_j84894323572906_3_alg».proof.Proof.LibConcat
import proofs.«411005_j84894323572906_3_alg».proof.Proof.StagesEnds

noncomputable section

namespace Cert.KernelIdeal.GinK

open Idealize.ShloMosaic Idealize.ShloMosaic.TcCoe Idealize.ShloMosaic.ValueIdx Idealize.SL.Sem
open Cert.KernelIdeal Cert.KernelIdeal.Gen Cert.Gin

/-! The idealized kernel program's result as one function of its arguments: the fold through @main's seven segments
    read boundary by boundary.  Each host stretch applies the printed operations to the contents before it; each region
    replaces its output array by the value its region lemma names. -/

/-! ## The second host stretch: what region 1 finds

The stretch writes neither h₀'s array nor an argument.  It computes the neighbour sum of h₀ along the edge rows the
first stretch left, and the first layer's weight placed over itself. -/

/-- The second host stretch does not write h₀'s array. -/
theorem w3_v4 (m : (ℓ : Loc nD τ sig) → Buf (Elt Ideal) ℓ) (ρ : Dev nD → PrngReg) (c : Dev nD) :
    W3 m ρ c (Proc.devRef .tc main_v4) = W2 m ρ c (Proc.devRef .tc main_v4) := by
  show StableHlo.after (hostOps1 (F := Ideal)) (W2 m ρ c) (Proc.devRef .tc main_v4) = _
  after_results

/-- The neighbour sum the second host stretch computes from h₀ and the edge rows: the operations are those of
    `agg`, applied to the same three operands once the edge rows are read back to the first stretch. -/
theorem w3_v14 (m : (ℓ : Loc nD τ sig) → Buf (Elt Ideal) ℓ) (ρ : Dev nD → PrngReg) (c : Dev nD) (h0 : SN64.Idx → EReal)
    (hv4 : (W2 m ρ c (Proc.devRef .tc main_v4) : SN64.Idx → EReal) = h0) :
    (W3 m ρ c (Proc.devRef .tc main_v14) : SN64.Idx → EReal) = agg h0 (m ((c : Thread nD τ).loc main_arg1)) := by
  show StableHlo.after (hostOps1 (F := Ideal)) (W2 m ρ c) (Proc.devRef .tc main_v14) = _
  after_results
  rw [(w2_edges m ρ c).1, (w2_edges m ρ c).2, w1_v1, w1_v3, hv4]
  rfl

/-- The weight the second host stretch builds: the first layer's first weight over itself. -/
theorem w3_v15 (m : (ℓ : Loc nD τ sig) → Buf (Elt Ideal) ℓ) (ρ : Dev nD → PrngReg) (c : Dev nD) :
    (W3 m ρ c (Proc.devRef .tc main_v15) : SW128x64.Idx → EReal) = stack (m ((c : Thread nD τ).loc main_arg5)) := by
  show StableHlo.after (hostOps1 (F := Ideal)) (W2 m ρ c) (Proc.devRef .tc main_v15) = _
  after_results
  rw [(w2_arg m ρ c).2.2.2.2.2.1]
  exact concat_self_eq_stack _

/-- After region 1: the first layer's output from h₀. -/
theorem stage_h1 (m : (ℓ : Loc nD τ sig) → Buf (Elt Ideal) ℓ) (ρ : Dev nD → PrngReg) (c : Dev nD) (h0 : SN64.Idx → EReal)
    (hv4 : (W2 m ρ c (Proc.devRef .tc main_v4) : SN64.Idx → EReal) = h0) :
    (W4 m ρ c (Proc.devRef .tc main_v16) : SN64.Idx → EReal)
      = kerMlp h0 (agg h0 (m ((c : Thread nD τ).loc main_arg1))) (stack (m ((c : Thread nD τ).loc main_arg5))) (m ((c : Thread nD τ).loc main_arg6)) (m ((c : Thread nD τ).loc main_arg7)) (m ((c : Thread nD τ).loc main_arg8)) := by
  refine (W4_arr m ρ c 6).trans ?_
  rw [region1_value (V3 m ρ) c]
  obtain ⟨-, -, -, -, -, -, e6, e7, e8, -⟩ := w3_arg m ρ c
  show kerMlp (W3 m ρ c (Proc.devRef .tc main_v4)) (W3 m ρ c (Proc.devRef .tc main_v14)) (W3 m ρ c (Proc.devRef .tc main_v15))
    (W3 m ρ c (Proc.devRef .tc main_arg6)) (W3 m ρ c (Proc.devRef .tc main_arg7)) (W3 m ρ c (Proc.devRef .tc main_arg8)) = _
  rw [w3_v14 m ρ c h0 hv4, w3_v15 m ρ c, w3_v4 m ρ c, hv4, e6, e7, e8]

/-! ## The third host stretch: what region 2 finds

The stretch writes neither h₁'s array nor an argument.  It computes the neighbour sum of h₁ along the same edge rows,
the second layer's first weight placed over itself, and the graph ids laid out as a column. -/

/-- The third host stretch does not write h₁'s array. -/
theorem w5_v16 (m : (ℓ : Loc nD τ sig) → Buf (Elt Ideal) ℓ) (ρ : Dev nD → PrngReg) (c : Dev nD) :
    W5 m ρ c (Proc.devRef .tc main_v16) = W4 m ρ c (Proc.devRef .tc main_v16) := by
  show StableHlo.after (hostOps2 (F := Ideal)) (W4 m ρ c) (Proc.devRef .tc main_v16) = _
  after_results

/-- The neighbour sum the third host stretch computes from h₁ and the edge rows. -/
theorem w5_v26 (m : (ℓ : Loc nD τ sig) → Buf (Elt Ideal) ℓ) (ρ : Dev nD → PrngReg) (c : Dev nD) (h1 : SN64.Idx → EReal)
    (hv16 : (W4 m ρ c (Proc.devRef .tc main_v16) : SN64.Idx → EReal) = h1) :
    (W5 m ρ c (Proc.devRef .tc main_v26) : SN64.Idx → EReal) = agg h1 (m ((c : Thread nD τ).loc main_arg1)) := by
  show StableHlo.after (hostOps2 (F := Ideal)) (W4 m ρ c) (Proc.devRef .tc main_v26) = _
  after_results
  rw [(w4_edges m ρ c).1, (w4_edges m ρ c).2, w1_v1, w1_v3, hv16]
  rfl

/-- The weight the third host stretch builds: the second layer's first weight over itself. -/
theorem w5_v27 (m : (ℓ : Loc nD τ sig) → Buf (Elt Ideal) ℓ) (ρ : Dev nD → PrngReg) (c : Dev nD) :
    (W5 m ρ c (Proc.devRef .tc main_v27) : SW128x64.Idx → EReal) = stack (m ((c : Thread nD τ).loc main_arg9)) := by
  show StableHlo.after (hostOps2 (F := Ideal)) (W4 m ρ c) (Proc.devRef .tc main_v27) = _
  after_results
  rw [(w4_arg m ρ c).2.2.2.2.2.2.2.2.2.1]
  exact concat_self_eq_stack _

/-- The graph ids laid out as a 50000 × 1 column and read back down the column are the graph ids: entry (n, 0) of
    the column sits at row-major position n, where the vector has its entry n. -/
theorem w5_v28 (m : (ℓ : Loc nD τ sig) → Buf (Elt Ideal) ℓ) (ρ : Dev nD → PrngReg) (c : Dev nD) :
    (fun n : SN.Idx => (W5 m ρ c (Proc.devRef .tc main_v28) : SN1.Idx → BitVec 32) (ix2 (n 0) 0))
      = m ((c : Thread nD τ).loc main_arg2) := by
  have e : (W5 m ρ c (Proc.devRef .tc main_v28) : SN1.Idx → BitVec 32)
      = shapeCast S50000x1 (m ((c : Thread nD τ).loc main_arg2)) shapeCasts_S50000_S50000x1 := by
    show StableHlo.after (hostOps2 (F := Ideal)) (W4 m ρ c) (Proc.devRef .tc main_v28) = _
    after_results
    rw [(w4_arg m ρ c).2.2.1]
    rfl
  rw [e]
  funext n
  refine (shapeCast_apply _ shapeCasts_S50000_S50000x1 (ix2 (n 0) 0) n ?_).trans ?_
  · rw [Shape.rowMajor_val_two, Shape.rowMajor_val_one]
    show (n 0).val = (n 0).val * 1 + 0
    omega
  · rfl

/-- After region 2: the pooled sums of the second layer's output, from the first layer's output h₁. -/
theorem stage_pool (m : (ℓ : Loc nD τ sig) → Buf (Elt Ideal) ℓ) (ρ : Dev nD → PrngReg) (c : Dev nD) (h1 : SN64.Idx → EReal)
    (hv16 : (W4 m ρ c (Proc.devRef .tc main_v16) : SN64.Idx → EReal) = h1) :
    (W6 m ρ c (Proc.devRef .tc main_v29) : SW128x64.Idx → EReal)
      = kerPool (kerMlp h1 (agg h1 (m ((c : Thread nD τ).loc main_arg1))) (stack (m ((c : Thread nD τ).loc main_arg9))) (m ((c : Thread nD τ).loc main_arg10)) (m ((c : Thread nD τ).loc main_arg11)) (m ((c : Thread nD τ).loc main_arg12))) (m ((c : Thread nD τ).loc main_arg2)) := by
  refine (W6_arr m ρ c 7).trans ?_
  rw [region2_value (V5 m ρ) c]
  obtain ⟨-, -, -, -, -, -, -, -, -, -, e10, e11, e12, -⟩ := w5_arg m ρ c
  show kerPool (kerMlp (W5 m ρ c (Proc.devRef .tc main_v16)) (W5 m ρ c (Proc.devRef .tc main_v26)) (W5 m ρ c (Proc.devRef .tc main_v27))
    (W5 m ρ c (Proc.devRef .tc main_arg10)) (W5 m ρ c (Proc.devRef .tc main_arg11)) (W5 m ρ c (Proc.devRef .tc main_arg12)))
    (fun n : SN.Idx => (W5 m ρ c (Proc.devRef .tc main_v28) : SN1.Idx → BitVec 32) (ix2 (n 0) 0)) = _
  rw [w5_v26 m ρ c h1 hv16, w5_v27 m ρ c, w5_v28 m ρ c, w5_v16 m ρ c, hv16, e10, e11, e12]

/-- The kernel program's result buffer at the end of the fold is `kerAll` of the arguments. -/
theorem w7_value (m : (ℓ : Loc nD τ sig) → Buf (Elt Ideal) ℓ) (ρ : Dev nD → PrngReg) (c : Dev nD) :
    (W7 m ρ c (Proc.devRef .tc main_v45) : SG128.Idx → EReal)
      = kerAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold kerAll
  exact stage_out m ρ c _ (stage_pool m ρ c _ (stage_h1 m ρ c _ (stage_h0 m ρ c)))

end Cert.KernelIdeal.GinK

end
-- ==== Proof.LibFin.lean ====
import proofs.«411005_j84894323572906_3_alg».proof.Proof.Spec
import Mathlib.Data.EReal.Operations

noncomputable section

namespace Cert.Gin

open Idealize.ShloMosaic Idealize.ShloMosaic.ValueIdx

/-! Real entries stay real under the operations the two programs apply, and on real entries the product distributes
    over sums — the one law of the reals the extended reals lack at the infinities. -/

theorem IsFin.coe (r : ℝ) : IsFin (r : EReal) := ⟨r, rfl⟩
theorem IsFin.zero : IsFin 0 := ⟨0, by simp⟩
theorem IsFin.one : IsFin 1 := ⟨1, by simp⟩
theorem IsFin.add {x y : EReal} (hx : IsFin x) (hy : IsFin y) : IsFin (x + y) := by
  obtain ⟨r, rfl⟩ := hx
  obtain ⟨s, rfl⟩ := hy
  exact ⟨r + s, (EReal.coe_add r s).symm⟩
theorem IsFin.mul {x y : EReal} (hx : IsFin x) (hy : IsFin y) : IsFin (x * y) := by
  obtain ⟨r, rfl⟩ := hx
  obtain ⟨s, rfl⟩ := hy
  exact ⟨r * s, (EReal.coe_mul r s).symm⟩
theorem IsFin.max {x y : EReal} (hx : IsFin x) (hy : IsFin y) : IsFin (max x y) := by
  obtain ⟨r, rfl⟩ := hx
  obtain ⟨s, rfl⟩ := hy
  rcases le_total r s with h | h
  · rw [max_eq_right (EReal.coe_le_coe_iff.2 h)]; exact ⟨s, rfl⟩
  · rw [max_eq_left (EReal.coe_le_coe_iff.2 h)]; exact ⟨r, rfl⟩
/-- A finite sum of real numbers, taken in the extended reals, is the real sum. -/
theorem coe_finset_sum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- Real entries on a finite set are the coercion of one real-valued function there. -/
theorem IsFin.exists_real {ι : Type*} (s : Finset ι) (f : ι → EReal) (h : ∀ i ∈ s, IsFin (f i)) :
    ∃ g : ι → ℝ, ∀ i ∈ s, f i = (g i : EReal) := by
  classical
  refine ⟨fun i => if hi : i ∈ s then (h i hi).choose else 0, fun i hi => ?_⟩
  simp only [hi, dif_pos]
  exact (h i hi).choose_spec

theorem IsFin.sum {ι : Type*} (s : Finset ι) (f : ι → EReal) (h : ∀ i ∈ s, IsFin (f i)) : IsFin (∑ i ∈ s, f i) := by
  obtain ⟨g, hg⟩ := IsFin.exists_real s f h
  exact ⟨∑ i ∈ s, g i, by rw [Finset.sum_congr rfl hg, coe_finset_sum]⟩
/-- On real numbers the product distributes over a sum of two. -/
theorem IsFin.add_mul {x y z : EReal} (hx : IsFin x) (hy : IsFin y) (hz : IsFin z) : (x + y) * z = x * z + y * z := by
  obtain ⟨r, rfl⟩ := hx
  obtain ⟨s, rfl⟩ := hy
  obtain ⟨t, rfl⟩ := hz
  rw [← EReal.coe_add, ← EReal.coe_mul, ← EReal.coe_mul, ← EReal.coe_mul, ← EReal.coe_add, _root_.add_mul]
/-- On real numbers the product distributes over a finite sum. -/
theorem IsFin.sum_mul {ι : Type*} (s : Finset ι) (f : ι → EReal) (z : EReal) (hf : ∀ i ∈ s, IsFin (f i)) (hz : IsFin z) :
    (∑ i ∈ s, f i) * z = ∑ i ∈ s, f i * z := by
  obtain ⟨g, hg⟩ := IsFin.exists_real s f hf
  obtain ⟨t, rfl⟩ := hz
  have hr : ∀ i ∈ s, f i * (t : EReal) = ((g i * t : ℝ) : EReal) := fun i hi => by
    rw [hg i hi, EReal.coe_mul]
  rw [Finset.sum_congr rfl hg, Finset.sum_congr rfl hr, coe_finset_sum, coe_finset_sum, ← EReal.coe_mul,
    Finset.sum_mul]

end Cert.Gin

end
-- ==== Proof.LibScatter.lean ====
import proofs.«411005_j84894323572906_3_alg».proof.Proof.Ops
import proofs.«411005_j84894323572906_3_alg».proof.Proof.LibFin

noncomputable section

namespace Cert.Gin

open Idealize.ShloMosaic Idealize.ShloMosaic.ValueIdx Cert.ReferenceIdeal Cert.ReferenceIdeal.Gen Cert.ReferenceIdeal.Read

/-! The accumulating scatters read at an index.  An update row n lands on result row g exactly when the node's graph
    id, read signed, is g; an id outside 0 … 127 lands nowhere and adds nothing.  So a scatter-add from zero is the sum
    over each graph's nodes: the pooled rows column by column, and the node counts as a sum of ones. -/

/-- An update lands on `i` exactly when, on every axis, its start plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro e a
      have h1 : (d.start j idx a + (d.window j a : Int)).toNat = (i a).val := congrArg (fun f => (f a).val) e
      have h2 := h a
      omega
    · intro e
      funext a
      apply Fin.ext
      show (d.start j idx a + (d.window j a : Int)).toNat = (i a).val
      have h2 := e a
      omega
  · rename_i h
    constructor
    · intro e; cases e
    · intro e
      refine absurd (fun a => ?_) h
      have h2 := e a
      have h3 := (i a).isLt
      omega

/-! The pooling scatter's record: update [N, 128], window axis 1, inserted axis 0. -/

theorem rows_start0 (j : S50000x128.Idx) (idx : IVec S50000x1 32) :
    scatter_S128x128_S50000x1_S50000x128_1_0_0_1.start j idx 0
      = (idx (ix2 (n0 := 50000) (n1 := 1) (j 0) 0)).toInt := by
  unfold ScatterDims.start
  split
  · exact congrArg (fun t => (idx t).toInt) (funext fun b => match b with | ⟨0, _⟩ => rfl | ⟨1, _⟩ => rfl)
  · rename_i h
    exact absurd (show (0 : Fin 2) ∈ ([0] : List (Fin 2)) from List.mem_singleton.2 rfl) h

theorem rows_start1 (j : S50000x128.Idx) (idx : IVec S50000x1 32) :
    scatter_S128x128_S50000x1_S50000x128_1_0_0_1.start j idx 1 = 0 := by
  unfold ScatterDims.start
  split
  · rename_i h
    exact absurd (show (1 : Fin 2) ∈ ([0] : List (Fin 2)) from h) (by decide)
  · rfl

theorem rows_window0 (j : S50000x128.Idx) :
    scatter_S128x128_S50000x1_S50000x128_1_0_0_1.window j 0 = 0 := by
  unfold ScatterDims.window
  split
  · rename_i h
    exact absurd (show (0 : Fin 2) ∈ ([1] : List (Fin 2)) from h) (by decide)
  · rfl

theorem rows_window1 (j : S50000x128.Idx) :
    scatter_S128x128_S50000x1_S50000x128_1_0_0_1.window j 1 = (j 1).val := by
  unfold ScatterDims.window
  split
  · rfl
  · rename_i h
    exact absurd (show (1 : Fin 2) ∈ ([1] : List (Fin 2)) from List.mem_singleton.2 rfl) h

/-- Update (n, c) lands on (g, c') exactly when node n's id, read signed, is g and c = c'. -/
theorem rows_lands (idx : IVec S50000x1 32) (j : S50000x128.Idx) (i : S128x128.Idx) :
    scatter_S128x128_S50000x1_S50000x128_1_0_0_1.resultIdx? j idx = some i ↔
      (idx (ix2 (n0 := 50000) (n1 := 1) (j 0) 0)).toInt = ((i 0).val : Int) ∧ (j 1).val = (i 1).val := by
  rw [resultIdx?_eq_some_iff]
  constructor
  · intro h
    have h0 := h 0
    have h1 := h 1
    rw [rows_start0, rows_window0] at h0
    rw [rows_start1, rows_window1] at h1
    exact ⟨by omega, by omega⟩
  · rintro ⟨h0, h1⟩ a
    match a with
    | ⟨0, _⟩ =>
      show scatter_S128x128_S50000x1_S50000x128_1_0_0_1.start j idx 0
        + (scatter_S128x128_S50000x1_S50000x128_1_0_0_1.window j 0 : Int) = ((i 0).val : Int)
      rw [rows_start0, rows_window0]; omega
    | ⟨1, _⟩ =>
      show scatter_S128x128_S50000x1_S50000x128_1_0_0_1.start j idx 1
        + (scatter_S128x128_S50000x1_S50000x128_1_0_0_1.window j 1 : Int) = ((i 1).val : Int)
      rw [rows_start1, rows_window1]; omega

/-! The counting scatter's record: update [N], no window axis, inserted axis 0. -/

theorem cnt_start0 (j : S50000.Idx) (idx : IVec S50000x1 32) :
    scatter_S128_S50000x1_S50000_n_0_0_1.start j idx 0
      = (idx (ix2 (n0 := 50000) (n1 := 1) (j 0) 0)).toInt := by
  unfold ScatterDims.start
  split
  · exact congrArg (fun t => (idx t).toInt) (funext fun b => match b with | ⟨0, _⟩ => rfl | ⟨1, _⟩ => rfl)
  · rename_i h
    exact absurd (show (0 : Fin 1) ∈ ([0] : List (Fin 1)) from List.mem_singleton.2 rfl) h

theorem cnt_window0 (j : S50000.Idx) :
    scatter_S128_S50000x1_S50000_n_0_0_1.window j 0 = 0 := by
  unfold ScatterDims.window
  split
  · rename_i h
    exact absurd (show (0 : Fin 1) ∈ ([] : List (Fin 1)) from h) (by simp)
  · rfl

/-- Update n lands on g exactly when node n's id, read signed, is g. -/
theorem cnt_lands (idx : IVec S50000x1 32) (j : S50000.Idx) (g : S128.Idx) :
    scatter_S128_S50000x1_S50000_n_0_0_1.resultIdx? j idx = some g ↔
      (idx (ix2 (n0 := 50000) (n1 := 1) (j 0) 0)).toInt = ((g 0).val : Int) := by
  rw [resultIdx?_eq_some_iff]
  constructor
  · intro h
    have h0 := h 0
    rw [cnt_start0, cnt_window0] at h0
    omega
  · intro h0 a
    match a with
    | ⟨0, _⟩ =>
      show scatter_S128_S50000x1_S50000_n_0_0_1.start j idx 0
        + (scatter_S128_S50000x1_S50000_n_0_0_1.window j 0 : Int) = ((g 0).val : Int)
      rw [cnt_start0, cnt_window0]; omega

/-- The index words of the pooling scatter: row n holds node n's graph id. -/
theorem v55_at (b : SN.Idx → BitVec 32) (n : Fin 50000) :
    val_main_v55 (F := Ideal) b (ix2 (n0 := 50000) (n1 := 1) n 0) = b (ix1 n) := by
  rw [val_main_v55_apply]
  exact congrArg b (funext fun a => match a with | ⟨0, _⟩ => rfl)

theorem v54_at (i : S128x128.Idx) : val_main_v54 (F := Ideal) i = 0 := by
  rw [val_main_v54_apply, val_main_cst_4_apply, Ideal.ofBits_def, Ideal.ofBits_zero_f32]

/-- The index words of the counting scatter: row n holds node n's graph id. -/
theorem v59_at (b : SN.Idx → BitVec 32) (n : Fin 50000) :
    val_main_v59 (F := Ideal) b (ix2 (n0 := 50000) (n1 := 1) n 0) = b (ix1 n) := by
  rw [val_main_v59_apply]
  exact congrArg b (funext fun a => match a with | ⟨0, _⟩ => rfl)

theorem v58_at (g : S128.Idx) : val_main_v58 (F := Ideal) g = 0 := by
  rw [val_main_v58_apply, val_main_cst_6_apply, Ideal.ofBits_def, Ideal.ofBits_zero_f32]

theorem v57_at (n : S50000.Idx) : val_main_v57 (F := Ideal) n = one := by
  rw [val_main_v57_apply, val_main_cst_5_apply, Ideal.ofBits_def, one]

/-- The updates that land on (g, c), summed, are column c summed over the nodes of graph g: for any index words
    whose row n holds node n's graph id. -/
theorem rows_sum (p : SN128.Idx → EReal) (b : SN.Idx → BitVec 32) (idx : IVec S50000x1 32)
    (hidx : ∀ n : Fin 50000, idx (ix2 (n0 := 50000) (n1 := 1) n 0) = b (ix1 n)) (i : SG128.Idx)
    [DecidablePred fun j : S50000x128.Idx =>
      scatter_S128x128_S50000x1_S50000x128_1_0_0_1.resultIdx? j idx = some i] :
    ∑ j ∈ Finset.univ.filter (fun j : S50000x128.Idx =>
        scatter_S128x128_S50000x1_S50000x128_1_0_0_1.resultIdx? j idx = some i), p j
      = ∑ n ∈ seg b (i 0), p (ix2 n (i 1)) := by
  have hl : ∀ j : S50000x128.Idx,
      scatter_S128x128_S50000x1_S50000x128_1_0_0_1.resultIdx? j idx = some i →
      (ix2 (j 0) (i 1) : S50000x128.Idx) = j := by
    intro j hj
    have h := ((rows_lands idx j i).1 hj).2
    funext a
    match a with
    | ⟨0, _⟩ => rfl
    | ⟨1, _⟩ => exact (Fin.ext h).symm
  refine Finset.sum_nbij' (fun j => j 0) (fun n => ix2 n (i 1)) ?_ ?_
    (fun j hj => hl j (Finset.mem_filter.1 hj).2) (fun _ _ => rfl) ?_
  · intro j hj
    have h := ((rows_lands idx j i).1 (Finset.mem_filter.1 hj).2).1
    exact Finset.mem_filter.2 ⟨Finset.mem_univ _, (congrArg BitVec.toInt (hidx (j 0))).symm.trans h⟩
  · intro n hn
    refine Finset.mem_filter.2 ⟨Finset.mem_univ _, (rows_lands idx _ i).2 ⟨?_, rfl⟩⟩
    exact (congrArg BitVec.toInt (hidx n)).trans (Finset.mem_filter.1 hn).2
  · intro j hj
    exact congrArg p (hl j (Finset.mem_filter.1 hj).2).symm

/-- The reference's pooling scatter from zero: entry (g, j) is the sum of column j over the nodes of graph g. -/
theorem scatter_rows_apply (p : SN128.Idx → EReal) (b : SN.Idx → BitVec 32) (i : SG128.Idx) :
    Host.scatterAdd (F := Ideal) (φ := .f32) scatter_S128x128_S50000x1_S50000x128_1_0_0_1 (val_main_v54 (F := Ideal))
      (val_main_v55 (F := Ideal) b) p i = 0 + ∑ n ∈ seg b (i 0), p (ix2 n (i 1)) := by
  unfold Host.scatterAdd
  rw [Ideal.hostScatterAdd_def]
  unfold Ideal.hostScatterAdd
  rw [v54_at, @rows_sum p b (val_main_v55 (F := Ideal) b) (v55_at b) i _]

/-- The updates that land on g, summed, are the update's value once per node of graph g: for any index words whose
    row n holds node n's graph id, and an update array constant at c. -/
theorem cnt_sum (b : SN.Idx → BitVec 32) (idx : IVec S50000x1 32)
    (hidx : ∀ n : Fin 50000, idx (ix2 (n0 := 50000) (n1 := 1) n 0) = b (ix1 n))
    (upd : S50000.Idx → EReal) (c : EReal) (hupd : ∀ n, upd n = c) (g : SB128.Idx)
    [DecidablePred fun j : S50000.Idx =>
      scatter_S128_S50000x1_S50000_n_0_0_1.resultIdx? j idx = some g] :
    ∑ j ∈ Finset.univ.filter (fun j : S50000.Idx =>
        scatter_S128_S50000x1_S50000_n_0_0_1.resultIdx? j idx = some g), upd j
      = ∑ _n ∈ seg b (g 0), c := by
  refine Finset.sum_nbij' (fun j => j 0) (fun n => ix1 n) ?_ ?_ (fun j _ => (eq_ix1 j).symm) (fun _ _ => rfl) ?_
  · intro j hj
    have h := (cnt_lands idx j g).1 (Finset.mem_filter.1 hj).2
    exact Finset.mem_filter.2 ⟨Finset.mem_univ _, (congrArg BitVec.toInt (hidx (j 0))).symm.trans h⟩
  · intro n hn
    refine Finset.mem_filter.2 ⟨Finset.mem_univ _, (cnt_lands idx _ g).2 ?_⟩
    exact (congrArg BitVec.toInt (hidx n)).trans (Finset.mem_filter.1 hn).2
  · intro j hj
    exact hupd j

/-- The node count of each graph is the sum of ones over its nodes. -/
theorem counts_eq (b : SN.Idx → BitVec 32) : counts b = fun g => (0 : EReal) + ∑ _n ∈ seg b (g 0), one := by
  funext g
  unfold counts val_main_v60 Host.scatterAdd
  rw [Ideal.hostScatterAdd_def]
  unfold Ideal.hostScatterAdd
  rw [v58_at, @cnt_sum b (val_main_v59 (F := Ideal) b) (v59_at b) (val_main_v57 (F := Ideal)) one v57_at g _]

end Cert.Gin

end
-- ==== Proof.RefSide.lean ====
import proofs.«411005_j84894323572906_3_alg».proof.Proof.Ops
import proofs.«411005_j84894323572906_3_alg».proof.Proof.LibScatter

noncomputable section

namespace Cert.Gin

open Idealize.ShloMosaic Idealize.ShloMosaic.ValueIdx Cert.ReferenceIdeal Cert.ReferenceIdeal.Gen Cert.ReferenceIdeal.Read

/-! The reference program's result term, read one operation at a time, is `refAll` of the arguments.

    The program is a chain: the input projection; twice "add the neighbour sum, then two affine maps each followed by
    the rectifier"; the output projection; the sum of the projected rows over each graph's nodes; the division by the
    node count raised to at least one.  Each link is read at an index once, over arbitrary operands, and the links are
    then composed with the earlier stages held as opaque arrays. -/

namespace Ref

/-- The bias of width 64 laid along the rows, [64] → [1, 64] → [50000, 64], reads the bias at the column. -/
theorem bias64_apply (b : SB64.Idx → EReal) (i : SN64.Idx) :
    val_main_v6 (F := Ideal) b i = b (ix1 (i 1)) := by
  rw [val_main_v6_apply, val_main_v5_apply]
  exact congrArg b (funext fun a => Fin.ext (by match a with | ⟨0, _⟩ => rfl))

/-- The bias of width 128 laid along the rows reads the bias at the column. -/
theorem bias128_apply (b : SB128.Idx → EReal) (i : SN128.Idx) :
    val_main_v52 (F := Ideal) b i = b (ix1 (i 1)) := by
  rw [val_main_v52_apply, val_main_v51_apply]
  exact congrArg b (funext fun a => Fin.ext (by match a with | ⟨0, _⟩ => rfl))

/-- The zero array the rectifier compares with is zero everywhere. -/
theorem zero64_apply (i : SN64.Idx) : val_main_v15 (F := Ideal) i = 0 := by
  rw [val_main_v15_apply]
  exact Ideal.ofBits_zero_f32

/-- The first stage is the input projection: row (i 0) of x against column (i 1) of W, plus the bias. -/
theorem proj_eq (x0 : SN128.Idx → EReal) (x3 : SW128x64.Idx → EReal) (x4 : SB64.Idx → EReal) :
    (val_main_v7 (F := Ideal) x0 x3 x4 : SN64.Idx → EReal) = proj x0 x3 x4 := by
  funext i
  rw [val_main_v7_apply, val_main_v4_apply, bias64_apply]
  unfold proj
  rw [Ideal.addf_def]
  refine congrArg (· + x4 (ix1 (i 1))) (Finset.sum_congr rfl fun k _ => ?_)
  have el : lidx_main_v4 i k = ix2 (i 0) k := funext fun a => Fin.ext (by match a with | ⟨0, _⟩ => rfl | ⟨1, _⟩ => rfl)
  have er : ridx_main_v4 i k = ix2 k (i 1) := funext fun a => Fin.ext (by match a with | ⟨0, _⟩ => rfl | ⟨1, _⟩ => rfl)
  exact congrArg₂ (· * ·) (congrArg x0 el) (congrArg x3 er)

/-- The host's product of a [50000, 64] array with a [64, 64] weight: row (i 0) against column (i 1).  The
    contraction has one axis of extent 64, so its index is a k < 64; the left operand is read at (i 0, k) and the
    right at (k, i 1). -/
theorem dot64_apply (l : SN64.Idx → EReal) (r : SW64x64.Idx → EReal) (i : SN64.Idx) :
    Host.dotGeneral (F := Ideal) (φ₁ := .f32) (φ₂ := .f32) dot_S50000x64_S64x64_S50000x64_1_0_0_1_n_n none l r i = ∑ k : Fin 64, l (ix2 (i 0) k) * r (ix2 k (i 1)) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx i ((ValueIdx.contrEquiv1 dot_S50000x64_S64x64_S50000x64_1_0_0_1_n_n 64 rfl rfl).symm k) = ix2 (i 0) k := funext fun a => Fin.ext (by
    match a with
    | ⟨0, _⟩ => exact lhs_main_v19_0 _ _
    | ⟨1, _⟩ => exact (lhs_main_v19_1 _ _).trans hk)
  have er : dot_S50000x64_S64x64_S50000x64_1_0_0_1_n_n.rhsIdx i ((ValueIdx.contrEquiv1 dot_S50000x64_S64x64_S50000x64_1_0_0_1_n_n 64 rfl rfl).symm k) = ix2 k (i 1) := funext fun a => Fin.ext (by
    match a with
    | ⟨0, _⟩ => exact (rhs_main_v19_0 _ _).trans hk
    | ⟨1, _⟩ => exact rhs_main_v19_1 _ _)
  exact congrArg₂ (· * ·) (congrArg l el) (congrArg r er)

/-- The host's product of a [50000, 64] array with a [64, 128] weight, likewise. -/
theorem dot64x128_apply (l : SN64.Idx → EReal) (r : SW64x128.Idx → EReal) (i : SN128.Idx) :
    Host.dotGeneral (F := Ideal) (φ₁ := .f32) (φ₂ := .f32) dot_S50000x64_S64x128_S50000x128_1_0_0_1_n_n none l r i = ∑ k : Fin 64, l (ix2 (i 0) k) * r (ix2 k (i 1)) := by
  simp only [Host.dotGeneral]
  rw [Ideal.dotGeneral_apply, ← Equiv.sum_comp (ValueIdx.contrEquiv1 dot_S50000x64_S64x128_S50000x128_1_0_0_1_n_n 64 rfl rfl).symm]
  refine Finset.sum_congr rfl fun k _ => ?_
  have hk := ValueIdx.contrEquiv1_symm_val dot_S50000x64_S64x128_S50000x128_1_0_0_1_n_n 64 rfl rfl k
  have el : dot_S50000x64_S64x128_S50000x128_1_0_0_1_n_n.lhsIdx i ((ValueIdx.contrEquiv1 dot_S50000x64_S64x128_S50000x128_1_0_0_1_n_n 64 rfl rfl).symm k) = ix2 (i 0) k := funext fun a => Fin.ext (by
    match a with
    | ⟨0, _⟩ => exact lhs_main_v50_0 _ _
    | ⟨1, _⟩ => exact (lhs_main_v50_1 _ _).trans hk)
  have er : dot_S50000x64_S64x128_S50000x128_1_0_0_1_n_n.rhsIdx i ((ValueIdx.contrEquiv1 dot_S50000x64_S64x128_S50000x128_1_0_0_1_n_n 64 rfl rfl).symm k) = ix2 k (i 1) := funext fun a => Fin.ext (by
    match a with
    | ⟨0, _⟩ => exact (rhs_main_v50_0 _ _).trans hk
    | ⟨1, _⟩ => exact rhs_main_v50_1 _ _)
  exact congrArg₂ (· * ·) (congrArg l el) (congrArg r er)

/-- One affine map followed by the maximum with zero, over any operand, is relu ∘ hid. -/
theorem stage_eq (v : SN64.Idx → EReal) (W : SW64x64.Idx → EReal) (b : SB64.Idx → EReal) :
    (maximumf (F := Ideal) (φ := .f32) (addf (F := Ideal) (φ := .f32) (Host.dotGeneral (F := Ideal) (φ₁ := .f32) (φ₂ := .f32) dot_S50000x64_S64x64_S50000x64_1_0_0_1_n_n none v W) (val_main_v6 (F := Ideal) b)) (val_main_v15 (F := Ideal)) : SN64.Idx → EReal) = relu (hid v W b) := by
  funext i
  rw [maximumf_apply, addf_apply, dot64_apply, bias64_apply, zero64_apply]
  rfl

/-- Two such stages on h + a are the reference's layer, for any h and a. -/
theorem layer_eq (h a : SN64.Idx → EReal) (W1 : SW64x64.Idx → EReal) (b1 : SB64.Idx → EReal) (W2 : SW64x64.Idx → EReal)
    (b2 : SB64.Idx → EReal) :
    (maximumf (F := Ideal) (φ := .f32) (addf (F := Ideal) (φ := .f32) (Host.dotGeneral (F := Ideal) (φ₁ := .f32) (φ₂ := .f32) dot_S50000x64_S64x64_S50000x64_1_0_0_1_n_n none (maximumf (F := Ideal) (φ := .f32) (addf (F := Ideal) (φ := .f32) (Host.dotGeneral (F := Ideal) (φ₁ := .f32) (φ₂ := .f32) dot_S50000x64_S64x64_S50000x64_1_0_0_1_n_n none (addf (F := Ideal) (φ := .f32) h a) W1) (val_main_v6 (F := Ideal) b1)) (val_main_v15 (F := Ideal))) W2) (val_main_v6 (F := Ideal) b2)) (val_main_v15 (F := Ideal)) : SN64.Idx → EReal)
      = refMlp h a W1 b1 W2 b2 := by
  rw [stage_eq, stage_eq]
  rfl

/-- The output projection over any operand. -/
theorem outp_stage_eq (h : SN64.Idx → EReal) (W : SW64x128.Idx → EReal) (b : SB128.Idx → EReal) :
    (addf (F := Ideal) (φ := .f32) (Host.dotGeneral (F := Ideal) (φ₁ := .f32) (φ₂ := .f32) dot_S50000x64_S64x128_S50000x128_1_0_0_1_n_n none h W) (val_main_v52 (F := Ideal) b) : SN128.Idx → EReal) = outp h W b := by
  funext i
  rw [addf_apply, dot64x128_apply, bias128_apply]
  rfl

/-- The first neighbour sum is `agg` of the projection: the same operations on the same operands. -/
theorem agg1_eq (x0 : SN128.Idx → EReal) (x1 : SE.Idx → BitVec 32) (x3 : SW128x64.Idx → EReal) (x4 : SB64.Idx → EReal) :
    (val_main_v17 (F := Ideal) x0 x1 x3 x4 : SN64.Idx → EReal) = agg (val_main_v7 (F := Ideal) x0 x3 x4) x1 := by
  unfold val_main_v17 val_main_v14 agg
  generalize val_main_v7 (F := Ideal) x0 x3 x4 = h
  rfl

/-- The first layer: the stages from the sum h + a to the second rectifier, over the projection and its neighbour
    sum held as opaque arrays. -/
theorem layer1_eq (x0 : SN128.Idx → EReal) (x1 : SE.Idx → BitVec 32) (x3 : SW128x64.Idx → EReal) (x4 : SB64.Idx → EReal)
    (x5 : SW64x64.Idx → EReal) (x6 : SB64.Idx → EReal) (x7 : SW64x64.Idx → EReal) (x8 : SB64.Idx → EReal) :
    (val_main_v28 (F := Ideal) x0 x1 x3 x4 x5 x6 x7 x8 : SN64.Idx → EReal)
      = refMlp (val_main_v7 (F := Ideal) x0 x3 x4) (val_main_v17 (F := Ideal) x0 x1 x3 x4) x5 x6 x7 x8 := by
  unfold val_main_v28 val_main_v27 val_main_v24 val_main_v23 val_main_v22 val_main_v19 val_main_v18
  generalize val_main_v7 (F := Ideal) x0 x3 x4 = h
  generalize val_main_v17 (F := Ideal) x0 x1 x3 x4 = a
  exact layer_eq h a x5 x6 x7 x8

/-- The second printing of the zero array, of the destinations and of the wrapped sources is the first. -/
theorem zero2_eq : (val_main_v36 (F := Ideal)) = val_main_v15 (F := Ideal) := rfl
theorem dst2_eq (x1 : SE.Idx → BitVec 32) : val_main_v37 (F := Ideal) x1 = val_main_v16 (F := Ideal) x1 := rfl
theorem src2_eq (x1 : SE.Idx → BitVec 32) : val_main_v34 (F := Ideal) x1 = val_main_v13 (F := Ideal) x1 := rfl

/-- The second neighbour sum is `agg` of the first layer's result. -/
theorem agg2_eq (x0 : SN128.Idx → EReal) (x1 : SE.Idx → BitVec 32) (x3 : SW128x64.Idx → EReal) (x4 : SB64.Idx → EReal)
    (x5 : SW64x64.Idx → EReal) (x6 : SB64.Idx → EReal) (x7 : SW64x64.Idx → EReal) (x8 : SB64.Idx → EReal) :
    (val_main_v38 (F := Ideal) x0 x1 x3 x4 x5 x6 x7 x8 : SN64.Idx → EReal) = agg (val_main_v28 (F := Ideal) x0 x1 x3 x4 x5 x6 x7 x8) x1 := by
  unfold val_main_v38 val_main_v35 agg
  generalize val_main_v28 (F := Ideal) x0 x1 x3 x4 x5 x6 x7 x8 = h
  rw [zero2_eq, dst2_eq, src2_eq]

/-- The second layer, over the first layer's result and its neighbour sum. -/
theorem layer2_eq (x0 : SN128.Idx → EReal) (x1 : SE.Idx → BitVec 32) (x3 : SW128x64.Idx → EReal) (x4 : SB64.Idx → EReal)
    (x5 : SW64x64.Idx → EReal) (x6 : SB64.Idx → EReal) (x7 : SW64x64.Idx → EReal) (x8 : SB64.Idx → EReal)
    (x9 : SW64x64.Idx → EReal) (x10 : SB64.Idx → EReal) (x11 : SW64x64.Idx → EReal) (x12 : SB64.Idx → EReal) :
    (val_main_v49 (F := Ideal) x0 x1 x3 x4 x5 x6 x7 x8 x9 x10 x11 x12 : SN64.Idx → EReal)
      = refMlp (val_main_v28 (F := Ideal) x0 x1 x3 x4 x5 x6 x7 x8) (val_main_v38 (F := Ideal) x0 x1 x3 x4 x5 x6 x7 x8) x9 x10 x11 x12 := by
  unfold val_main_v49 val_main_v48 val_main_v45 val_main_v44 val_main_v43 val_main_v40 val_main_v39
  generalize val_main_v28 (F := Ideal) x0 x1 x3 x4 x5 x6 x7 x8 = h
  generalize val_main_v38 (F := Ideal) x0 x1 x3 x4 x5 x6 x7 x8 = a
  exact layer_eq h a x9 x10 x11 x12

/-- The projected rows are the output projection of the second layer's result. -/
theorem outp_eq (x0 : SN128.Idx → EReal) (x1 : SE.Idx → BitVec 32) (x3 : SW128x64.Idx → EReal) (x4 : SB64.Idx → EReal)
    (x5 : SW64x64.Idx → EReal) (x6 : SB64.Idx → EReal) (x7 : SW64x64.Idx → EReal) (x8 : SB64.Idx → EReal)
    (x9 : SW64x64.Idx → EReal) (x10 : SB64.Idx → EReal) (x11 : SW64x64.Idx → EReal) (x12 : SB64.Idx → EReal)
    (x13 : SW64x128.Idx → EReal) (x14 : SB128.Idx → EReal) :
    (val_main_v53 (F := Ideal) x0 x1 x3 x4 x5 x6 x7 x8 x9 x10 x11 x12 x13 x14 : SN128.Idx → EReal)
      = outp (val_main_v49 (F := Ideal) x0 x1 x3 x4 x5 x6 x7 x8 x9 x10 x11 x12) x13 x14 := by
  unfold val_main_v53 val_main_v50
  generalize val_main_v49 (F := Ideal) x0 x1 x3 x4 x5 x6 x7 x8 x9 x10 x11 x12 = h
  exact outp_stage_eq h x13 x14

/-- The pooled sums: entry (g, j) adds column j of the projected rows over the nodes of graph g, from zero. -/
theorem pool_apply (x0 : SN128.Idx → EReal) (x1 : SE.Idx → BitVec 32) (x2 : SN.Idx → BitVec 32)
    (x3 : SW128x64.Idx → EReal) (x4 : SB64.Idx → EReal)
    (x5 : SW64x64.Idx → EReal) (x6 : SB64.Idx → EReal) (x7 : SW64x64.Idx → EReal) (x8 : SB64.Idx → EReal)
    (x9 : SW64x64.Idx → EReal) (x10 : SB64.Idx → EReal) (x11 : SW64x64.Idx → EReal) (x12 : SB64.Idx → EReal)
    (x13 : SW64x128.Idx → EReal) (x14 : SB128.Idx → EReal) (i : SG128.Idx) :
    val_main_v56 (F := Ideal) x0 x1 x2 x3 x4 x5 x6 x7 x8 x9 x10 x11 x12 x13 x14 i
      = 0 + ∑ n ∈ seg x2 (i 0), (val_main_v53 (F := Ideal) x0 x1 x3 x4 x5 x6 x7 x8 x9 x10 x11 x12 x13 x14) (ix2 n (i 1)) := by
  unfold val_main_v56
  exact scatter_rows_apply _ x2 i

/-- The divisor: the count of graph (i 0), raised to at least the literal 1.0, the same along the whole row. -/
theorem divisor_apply (x2 : SN.Idx → BitVec 32) (i : SG128.Idx) :
    val_main_v64 (F := Ideal) x2 i
      = max (val_main_v60 (F := Ideal) x2 (ix1 (i 0))) (Ideal.ofBits .f32 0x3F800000#32) := by
  rw [val_main_v64_apply, val_main_v63_apply, val_main_v62_apply, val_main_v61_apply, Ideal.maximumf_def]
  have e : idx_main_v63 (idx_main_v64 i) = ix1 (i 0) := funext fun a => Fin.ext (by match a with | ⟨0, _⟩ => rfl)
  rw [e]
  rfl

end Ref

/-- The reference's composed term of its fifteen arguments is the end-to-end function `refAll`. -/
theorem ref_value (x0 : SN128.Idx → EReal) (x1 : SE.Idx → BitVec 32) (x2 : SN.Idx → BitVec 32)
    (x3 : SW128x64.Idx → EReal) (x4 : SB64.Idx → EReal) (x5 : SW64x64.Idx → EReal) (x6 : SB64.Idx → EReal)
    (x7 : SW64x64.Idx → EReal) (x8 : SB64.Idx → EReal) (x9 : SW64x64.Idx → EReal) (x10 : SB64.Idx → EReal)
    (x11 : SW64x64.Idx → EReal) (x12 : SB64.Idx → EReal) (x13 : SW64x128.Idx → EReal) (x14 : SB128.Idx → EReal) :
    (val_main_v65 (F := Ideal) x0 x1 x2 x3 x4 x5 x6 x7 x8 x9 x10 x11 x12 x13 x14 : SG128.Idx → EReal)
      = refAll x0 x1 x2 x3 x4 x5 x6 x7 x8 x9 x10 x11 x12 x13 x14 := by
  funext i
  rw [val_main_v65_apply, Ideal.hostDivf_def, Ref.divisor_apply, Ref.pool_apply, Ref.outp_eq, Ref.layer2_eq, Ref.agg2_eq,
    Ref.layer1_eq, Ref.agg1_eq, Ref.proj_eq]
  rfl

end Cert.Gin

end
-- ==== Proof.LibAggFin.lean ====
import proofs.«411005_j84894323572906_3_alg».proof.Proof.Ops
import proofs.«411005_j84894323572906_3_alg».proof.Proof.LibFin
import Idealize.ShloMosaic.Lib.IdealHost

noncomputable section

namespace Cert.Gin

open Idealize.ShloMosaic Idealize.ShloMosaic.ValueIdx Cert.ReferenceIdeal Cert.ReferenceIdeal.Gen Cert.ReferenceIdeal.Read

/-! The neighbour sum keeps real entries real: a gathered entry IS an entry of the operand, and a scatter-add entry is
    the operand's entry (here zero) plus a finite sum of update entries.  And the float literal 1.0 is the number one. -/

/-- The float literal 1.0 is the real number one: sign 0, biased exponent 127, fraction 0. -/
theorem one_eq : one = 1 := by
  unfold one
  exact Ideal.ofBits_one_f32

/-- Over any shapes: an entry of an accumulating scatter is the operand's entry plus a finite sum of update entries
    (those whose result index is this entry), so it is real when the operand's entry and every update entry are. -/
theorem scatterAdd_isFin {s si su : Shape} {w : Nat} (d : ScatterDims s si su) (x : FVec Ideal s .f32) (idx : IVec si w)
    (upd : FVec Ideal su .f32) (i : s.Idx) (hx : IsFin (x i)) (hu : ∀ j, IsFin (upd j)) :
    IsFin (Host.scatterAdd (F := Ideal) (φ := .f32) d x idx upd i) :=
  IsFin.add hx (IsFin.sum _ _ fun j _ => hu j)

/-- Over any shapes: a gathered entry is an entry of the operand, whichever one the start indices select. -/
theorem gather_isFin {s si t : Shape} {w : Nat} (d : GatherDims s si t) (x : s.Idx → EReal) (idx : IVec si w)
    (hx : ∀ i, IsFin (x i)) (j : t.Idx) : IsFin (Host.gather d x idx j) :=
  hx _

/-- The neighbour sum of real rows has real entries: the zero array's entry plus a sum of gathered entries of h; which
    edges land on which row never matters. -/
theorem agg_isFin (h : SN64.Idx → EReal) (e : SE.Idx → BitVec 32) (hh : ∀ i, IsFin (h i)) : ∀ i, IsFin (agg h e i) := by
  intro i
  have hz : val_main_v15 (F := Ideal) i = 0 := by
    rw [val_main_v15_apply]
    exact Ideal.ofBits_zero_f32
  unfold agg
  refine scatterAdd_isFin _ _ _ _ i ?_ (fun j => gather_isFin _ h _ hh j)
  rw [hz]
  exact IsFin.zero

end Cert.Gin

end
-- ==== Proof.AlgMlp.lean ====
import proofs.«411005_j84894323572906_3_alg».proof.Proof.Spec
import proofs.«411005_j84894323572906_3_alg».proof.Proof.LibFin
import Mathlib.Algebra.BigOperators.Fin

noncomputable section

namespace Cert.Gin

open Idealize.ShloMosaic Idealize.ShloMosaic.ValueIdx

/-! One GIN layer: the kernel's rows [h | a] against the weight W over W give h·W + a·W, the reference's (h + a)·W —
    equal where the entries are real. -/

/-! ### Real entries stay real through each stage -/

theorem proj_isFin (x : SN128.Idx → EReal) (W : SW128x64.Idx → EReal) (b : SB64.Idx → EReal)
    (hx : ∀ i, IsFin (x i)) (hW : ∀ i, IsFin (W i)) (hb : ∀ i, IsFin (b i)) : ∀ i, IsFin (proj x W b i) := fun i =>
  IsFin.add (IsFin.sum _ _ (fun k _ => IsFin.mul (hx _) (hW _))) (hb _)

/-- A hidden affine map of real entries has real entries: a finite sum of products of reals, plus a real. -/
theorem hid_isFin (h : SN64.Idx → EReal) (W : SW64x64.Idx → EReal) (b : SB64.Idx → EReal)
    (hh : ∀ i, IsFin (h i)) (hW : ∀ i, IsFin (W i)) (hb : ∀ i, IsFin (b i)) : ∀ i, IsFin (hid h W b i) := fun i =>
  IsFin.add (IsFin.sum _ _ (fun k _ => IsFin.mul (hh _) (hW _))) (hb _)

/-- The rectifier of a real is real: the larger of two reals. -/
theorem relu_isFin (v : SN64.Idx → EReal) (hv : ∀ i, IsFin (v i)) : ∀ i, IsFin (relu v i) := fun i =>
  IsFin.max (hv i) IsFin.zero

theorem refMlp_isFin (h a : SN64.Idx → EReal) (W1 : SW64x64.Idx → EReal) (b1 : SB64.Idx → EReal) (W2 : SW64x64.Idx → EReal)
    (b2 : SB64.Idx → EReal) (hh : ∀ i, IsFin (h i)) (ha : ∀ i, IsFin (a i)) (hW1 : ∀ i, IsFin (W1 i)) (hb1 : ∀ i, IsFin (b1 i))
    (hW2 : ∀ i, IsFin (W2 i)) (hb2 : ∀ i, IsFin (b2 i)) : ∀ i, IsFin (refMlp h a W1 b1 W2 b2 i) :=
  relu_isFin _ (hid_isFin _ _ _ (relu_isFin _ (hid_isFin _ _ _ (fun i => IsFin.add (hh i) (ha i)) hW1 hb1)) hW2 hb2)

/-! ### The 128 lanes as two halves of 64 -/

/-- A sum over 128 lanes is the sum over lanes k < 64 plus the sum over lanes 64 + k, k < 64. -/
theorem sum_lanes128 (F : Fin 128 → EReal) :
    ∑ k : Fin 128, F k = ∑ k : Fin 64, F ⟨k.val, by omega⟩ + ∑ k : Fin 64, F ⟨64 + k.val, by omega⟩ :=
  Fin.sum_univ_add (a := 64) (b := 64) F

/-- Lane k < 64 of the row [h | a] is lane k of h. -/
theorem cat_lo (h a : SN64.Idx → EReal) (p : Fin 50000) (k : Fin 64) :
    cat h a (ix2 p (⟨k.val, by omega⟩ : Fin 128)) = h (ix2 p k) := by
  unfold cat
  split
  · rfl
  · rename_i hl; exact absurd k.isLt hl

/-- Lane 64 + k of the row [h | a] is lane k of a. -/
theorem cat_hi (h a : SN64.Idx → EReal) (p : Fin 50000) (k : Fin 64) :
    cat h a (ix2 p (⟨64 + k.val, by omega⟩ : Fin 128)) = a (ix2 p k) := by
  unfold cat
  split
  · rename_i hl
    have hl' : 64 + k.val < 64 := hl
    omega
  · refine congrArg a (congrArg (ix2 p) (Fin.ext ?_))
    show 64 + k.val - 64 = k.val
    omega

/-- Row k < 64 of W over W is row k of W. -/
theorem stack_lo (W : SW64x64.Idx → EReal) (k j : Fin 64) :
    stack W (ix2 (⟨k.val, by omega⟩ : Fin 128) j) = W (ix2 k j) := by
  unfold stack
  split
  · rfl
  · rename_i hl; exact absurd k.isLt hl

/-- Row 64 + k of W over W is again row k of W. -/
theorem stack_hi (W : SW64x64.Idx → EReal) (k j : Fin 64) :
    stack W (ix2 (⟨64 + k.val, by omega⟩ : Fin 128) j) = W (ix2 k j) := by
  unfold stack
  split
  · rename_i hl
    have hl' : 64 + k.val < 64 := hl
    omega
  · refine congrArg W (congrArg (fun r => ix2 r j) (Fin.ext ?_))
    show 64 + k.val - 64 = k.val
    omega

/-- The concatenated row against the stacked weight: Σₖ [h | a]ₖ · (W over W)ₖ = Σₖ hₖ·Wₖ + Σₖ aₖ·Wₖ = Σₖ (hₖ + aₖ)·Wₖ,
    the last step by distributivity on real entries. -/
theorem proj_cat_stack (h a : SN64.Idx → EReal) (W1 : SW64x64.Idx → EReal) (b1 : SB64.Idx → EReal)
    (hh : ∀ i, IsFin (h i)) (ha : ∀ i, IsFin (a i)) (hW1 : ∀ i, IsFin (W1 i)) :
    proj (cat h a) (stack W1) b1 = hid (fun i => h i + a i) W1 b1 := by
  funext i
  obtain ⟨p, j, rfl⟩ : ∃ (p : Fin 50000) (j : Fin 64), i = ix2 p j := ⟨i 0, i 1, eq_ix2 i⟩
  show (∑ k : Fin 128, cat h a (ix2 p k) * stack W1 (ix2 k j)) + b1 (ix1 j)
    = (∑ k : Fin 64, (h (ix2 p k) + a (ix2 p k)) * W1 (ix2 k j)) + b1 (ix1 j)
  congr 1
  rw [sum_lanes128]
  simp only [cat_lo, cat_hi, stack_lo, stack_hi]
  rw [← Finset.sum_add_distrib]
  refine Finset.sum_congr rfl (fun k _ => ?_)
  exact (IsFin.add_mul (hh _) (ha _) (hW1 _)).symm

/-- The kernel's layer with the stacked weight is the reference's layer, on real entries. -/
theorem kerMlp_stack (h a : SN64.Idx → EReal) (W1 : SW64x64.Idx → EReal) (b1 : SB64.Idx → EReal) (W2 : SW64x64.Idx → EReal)
    (b2 : SB64.Idx → EReal) (hh : ∀ i, IsFin (h i)) (ha : ∀ i, IsFin (a i)) (hW1 : ∀ i, IsFin (W1 i)) :
    kerMlp h a (stack W1) b1 W2 b2 = refMlp h a W1 b1 W2 b2 := by
  unfold kerMlp refMlp
  rw [proj_cat_stack h a W1 b1 hh ha hW1]

end Cert.Gin

end
-- ==== Proof.AlgPool.lean ====
import proofs.«411005_j84894323572906_3_alg».proof.Proof.Spec
import proofs.«411005_j84894323572906_3_alg».proof.Proof.LibFin

noncomputable section

namespace Cert.Gin

open Idealize.ShloMosaic Idealize.ShloMosaic.ValueIdx

/-! Pool then project against project then pool: Σ_{n ∈ graph g} (h₂[n]·W + b) = (Σ_{n ∈ graph g} h₂[n])·W + |g|·b, on
    real entries; and the one-hot weight [batch n = word g] selects exactly the nodes whose id, read signed, is g. -/

/-- The word of a number below 128 reads, signed, as that number: it is far below 2³¹, so the sign bit is clear. -/
theorem toInt_word (g : Fin 128) : (BitVec.ofNat 32 g.val).toInt = (g.val : Int) := by
  have hlt : 2 * (BitVec.ofNat 32 g.val).toNat < 2 ^ 32 := by
    rw [BitVec.toNat_ofNat]
    have := g.isLt
    omega
  rw [BitVec.toInt_eq_toNat_of_lt hlt, BitVec.toNat_ofNat]
  have := g.isLt
  omega

/-- A 32-bit word equals the word of a graph number g < 128 exactly when it reads, signed, as g. -/
theorem word_eq_iff (w : BitVec 32) (g : Fin 128) : w = BitVec.ofNat 32 g.val ↔ w.toInt = (g.val : Int) := by
  constructor
  · rintro rfl
    exact toInt_word g
  · intro h
    apply BitVec.eq_of_toInt_eq
    rw [h, toInt_word g]

/-- One-hot pooling is the sum over the graph's nodes: the weight is one on the nodes whose id reads as g, zero elsewhere. -/
theorem kerPool_seg (h2 : SN64.Idx → EReal) (b : SN.Idx → BitVec 32) (g : Fin 128) (d : Fin 64) :
    kerPool h2 b (ix2 g d) = ∑ n ∈ seg b g, h2 (ix2 n d) := by
  unfold kerPool seg
  rw [Finset.sum_filter]
  refine Finset.sum_congr rfl fun n _ => ?_
  show (if b (ix1 n) = BitVec.ofNat 32 g.val then (1 : EReal) else 0) * h2 (ix2 n d)
      = if (b (ix1 n)).toInt = (g.val : Int) then h2 (ix2 n d) else 0
  by_cases h : (b (ix1 n)).toInt = (g.val : Int)
  · rw [if_pos h, if_pos ((word_eq_iff _ _).2 h), one_mul]
  · rw [if_neg h, if_neg (fun h' => h ((word_eq_iff _ _).1 h')), zero_mul]

/-- The kernel's tail on its one-hot pooled sums is the reference's tail on the projected rows. -/
theorem pool_project (h2 : SN64.Idx → EReal) (b : SN.Idx → BitVec 32) (W : SW64x128.Idx → EReal) (bout : SB128.Idx → EReal)
    (cnt : SB128.Idx → EReal) (o : EReal) (hcnt : cnt = fun g => (0 : EReal) + ∑ _n ∈ seg b (g 0), o) (ho : o = 1)
    (hh2 : ∀ i, IsFin (h2 i)) (hW : ∀ i, IsFin (W i)) (hb : ∀ i, IsFin (bout i)) :
    kerOut (kerPool h2 b) W bout cnt o = refOut (outp h2 W bout) b cnt o := by
  subst hcnt ho
  funext i
  obtain ⟨g, j, rfl⟩ : ∃ (g : Fin 128) (j : Fin 128), i = ix2 g j := ⟨i 0, i 1, eq_ix2 i⟩
  unfold kerOut refOut
  refine congrArg₂ Ideal.div ?_ rfl
  show (∑ d : Fin 64, kerPool h2 b (ix2 g d) * W (ix2 d j)) + ((0 : EReal) + ∑ _n ∈ seg b g, (1 : EReal)) * bout (ix1 j)
      = 0 + ∑ n ∈ seg b g, outp h2 W bout (ix2 n j)
  -- the pooled part: the product distributes over the graph's nodes, then the two sums change places
  have h1 : (∑ d : Fin 64, kerPool h2 b (ix2 g d) * W (ix2 d j))
      = ∑ n ∈ seg b g, ∑ d : Fin 64, h2 (ix2 n d) * W (ix2 d j) := by
    rw [Finset.sum_comm]
    refine Finset.sum_congr rfl fun d _ => ?_
    rw [kerPool_seg]
    exact IsFin.sum_mul (seg b g) (fun n => h2 (ix2 n d)) (W (ix2 d j)) (fun n _ => hh2 _) (hW _)
  -- the bias part: count times bias is the bias added once per node
  have h3 : ((0 : EReal) + ∑ _n ∈ seg b g, (1 : EReal)) * bout (ix1 j) = ∑ _n ∈ seg b g, bout (ix1 j) := by
    rw [zero_add, IsFin.sum_mul (seg b g) (fun _ => (1 : EReal)) (bout (ix1 j)) (fun _ _ => IsFin.one) (hb _)]
    refine Finset.sum_congr rfl fun n _ => ?_
    exact one_mul _
  rw [h1, h3, zero_add, ← Finset.sum_add_distrib]
  refine Finset.sum_congr rfl fun n _ => ?_
  rfl

end Cert.Gin

end
-- ==== Proof.Algebra.lean ====
import proofs.«411005_j84894323572906_3_alg».proof.Proof.Ops
import proofs.«411005_j84894323572906_3_alg».proof.Proof.LibScatter
import proofs.«411005_j84894323572906_3_alg».proof.Proof.LibAggFin
import proofs.«411005_j84894323572906_3_alg».proof.Proof.AlgMlp
import proofs.«411005_j84894323572906_3_alg».proof.Proof.AlgPool

noncomputable section

namespace Cert.Gin

open Idealize.ShloMosaic Idealize.ShloMosaic.ValueIdx

/-! The two programs end to end agree on real inputs. -/

theorem kerAll_eq_refAll (x : SN128.Idx → EReal) (e : SE.Idx → BitVec 32) (b : SN.Idx → BitVec 32)
    (Win : SW128x64.Idx → EReal) (bin : SB64.Idx → EReal)
    (W10 : SW64x64.Idx → EReal) (b10 : SB64.Idx → EReal) (W20 : SW64x64.Idx → EReal) (b20 : SB64.Idx → EReal)
    (W11 : SW64x64.Idx → EReal) (b11 : SB64.Idx → EReal) (W21 : SW64x64.Idx → EReal) (b21 : SB64.Idx → EReal)
    (Wout : SW64x128.Idx → EReal) (bout : SB128.Idx → EReal)
    (hx : ∀ i, IsFin (x i)) (hWin : ∀ i, IsFin (Win i)) (hbin : ∀ i, IsFin (bin i))
    (hW10 : ∀ i, IsFin (W10 i)) (hb10 : ∀ i, IsFin (b10 i)) (hW20 : ∀ i, IsFin (W20 i)) (hb20 : ∀ i, IsFin (b20 i))
    (hW11 : ∀ i, IsFin (W11 i)) (hb11 : ∀ i, IsFin (b11 i)) (hW21 : ∀ i, IsFin (W21 i)) (hb21 : ∀ i, IsFin (b21 i))
    (hWout : ∀ i, IsFin (Wout i)) (hbout : ∀ i, IsFin (bout i)) :
    kerAll x e b Win bin W10 b10 W20 b20 W11 b11 W21 b21 Wout bout
      = refAll x e b Win bin W10 b10 W20 b20 W11 b11 W21 b21 Wout bout := by
  have h0 := proj_isFin x Win bin hx hWin hbin
  have a0 := agg_isFin _ e h0
  have e1 := kerMlp_stack (proj x Win bin) (agg (proj x Win bin) e) W10 b10 W20 b20 h0 a0 hW10
  have h1 := refMlp_isFin (proj x Win bin) (agg (proj x Win bin) e) W10 b10 W20 b20 h0 a0 hW10 hb10 hW20 hb20
  have a1 := agg_isFin _ e h1
  have e2 := kerMlp_stack _ (agg (refMlp (proj x Win bin) (agg (proj x Win bin) e) W10 b10 W20 b20) e) W11 b11 W21 b21 h1 a1 hW11
  have h2 := refMlp_isFin _ (agg (refMlp (proj x Win bin) (agg (proj x Win bin) e) W10 b10 W20 b20) e) W11 b11 W21 b21 h1 a1 hW11 hb11 hW21 hb21
  unfold kerAll refAll
  simp only [e1, e2]
  exact pool_project _ b Wout bout (counts b) one (counts_eq b) one_eq h2 hWout hbout

end Cert.Gin

end
-- ==== Proof.Finite.lean ====
import proofs.«411005_j84894323572906_3_alg».proof.Defs
import proofs.«411005_j84894323572906_3_alg».proof.Proof.Gen.Pre_finite_inputs
import proofs.«411005_j84894323572906_3_alg».proof.Proof.Gen.KernelIdeal
import proofs.«411005_j84894323572906_3_alg».proof.Proof.Spec
import Idealize.ShloMosaic.Lib.ReduceAll

/-! The precondition read: it says of every float argument that each entry's absolute value is below +∞, all of
    them conjoined; an extended real whose absolute value is below +∞ is a real number. -/

noncomputable section

namespace Cert.Gin.PreRead

open Idealize.ShloMosaic Idealize.ShloMosaic.ValueIdx

/-- The f32 pattern with every exponent bit set, a zero fraction and a clear sign denotes +∞. -/
theorem ofBits_inf_f32 : Ideal.ofBits .f32 0x7F800000#32 = (⊤ : EReal) := by
  have e1 : ((0x7F800000#32 : BitVec 32).extractLsb' 23 8).toNat = 255 := by decide
  have e2 : ((0x7F800000#32 : BitVec 32).extractLsb' 0 23).toNat = 0 := by decide
  have e3 : ((0x7F800000#32 : BitVec 32).extractLsb' 31 1 == 1#1) = false := by decide
  simp [Ideal.ofBits, Ideal.ieee, e1, e2, e3]

/-- An extended real whose absolute value, the larger of x and −x, lies strictly below +∞ is a real number:
    at −∞ the negation is +∞, and at +∞ the value itself is. -/
theorem isFin_of_abs_lt_top (x : EReal) (h : max x (-x) < (⊤ : EReal)) : IsFin x := by
  induction x with
  | bot =>
    rw [EReal.neg_bot, max_eq_right bot_le] at h
    exact absurd h (lt_irrefl _)
  | coe r => exact ⟨r, rfl⟩
  | top =>
    rw [max_eq_left le_top] at h
    exact absurd h (lt_irrefl _)

/-- One entry's test: if the comparison "|x| < +∞" yields the bit 1 then x is a real number. -/
theorem isFin_of_cmp (x : EReal)
    (h : Ideal.cmp .olt (max x (-x)) (Ideal.ofBits .f32 0x7F800000#32) = 1#1) : IsFin x := by
  rw [ofBits_inf_f32] at h
  refine isFin_of_abs_lt_top x ?_
  by_contra hn
  unfold Ideal.cmp at h
  dsimp only at h
  rw [decide_eq_false hn] at h
  exact absurd h (by decide)

/-- The scalar shape has a single index. -/
instance : Subsingleton Cert.Pre_finite_inputs.S_.Idx := ⟨fun a b => funext fun d => d.elim0⟩

/-- The conjunction of the entrywise test "|v| < +∞" over all entries of a float array v of any shape: if it is the
    bit 1, every entry passed the test, so every entry of v is a real number. -/
theorem allFin_of_reduce {s : Shape} {axes : List (Fin s.rank)} (v : FVec Ideal s .f32)
    (hb : Cert.Pre_finite_inputs.S_.BroadcastsInDim s (![] : Fin 0 → Fin s.rank))
    (init : IVec Cert.Pre_finite_inputs.S_ 1)
    (hr : s.ReducesTo axes Cert.Pre_finite_inputs.S_) (hu : 0 < Cert.Pre_finite_inputs.S_.numel)
    (e : Host.reduce IntOp.andi
          (cmpf .olt (Host.absf v)
            (broadcastInDim s ![] hb (constant (F := Ideal) Cert.Pre_finite_inputs.S_ .f32 0x7F800000#32)))
          init hr hu ix0 = 1#1) :
    ∀ i, IsFin (v i) := fun i =>
  isFin_of_cmp (v i) (Host.reduce_andi_all _ init hr hu ix0 e i)

end Cert.Gin.PreRead

namespace Cert.Gin

open Idealize.ShloMosaic Idealize.ShloMosaic.TcCoe Idealize.ShloMosaic.ValueIdx Idealize.SL.Sem Cert.KernelIdeal

/-- Under the precondition every entry of every float argument of the idealized kernel program is a real number. -/
theorem finite_of_pre (m : (ℓ : Loc nD τ sig) → Buf (Elt Ideal) ℓ) (hpre : Cert.Pre_KernelIdeal m) (c : Dev nD) :
    (∀ i, IsFin ((m ((c.tc : Thread nD τ).loc main_arg0) : SN128.Idx → EReal) i))
    ∧ (∀ i, IsFin ((m ((c.tc : Thread nD τ).loc main_arg3) : SW128x64.Idx → EReal) i))
    ∧ (∀ i, IsFin ((m ((c.tc : Thread nD τ).loc main_arg4) : SB64.Idx → EReal) i))
    ∧ (∀ i, IsFin ((m ((c.tc : Thread nD τ).loc main_arg5) : SW64x64.Idx → EReal) i))
    ∧ (∀ i, IsFin ((m ((c.tc : Thread nD τ).loc main_arg6) : SB64.Idx → EReal) i))
    ∧ (∀ i, IsFin ((m ((c.tc : Thread nD τ).loc main_arg7) : SW64x64.Idx → EReal) i))
    ∧ (∀ i, IsFin ((m ((c.tc : Thread nD τ).loc main_arg8) : SB64.Idx → EReal) i))
    ∧ (∀ i, IsFin ((m ((c.tc : Thread nD τ).loc main_arg9) : SW64x64.Idx → EReal) i))
    ∧ (∀ i, IsFin ((m ((c.tc : Thread nD τ).loc main_arg10) : SB64.Idx → EReal) i))
    ∧ (∀ i, IsFin ((m ((c.tc : Thread nD τ).loc main_arg11) : SW64x64.Idx → EReal) i))
    ∧ (∀ i, IsFin ((m ((c.tc : Thread nD τ).loc main_arg12) : SB64.Idx → EReal) i))
    ∧ (∀ i, IsFin ((m ((c.tc : Thread nD τ).loc main_arg13) : SW64x128.Idx → EReal) i))
    ∧ (∀ i, IsFin ((m ((c.tc : Thread nD τ).loc main_arg14) : SB128.Idx → EReal) i)) := by
  -- the predicate's one result entry is the bit 1
  have h := congrFun (hpre c) ix0
  unfold Cert.Pre_finite_inputs.fn Cert.Pre_finite_inputs.fn_part1 Cert.Pre_finite_inputs.fn_part2
    Cert.Pre_finite_inputs.fn_part3 at h
  dsimp only at h
  -- the chain of conjunctions, last argument first
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h0, h3⟩ := IntOp.andi_eq_one.1 h
  -- each conjunct is one argument's all-reduction
  have a0 := PreRead.allFin_of_reduce _ _ _ _ _ h0
  have a3 := PreRead.allFin_of_reduce _ _ _ _ _ h3
  have a4 := PreRead.allFin_of_reduce _ _ _ _ _ h4
  have a5 := PreRead.allFin_of_reduce _ _ _ _ _ h5
  have a6 := PreRead.allFin_of_reduce _ _ _ _ _ h6
  have a7 := PreRead.allFin_of_reduce _ _ _ _ _ h7
  have a8 := PreRead.allFin_of_reduce _ _ _ _ _ h8
  have a9 := PreRead.allFin_of_reduce _ _ _ _ _ h9
  have a10 := PreRead.allFin_of_reduce _ _ _ _ _ h10
  have a11 := PreRead.allFin_of_reduce _ _ _ _ _ h11
  have a12 := PreRead.allFin_of_reduce _ _ _ _ _ h12
  have a13 := PreRead.allFin_of_reduce _ _ _ _ _ h13
  have a14 := PreRead.allFin_of_reduce _ _ _ _ _ h14
  exact ⟨a0, a3, a4, a5, a6, a7, a8, a9, a10, a11, a12, a13, a14⟩

end Cert.Gin

end
-- ==== Proof.lean ====
import proofs.«411005_j84894323572906_3_alg».proof.Defs
import proofs.«411005_j84894323572906_3_alg».proof.Proof.Gen.Kernel
import proofs.«411005_j84894323572906_3_alg».proof.Proof.Gen.Kernel.Skeleton
import proofs.«411005_j84894323572906_3_alg».proof.Proof.Gen.Kernel.Launch
import proofs.«411005_j84894323572906_3_alg».proof.Proof.Gen.Kernel.Points
import proofs.«411005_j84894323572906_3_alg».proof.Proof.Gen.Kernel.Frame
import proofs.«411005_j84894323572906_3_alg».proof.Proof.Gen.KernelIdeal
import proofs.«411005_j84894323572906_3_alg».proof.Proof.Gen.KernelIdeal.Skeleton
import proofs.«411005_j84894323572906_3_alg».proof.Proof.Gen.KernelIdeal.Launch
import proofs.«411005_j84894323572906_3_alg».proof.Proof.Gen.KernelIdeal.Points
import proofs.«411005_j84894323572906_3_alg».proof.Proof.Gen.KernelIdeal.Frame
import proofs.«411005_j84894323572906_3_alg».proof.Proof.Gen.ReferenceIdeal
import proofs.«411005_j84894323572906_3_alg».proof.Proof.Gen.ReferenceIdeal.Run
import proofs.«411005_j84894323572906_3_alg».proof.Proof.Gen.ReferenceIdeal.Read
import proofs.«411005_j84894323572906_3_alg».proof.Proof.Gen.Pre_finite_inputs
import proofs.«411005_j84894323572906_3_alg».proof.Proof.KRun
import proofs.«411005_j84894323572906_3_alg».proof.Proof.Stages
import proofs.«411005_j84894323572906_3_alg».proof.Proof.RefSide
import proofs.«411005_j84894323572906_3_alg».proof.Proof.Algebra
import proofs.«411005_j84894323572906_3_alg».proof.Proof.Finite
import Idealize.ShloMosaic.Adequacy
import Idealize.ShloMosaic.Init

/-!
  A two-layer graph isomorphism network with a mean pool, as three pipelined kernels among host gathers and
  scatter-adds, against its plain reference.

  The kernel program computes h₀ = x·W_in + b_in in row blocks; for each layer the neighbour sum a = Σ_{(s, n) ∈ E} h[s]
  on the host, then relu(relu([h | a]·[W₁; W₁] + b₁)·W₂ + b₂) in row blocks; the second layer's rows are never stored:
  each block is folded into a resident 128 × 64 block by a one-hot product, pooled[g] = Σ_{batch n = g} h₂[n]; the host
  then forms (pooled·W_out + count·b_out) / max(count, 1).  The reference computes relu(relu((h + a)·W₁ + b₁)·W₂ + b₂),
  projects every row, h₂[n]·W_out + b_out, and sums the projected rows of each graph before the same division.

  Over the extended reals the two agree wherever the inputs are real numbers, which the precondition says:
  [h | a]·[W₁; W₁] = h·W₁ + a·W₁ = (h + a)·W₁ and Σ_{n ∈ g}(h₂[n]·W + b) = (Σ_{n ∈ g} h₂[n])·W + |g|·b are the
  distributive law, and the one-hot weight [batch n = g] picks exactly the rows the reference's scatter lands on row g
  (an id outside 0 … 127 is dropped by both).  The neighbour sums are the same host operations on both sides and are
  carried as one function.

  The frames of the two kernel programs are the generated ones; the reference's frame is its generated run with the
  result dropped; the ideal pass rewrote nothing, so `preserves` is `True`.
-/

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, end with equal results: the kernel program's
    result is `kerAll` of its arguments (the fold through its segments), the reference's is `refAll` of the same
    arrays (its run read operation by operation), and the two functions agree on real inputs. -/
theorem algebraic : Cert.algebraic_KernelIdeal_ReferenceIdeal := by
  intro m ρ m' ρ' hpre hagree
  refine ⟨fun c => Cert.KernelIdeal.Gen.W7 m ρ c (Proc.devRef .tc Cert.KernelIdeal.main_v45),
    Cert.KernelIdeal.GinRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨f0, f3, f4, f5, f6, f7, f8, f9, f10, f11, f12, f13, f14⟩ := Cert.Gin.finite_of_pre m hpre c
  obtain ⟨e0, e1, e2, e3, e4, e5, e6, e7, e8, e9, e10, e11, e12, e13, e14⟩ := hagree c
  rw [Cert.ReferenceIdeal.Read.val_main_v65_eq, e0, e1, e2, e3, e4, e5, e6, e7, e8, e9, e10, e11, e12, e13, e14]
  refine (Cert.Gin.ref_value _ _ _ _ _ _ _ _ _ _ _ _ _ _ _).trans ?_
  refine (Cert.Gin.kerAll_eq_refAll _ _ _ _ _ _ _ _ _ _ _ _ _ _ _ f0 f3 f4 f5 f6 f7 f8 f9 f10 f11 f12 f13 f14).symm.trans ?_
  exact (Cert.KernelIdeal.GinK.w7_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
